-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x200000 : Shape := ⟨2, ![1, 200000]⟩
abbrev S200000x256 : Shape := ⟨2, ![200000, 256]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x1 : Shape := ⟨2, ![128, 1]⟩
abbrev S_ : Shape := ⟨0, ![]⟩

class Facts : Prop where
  bcast_S_S200000x256 : S_.BroadcastsInDim S200000x256 (![] : Fin 0 → Fin S200000x256.rank)
  reducesTo_S200000x256_S_d0_1 : S200000x256.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_

variable [Facts]

def fn_part1 {F : FTy → Type} [FloatOps F] (main_arg5 : FVec F S128 .f32) (main_arg6 : FVec F S128x1 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x1 .f32 := Host.absf main_arg6
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  main_v28

def fn {F : FTy → Type} [FloatOps F] (main_arg0 : IVec S1x200000 32) (main_arg1 : FVec F S200000x256 .f32) (main_arg2 : FVec F S512x256 .f32) (main_arg3 : FVec F S256 .f32) (main_arg4 : FVec F S256x128 .f32) (main_arg5 : FVec F S128 .f32) (main_arg6 : FVec F S128x1 .f32) : IVec S_ 1 :=
  let main_v0 : FVec F S200000x256 .f32 := Host.absf main_arg1
  let main_cst : FVec F S_ .f32 := constant S_ .f32 0x7F800000#32
  let main_v1 : FVec F S200000x256 .f32 := broadcastInDim S200000x256 ![] bcast_S_S200000x256 main_cst
  let main_v2 : IVec S200000x256 1 := cmpf .olt main_v0 main_v1
  let main_c : IVec S_ 1 := constantI S_ 1 1#1
  let main_v3 : IVec S_ 1 := (fun x v => Host.reduce IntOp.andi x v reducesTo_S200000x256_S_d0_1 h_S_) main_v2 main_c
  let main_v4 : FVec F S512x256 .f32 := Host.absf main_arg2
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_v13 main_v16
-- ==== Kernel.lean ====
abbrev S1x200000 : Shape := ⟨2, ![1, 200000]⟩
abbrev S200000x256 : Shape := ⟨2, ![200000, 256]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x1 : Shape := ⟨2, ![128, 1]⟩
abbrev S256x256 : Shape := ⟨2, ![256, 256]⟩
abbrev S1x256 : Shape := ⟨2, ![1, 256]⟩
abbrev S1x128 : Shape := ⟨2, ![1, 128]⟩
abbrev S50x1x4000 : Shape := ⟨3, ![50, 1, 4000]⟩
abbrev S50x1x1 : Shape := ⟨3, ![50, 1, 1]⟩
abbrev S4000x256 : Shape := ⟨2, ![4000, 256]⟩
abbrev S1x1x4000 : Shape := ⟨3, ![1, 1, 4000]⟩
abbrev S1x1x1 : Shape := ⟨3, ![1, 1, 1]⟩
abbrev S4000x128 : Shape := ⟨2, ![4000, 128]⟩
abbrev S1x4000 : Shape := ⟨2, ![1, 4000]⟩
abbrev S1 : Shape := ⟨1, ![1]⟩
abbrev S1x1 : Shape := ⟨2, ![1, 1]⟩
abbrev S200000 : Shape := ⟨1, ![200000]⟩
abbrev S50 : Shape := ⟨1, ![50]⟩
abbrev S_ : Shape := ⟨0, ![]⟩
abbrev S200000x1 : Shape := ⟨2, ![200000, 1]⟩
abbrev S200001x1 : Shape := ⟨2, ![200001, 1]⟩

abbrev nBuf : Space → Nat
  | .hbm => 58
  | .vmem => 14
  | .smem => 0
  | _ => 0

abbrev bufTy : (tb : Table) → Fin (tcTables nBuf tb) → BufTy
  | .hbm, ⟨0, _⟩ => ⟨S1x200000, .i32⟩
  | .hbm, ⟨1, _⟩ => ⟨S200000x256, .f32⟩
  | .hbm, ⟨2, _⟩ => ⟨S512x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S128x1, .f32⟩
  | .hbm, ⟨7, _⟩ => ⟨S256x256, .f32⟩
  | .hbm, ⟨8, _⟩ => ⟨S256x256, .f32⟩
  | .hbm, ⟨9, _⟩ => ⟨S1x256, .f32⟩
  | .hbm, ⟨10, _⟩ => ⟨S1x256, .f32⟩
  | .hbm, ⟨11, _⟩ => ⟨S1x256, .f32⟩
  | .hbm, ⟨12, _⟩ => ⟨S1x128, .f32⟩
  | .hbm, ⟨13, _⟩ => ⟨S1x128, .f32⟩
  | .hbm, ⟨14, _⟩ => ⟨S1x128, .bf16⟩
  | .hbm, ⟨15, _⟩ => ⟨S256x256, .bf16⟩
  | .hbm, ⟨16, _⟩ => ⟨S256x128, .bf16⟩
  | .hbm, ⟨17, _⟩ => ⟨S50x1x4000, .i32⟩
  | .hbm, ⟨18, _⟩ => ⟨S50x1x4000, .f32⟩
  | .hbm, ⟨19, _⟩ => ⟨S50x1x1, .f32⟩
  | .hbm, ⟨20, _⟩ => ⟨S200000, .f32⟩
  | .hbm, ⟨21, _⟩ => ⟨S50, .f32⟩
  | .hbm, ⟨22, _⟩ => ⟨S1x256, .f32⟩
  | .hbm, ⟨23, _⟩ => ⟨S_, .f32⟩
  | .hbm, ⟨24, _⟩ => ⟨S1x256, .f32⟩
  | .hbm, ⟨25, _⟩ => ⟨S1x256, .f32⟩
  | .hbm, ⟨26, _⟩ => ⟨S1x128, .f32⟩
  | .hbm, ⟨27, _⟩ => ⟨S1x128, .f32⟩
  | .hbm, ⟨28, _⟩ => ⟨S_, .f32⟩
  | .hbm, ⟨29, _⟩ => ⟨S1x128, .f32⟩
  | .hbm, ⟨30, _⟩ => ⟨S1x128, .f32⟩
  | .hbm, ⟨31, _⟩ => ⟨S1x1, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S200000, .f32⟩
  | .hbm, ⟨37, _⟩ => ⟨S200000, .f32⟩
  | .hbm, ⟨38, _⟩ => ⟨S200000, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S200000, .f32⟩
  | .hbm, ⟨45, _⟩ => ⟨S200000, .f32⟩
  | .hbm, ⟨46, _⟩ => ⟨S200000, .i32⟩
  | .hbm, ⟨47, _⟩ => ⟨S_, .i32⟩
  | .hbm, ⟨48, _⟩ => ⟨S200000, .i32⟩
  | .hbm, ⟨49, _⟩ => ⟨S200000, .i1⟩
  | .hbm, ⟨50, _⟩ => ⟨S_, .f32⟩
  | .hbm, ⟨51, _⟩ => ⟨S_, .f32⟩
  | .hbm, ⟨52, _⟩ => ⟨S200000, .f32⟩
  | .hbm, ⟨53, _⟩ => ⟨S200000, .f32⟩
  | .hbm, ⟨54, _⟩ => ⟨S200000x1, .f32⟩
  | .hbm, ⟨55, _⟩ => ⟨S_, .f32⟩
  | .hbm, ⟨56, _⟩ => ⟨S1x1, .f32⟩
  | .hbm, ⟨57, _⟩ => ⟨S200001x1, .f32⟩
  | .local _ .vmem, ⟨0, _⟩ => ⟨S4000x256, .f32⟩
  | .local _ .vmem, ⟨1, _⟩ => ⟨S4000x256, .f32⟩
  | .local _ .vmem, ⟨2, _⟩ => ⟨S1x1x4000, .i32⟩
  | .local _ .vmem, ⟨3, _⟩ => ⟨S1x1x4000, .i32⟩
  | .local _ .vmem, ⟨4, _⟩ => ⟨S256x256, .bf16⟩
  | .local _ .vmem, ⟨5, _⟩ => ⟨S1x256, .f32⟩
  | .local _ .vmem, ⟨6, _⟩ => ⟨S1x256, .f32⟩
  | .local _ .vmem, ⟨7, _⟩ => ⟨S256x128, .bf16⟩
  | .local _ .vmem, ⟨8, _⟩ => ⟨S1x128, .f32⟩
  | .local _ .vmem, ⟨9, _⟩ => ⟨S1x128, .bf16⟩
  | .local _ .vmem, ⟨10, _⟩ => ⟨S1x1x4000, .f32⟩
  | .local _ .vmem, ⟨11, _⟩ => ⟨S1x1x4000, .f32⟩
  | .local _ .vmem, ⟨12, _⟩ => ⟨S1x1x1, .f32⟩
  | .local _ .vmem, ⟨13, _⟩ => ⟨S1x1x1, .f32⟩
  | _, _ => ⟨S1x200000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_0 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_2 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_c : Ref sig .tc := ⟨.hbm, 47, rfl⟩
abbrev main_v35 : Ref sig .tc := ⟨.hbm, 48, rfl⟩
abbrev main_v36 : Ref sig .tc := ⟨.hbm, 49, rfl⟩
abbrev main_cst_3 : Ref sig .tc := ⟨.hbm, 50, rfl⟩
abbrev main_call0_v0 : Ref sig .tc := ⟨.hbm, 51, rfl⟩
abbrev main_call0_v1 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x4000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1x4000 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S512x256_S256x256_0_0 : S512x256.Slices ![0, 0] S256x256
  slices_S512x256_S256x256_256_0 : S512x256.Slices ![256, 0] S256x256
  slices_S200000x256_S1x256_0_0 : S200000x256.Slices ![0, 0] S1x256
  shapeCasts_S256_S1x256 : S256.ShapeCasts S1x256
  shapeCasts_S128_S1x128 : S128.ShapeCasts S1x128
  shapeCasts_S128x1_S1x128 : S128x1.ShapeCasts S1x128
  bitsLt_bf16_f32 : FTy.bits .bf16 < FTy.bits .f32
  shapeCasts_S1x200000_S50x1x4000 : S1x200000.ShapeCasts S50x1x4000
  inb_S4000x256_S1x256_0_0 : ∀ a, (![0, 0] : Fin 2 → Nat) a + S1x256.size a ≤ S4000x256.size a
  h_S1x256 : 0 < S1x256.numel
  shapeCasts_S1x256_S256 : S1x256.ShapeCasts S256
  inb_S4000x256_S4000x256_0_0 : ∀ a, (![0, 0] : Fin 2 → Nat) a + S4000x256.size a ≤ S4000x256.size a
  h_S4000x256 : 0 < S4000x256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  shapeCasts_S1x256_S1x256 : S1x256.ShapeCasts S1x256
  broadcasts_S1x256_S4000x256 : S1x256.Broadcasts S4000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S1x1x4000_S1x1x4000_0_0_0 : ∀ a, (![0, 0, 0] : Fin 3 → Nat) a + S1x1x4000.size a ≤ S1x1x4000.size a
  h_S1x1x4000 : 0 < S1x1x4000.numel
  shapeCasts_S1x1x4000_S1x4000 : S1x1x4000.ShapeCasts S1x4000
  shapeCasts_S1x4000_S1x1x4000 : S1x4000.ShapeCasts S1x1x4000
  reduces_S1x4000_S1 : S1x4000.Reduces [1] S1
  shapeCasts_S1_S1x1 : S1.ShapeCasts S1x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  shapeCasts_S50x1x4000_S200000 : S50x1x4000.ShapeCasts S200000
  shapeCasts_S50x1x1_S50 : S50x1x1.ShapeCasts S50
  bcast_S_S1x256 : S_.BroadcastsInDim S1x256 (![] : Fin 0 → Fin S1x256.rank)
  bcast_S_S1x128 : S_.BroadcastsInDim S1x128 (![] : Fin 0 → Fin S1x128.rank)
  shapeCasts_S1x1_S_ : S1x1.ShapeCasts S_
  reducesTo_S50_S_d0 : S50.ReducesTo [0] S_
  h_S_ : 0 < S_.numel
  bcast_S_S200000 : S_.BroadcastsInDim S200000 (![] : Fin 0 → Fin S200000.rank)
  reducesTo_S200000_S_d0 : S200000.ReducesTo [0] S_
  shapeCasts_S1x200000_S200000 : S1x200000.ShapeCasts S200000
  shapeCasts_S200000_S200000x1 : S200000.ShapeCasts S200000x1
  shapeCasts_S_S1x1 : S_.ShapeCasts S1x1
  concatenates_S200000x1_S1x1_S200001x1_d0 : Shape.Concatenates [S200000x1, S1x1] S200001x1 0
  dot_S1x256_S256x256_S1x256_1_0_0_1_n_n_wf : DotDims.WF S1x256 S256x256 S1x256 [1] [0] [0] [1] [] []
  dot_S4000x256_S256x256_S4000x256_1_0_0_1_n_n_wf : DotDims.WF S4000x256 S256x256 S4000x256 [1] [0] [0] [1] [] []
  dot_S4000x256_S256x128_S4000x128_1_0_0_1_n_n_wf : DotDims.WF S4000x256 S256x128 S4000x128 [1] [0] [0] [1] [] []
  dot_S1x128_S4000x128_S1x4000_1_1_0_0_n_n_wf : DotDims.WF S1x128 S4000x128 S1x4000 [1] [1] [0] [0] [] []
  dot_S1x256_S256x128_S1x128_1_0_0_1_n_n_wf : DotDims.WF S1x256 S256x128 S1x128 [1] [0] [0] [1] [] []
  dot_S1x128_S128x1_S1x1_1_0_0_1_n_n_wf : DotDims.WF S1x128 S128x1 S1x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S200000x256.size a
  hwx0_0 : ∀ i : grid0.Coords, EltTy.bits .f32 = 32 ∨ (Rect.block (s := S200000x256) S4000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x4000.size a ≤ S50x1x4000.size a
  hwx0_1 : ∀ i : grid0.Coords, EltTy.bits .i32 = 32 ∨ (Rect.block (s := S50x1x4000) S1x1x4000.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .bf16 = 32 ∨ (Rect.block (s := S256x128) S256x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .bf16 = 32 ∨ (Rect.block (s := S1x128) S1x128.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x4000.size a ≤ S50x1x4000.size a
  hwx0_8 : ∀ i : grid0.Coords, EltTy.bits .f32 = 32 ∨ (Rect.block (s := S50x1x4000) S1x1x4000.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1x1.size a ≤ S50x1x1.size a
  hwx0_9 : ∀ i : grid0.Coords, EltTy.bits .f32 = 32 ∨ (Rect.block (s := S50x1x1) S1x1x1.size (cc0_transform_9 i) (hinb0_9 i)).WholeWords (EltTy.packing .f32)

variable [Facts₀]

def dot_S1x256_S256x256_S1x256_1_0_0_1_n_n : DotDims S1x256 S256x256 S1x256 where
  lhsContracting := [1]
  rhsContracting := [0]
  lhsNonContracting := [0]
  rhsNonContracting := [1]
  lhsBatch := []
  rhsBatch := []
  wf := dot_S1x256_S256x256_S1x256_1_0_0_1_n_n_wf
def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def dot_S1x128_S4000x128_S1x4000_1_1_0_0_n_n : DotDims S1x128 S4000x128 S1x4000 where
  lhsContracting := [1]
  rhsContracting := [1]
  lhsNonContracting := [0]
  rhsNonContracting := [0]
  lhsBatch := []
  rhsBatch := []
  wf := dot_S1x128_S4000x128_S1x4000_1_1_0_0_n_n_wf
def dot_S1x256_S256x128_S1x128_1_0_0_1_n_n : DotDims S1x256 S256x128 S1x128 where
  lhsContracting := [1]
  rhsContracting := [0]
  lhsNonContracting := [0]
  rhsNonContracting := [1]
  lhsBatch := []
  rhsBatch := []
  wf := dot_S1x256_S256x128_S1x128_1_0_0_1_n_n_wf
def dot_S1x128_S128x1_S1x1_1_0_0_1_n_n : DotDims S1x128 S128x1 S1x1 where
  lhsContracting := [1]
  rhsContracting := [0]
  lhsNonContracting := [0]
  rhsNonContracting := [1]
  lhsBatch := []
  rhsBatch := []
  wf := dot_S1x128_S128x1_S1x1_1_0_0_1_n_n_wf

abbrev win0_0 : Pipeline.Window sig grid0 :=
  Pipeline.Window.ofSpec (Memref.whole main_arg1) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S1x1x4000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11_0) S1x1x4000.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v11_1) S1x1x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S1x200000 : Shape := ⟨2, ![1, 200000]⟩
abbrev S200000x256 : Shape := ⟨2, ![200000, 256]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x1 : Shape := ⟨2, ![128, 1]⟩
abbrev S200000 : Shape := ⟨1, ![200000]⟩
abbrev S_ : Shape := ⟨0, ![]⟩
abbrev S1 : Shape := ⟨1, ![1]⟩
abbrev S200001 : Shape := ⟨1, ![200001]⟩
abbrev S1x256 : Shape := ⟨2, ![1, 256]⟩
abbrev S200001x256 : Shape := ⟨2, ![200001, 256]⟩
abbrev S200001x512 : Shape := ⟨2, ![200001, 512]⟩
abbrev S200001x128 : Shape := ⟨2, ![200001, 128]⟩
abbrev S1x128 : Shape := ⟨2, ![1, 128]⟩
abbrev S200001x1 : Shape := ⟨2, ![200001, 1]⟩
abbrev S1x1 : Shape := ⟨2, ![1, 1]⟩

abbrev nBuf : Space → Nat
  | .hbm => 64
  | .vmem => 0
  | .smem => 0
  | _ => 0

abbrev bufTy : (tb : Table) → Fin (tcTables nBuf tb) → BufTy
  | .hbm, ⟨0, _⟩ => ⟨S1x200000, .i32⟩
  | .hbm, ⟨1, _⟩ => ⟨S200000x256, .f32⟩
  | .hbm, ⟨2, _⟩ => ⟨S512x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S128x1, .f32⟩
  | .hbm, ⟨7, _⟩ => ⟨S200000, .i32⟩
  | .hbm, ⟨8, _⟩ => ⟨S_, .i32⟩
  | .hbm, ⟨9, _⟩ => ⟨S200000, .i32⟩
  | .hbm, ⟨10, _⟩ => ⟨S200000, .i1⟩
  | .hbm, ⟨11, _⟩ => ⟨S_, .i1⟩
  | .hbm, ⟨12, _⟩ => ⟨S1, .i1⟩
  | .hbm, ⟨13, _⟩ => ⟨S200001, .i1⟩
  | .hbm, ⟨14, _⟩ => ⟨S_, .i32⟩
  | .hbm, ⟨15, _⟩ => ⟨S1, .i32⟩
  | .hbm, ⟨16, _⟩ => ⟨S_, .f32⟩
  | .hbm, ⟨17, _⟩ => ⟨S256, .f32⟩
  | .hbm, ⟨18, _⟩ => ⟨S200000x256, .f32⟩
  | .hbm, ⟨19, _⟩ => ⟨S_, .f32⟩
  | .hbm, ⟨20, _⟩ => ⟨S1x256, .f32⟩
  | .hbm, ⟨21, _⟩ => ⟨S200001x256, .f32⟩
  | .hbm, ⟨22, _⟩ => ⟨S1x256, .f32⟩
  | .hbm, ⟨23, _⟩ => ⟨S256, .f32⟩
  | .hbm, ⟨24, _⟩ => ⟨S200001x256, .f32⟩
  | .hbm, ⟨25, _⟩ => ⟨S200001x512, .f32⟩
  | .hbm, ⟨26, _⟩ => ⟨S200001x256, .f32⟩
  | .hbm, ⟨27, _⟩ => ⟨S1x256, .f32⟩
  | .hbm, ⟨28, _⟩ => ⟨S200001x256, .f32⟩
  | .hbm, ⟨29, _⟩ => ⟨S200001x256, .f32⟩
  | .hbm, ⟨30, _⟩ => ⟨S_, .f32⟩
  | .hbm, ⟨31, _⟩ => ⟨S200001x256, .f32⟩
  | .hbm, ⟨32, _⟩ => ⟨S200001x256, .f32⟩
  | .hbm, ⟨33, _⟩ => ⟨S200001x128, .f32⟩
  | .hbm, ⟨34, _⟩ => ⟨S1x128, .f32⟩
  | .hbm, ⟨35, _⟩ => ⟨S200001x128, .f32⟩
  | .hbm, ⟨36, _⟩ => ⟨S200001x128, .f32⟩
  | .hbm, ⟨37, _⟩ => ⟨S_, .f32⟩
  | .hbm, ⟨38, _⟩ => ⟨S200001x128, .f32⟩
  | .hbm, ⟨39, _⟩ => ⟨S200001x128, .f32⟩
  | .hbm, ⟨40, _⟩ => ⟨S200001x1, .f32⟩
  | .hbm, ⟨41, _⟩ => ⟨S200001x1, .i1⟩
  | .hbm, ⟨42, _⟩ => ⟨S_, .f32⟩
  | .hbm, ⟨43, _⟩ => ⟨S200001x1, .f32⟩
  | .hbm, ⟨44, _⟩ => ⟨S200001x1, .f32⟩
  | .hbm, ⟨45, _⟩ => ⟨S_, .f32⟩
  | .hbm, ⟨46, _⟩ => ⟨S1, .f32⟩
  | .hbm, ⟨47, _⟩ => ⟨S_, .f32⟩
  | .hbm, ⟨48, _⟩ => ⟨S1, .f32⟩
  | .hbm, ⟨49, _⟩ => ⟨S1, .f32⟩
  | .hbm, ⟨50, _⟩ => ⟨S1x1, .f32⟩
  | .hbm, ⟨51, _⟩ => ⟨S200001x1, .f32⟩
  | .hbm, ⟨52, _⟩ => ⟨S200001x1, .f32⟩
  | .hbm, ⟨53, _⟩ => ⟨S200001x1, .f32⟩
  | .hbm, ⟨54, _⟩ => ⟨S_, .f32⟩
  | .hbm, ⟨55, _⟩ => ⟨S1, .f32⟩
  | .hbm, ⟨56, _⟩ => ⟨S1x1, .f32⟩
  | .hbm, ⟨57, _⟩ => ⟨S200001x1, .f32⟩
  | .hbm, ⟨58, _⟩ => ⟨S200001x1, .f32⟩
  | .hbm, ⟨59, _⟩ => ⟨S200001x1, .i1⟩
  | .hbm, ⟨60, _⟩ => ⟨S_, .f32⟩
  | .hbm, ⟨61, _⟩ => ⟨S_, .f32⟩
  | .hbm, ⟨62, _⟩ => ⟨S200001x1, .f32⟩
  | .hbm, ⟨63, _⟩ => ⟨S200001x1, .f32⟩
  | _, _ => ⟨S1x200000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_call0_cst : Ref sig .tc := ⟨.hbm, 30, rfl⟩
abbrev main_call0_v0 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_call1_cst : Ref sig .tc := ⟨.hbm, 37, rfl⟩
abbrev main_call1_v0 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_3 : Ref sig .tc := ⟨.hbm, 42, rfl⟩
abbrev main_call2_v0 : Ref sig .tc := ⟨.hbm, 43, rfl⟩
abbrev main_v26 : Ref sig .tc := ⟨.hbm, 44, rfl⟩
abbrev main_cst_4 : Ref sig .tc := ⟨.hbm, 45, rfl⟩
abbrev main_v27 : Ref sig .tc := ⟨.hbm, 46, rfl⟩
abbrev main_cst_5 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_6 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_7 : Ref sig .tc := ⟨.hbm, 60, rfl⟩
abbrev main_call3_v0 : Ref sig .tc := ⟨.hbm, 61, rfl⟩
abbrev main_call3_v1 : Ref sig .tc := ⟨.hbm, 62, rfl⟩
abbrev main_v39 : Ref sig .tc := ⟨.hbm, 63, rfl⟩

abbrev nD : Nat := 1
abbrev τ : Topo := Topo.v7x

variable {F : FTy → Type} [FloatOps F]

class Facts₀ : Prop where
  shapeCasts_S1x200000_S200000 : S1x200000.ShapeCasts S200000
  bcast_S_S200000 : S_.BroadcastsInDim S200000 (![] : Fin 0 → Fin S200000.rank)
  bcast_S_S1 : S_.BroadcastsInDim S1 (![] : Fin 0 → Fin S1.rank)
  concatenates_S200000_S1_S200001_d0 : Shape.Concatenates [S200000, S1] S200001 0
  bcast_S_S256 : S_.BroadcastsInDim S256 (![] : Fin 0 → Fin S256.rank)
  bcast_S_S1x256 : S_.BroadcastsInDim S1x256 (![] : Fin 0 → Fin S1x256.rank)
  concatenates_S200000x256_S1x256_S200001x256_d0 : Shape.Concatenates [S200000x256, S1x256] S200001x256 0
  slices_S200000x256_S1x256_0_0 : S200000x256.Slices ![0, 0] S1x256
  shapeCasts_S1x256_S256 : S1x256.ShapeCasts S256
  bcast_S256_S200001x256_1 : S256.BroadcastsInDim S200001x256 (![1] : Fin 1 → Fin S200001x256.rank)
  concatenates_S200001x256_S200001x256_S200001x512_d1 : Shape.Concatenates [S200001x256, S200001x256] S200001x512 1
  bcast_S256_S1x256_1 : S256.BroadcastsInDim S1x256 (![1] : Fin 1 → Fin S1x256.rank)
  bcast_S1x256_S200001x256_0_1 : S1x256.BroadcastsInDim S200001x256 (![0, 1] : Fin 2 → Fin S200001x256.rank)
  bcast_S_S200001x256 : S_.BroadcastsInDim S200001x256 (![] : Fin 0 → Fin S200001x256.rank)
  bcast_S128_S1x128_1 : S128.BroadcastsInDim S1x128 (![1] : Fin 1 → Fin S1x128.rank)
  bcast_S1x128_S200001x128_0_1 : S1x128.BroadcastsInDim S200001x128 (![0, 1] : Fin 2 → Fin S200001x128.rank)
  bcast_S_S200001x128 : S_.BroadcastsInDim S200001x128 (![] : Fin 0 → Fin S200001x128.rank)
  bcast_S200001_S200001x1_0 : S200001.BroadcastsInDim S200001x1 (![0] : Fin 1 → Fin S200001x1.rank)
  bcast_S_S200001x1 : S_.BroadcastsInDim S200001x1 (![] : Fin 0 → Fin S200001x1.rank)
  reducesTo_S200001x1_S1_d0 : S200001x1.ReducesTo [0] S1
  h_S_ : 0 < S_.numel
  bcast_S1_S1x1_1 : S1.BroadcastsInDim S1x1 (![1] : Fin 1 → Fin S1x1.rank)
  bcast_S1x1_S200001x1_0_1 : S1x1.BroadcastsInDim S200001x1 (![0, 1] : Fin 2 → Fin S200001x1.rank)
  scatter_S200000x256_S1_S256_0_0_0_0_wf : ScatterDims.WF S200000x256 S1 S256 [0] [0] [0] 0
  dot_S200001x512_S512x256_S200001x256_1_0_0_1_n_n_wf : DotDims.WF S200001x512 S512x256 S200001x256 [1] [0] [0] [1] [] []
  dot_S200001x256_S256x128_S200001x128_1_0_0_1_n_n_wf : DotDims.WF S200001x256 S256x128 S200001x128 [1] [0] [0] [1] [] []
  dot_S200001x128_S128x1_S200001x1_1_0_0_1_n_n_wf : DotDims.WF S200001x128 S128x1 S200001x1 [1] [0] [0] [1] [] []

variable [Facts₀]

def scatter_S200000x256_S1_S256_0_0_0_0 : ScatterDims S200000x256 S1 S256 where
  updateWindowDims := [0]
  insertedWindowDims := [0]
  scatterDimsToOperandDims := [0]
  indexVectorDim := 0
  wf := scatter_S200000x256_S1_S256_0_0_0_0_wf
def dot_S200001x512_S512x256_S200001x256_1_0_0_1_n_n : DotDims S200001x512 S512x256 S200001x256 where
  lhsContracting := [1]
  rhsContracting := [0]
  lhsNonContracting := [0]
  rhsNonContracting := [1]
  lhsBatch := []
  rhsBatch := []
  wf := dot_S200001x512_S512x256_S200001x256_1_0_0_1_n_n_wf
def dot_S200001x256_S256x128_S200001x128_1_0_0_1_n_n : DotDims S200001x256 S256x128 S200001x128 where
  lhsContracting := [1]
  rhsContracting := [0]
  lhsNonContracting := [0]
  rhsNonContracting := [1]
  lhsBatch := []
  rhsBatch := []
  wf := dot_S200001x256_S256x128_S200001x128_1_0_0_1_n_n_wf
def dot_S200001x128_S128x1_S200001x1_1_0_0_1_n_n : DotDims S200001x128 S128x1 S200001x1 where
  lhsContracting := [1]
  rhsContracting := [0]
  lhsNonContracting := [0]
  rhsNonContracting := [1]
  lhsBatch := []
  rhsBatch := []
  wf := dot_S200001x128_S128x1_S200001x1_1_0_0_1_n_n_wf

class Facts : Prop extends Facts₀ where

variable [Facts]
-- ==== Proof.Runs.lean ====
/-
  The kernel body of `Kernel` run once per control case, on any whole staging memrefs.

  The body has one branch, on `program_id == 0`: at the first grid point it overwrites row 0 of the feature block it was
  handed (256 zeros into the block's own staging buffer) before it loads the block; at every other point it loads the
  block as fetched. After that the two cases are the same straight line: three matrix products with bias, the
  self-contribution row and relu between them, the lane mask from the adjacency words, one store of the masked
  scores into the 1x1x4000 result block and one store of their lane maximum into the 1x1x1 result block.
  Each run is stated for every float instance: what the stores leave in each written buffer is a list of pieces,
  found when the buffer is handed back to the continuation.
-/
import proofs.«420732_j53626961657857_3_alg».proof.Proof.Gen.Kernel.Frame
import proofs.«420732_j53626961657857_3_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch: taken at the first grid point only -/

/-- The body's one condition, `program_id == 0` as the kernel computes it from the grid coordinate. -/
abbrev isFirst (i : grid0.Coords) : Prop :=
  (Scalar.cmpi .ne (Scalar.extui (Scalar.cmpi .eq (BitVec.ofNat 32 (i 0).val) 0#32)) 0#32) = 1#1

/-- Over the fifty points it holds at point 0 and nowhere else. -/
theorem isFirst_iff : ∀ t : Fin cfg0.N, isFirst (grid0.coords t) ↔ t.val = 0 :=
  (by decide +kernel : ∀ t : Fin grid0.N, isFirst (grid0.coords t) ↔ t.val = 0)

/-! ## The staging memrefs the pipeline hands the body at a point -/

abbrev ms0 (t : Fin cfg0.N) : Memref sig .tc .vmem S4000x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1x4000 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x256 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S256x128 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x128 .bf16 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x1x4000 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x1x1 .f32 := win0_9.stage (cfg0.slots t 9)
abbrev hs9 (t : Fin cfg0.N) : (ms9 t).IsWhole := hstage0_9 ((cfg0.slots t 9).cast nbuf0_9)

/-! ## The body away from the first point: the feature block is read as fetched -/

set_option maxHeartbeats 4000000 in
/-- At a point other than the first the body stores nothing into its inputs' buffers: from the eight input buffers at
    contents `x0 … x7` and the two result buffers at anything it runs to the continuation with the inputs as they were
    and each result buffer holding its pieces (the masked scores; their lane maximum). -/
noncomputable def runLater (c : Dev nD) (i : grid0.Coords) (arg1 : Memref sig .tc .vmem S4000x256 .f32) (harg1 : arg1.IsWhole) (arg2 : Memref sig .tc .vmem S1x1x4000 .i32) (harg2 : arg2.IsWhole) (arg3 : Memref sig .tc .vmem S256x256 .bf16) (harg3 : arg3.IsWhole) (arg4 : Memref sig .tc .vmem S1x256 .f32) (harg4 : arg4.IsWhole) (arg5 : Memref sig .tc .vmem S1x256 .f32) (harg5 : arg5.IsWhole) (arg6 : Memref sig .tc .vmem S256x128 .bf16) (harg6 : arg6.IsWhole) (arg7 : Memref sig .tc .vmem S1x128 .f32) (harg7 : arg7.IsWhole) (arg8 : Memref sig .tc .vmem S1x128 .bf16) (harg8 : arg8.IsWhole) (arg9 : Memref sig .tc .vmem S1x1x4000 .f32) (harg9 : arg9.IsWhole) (arg10 : Memref sig .tc .vmem S1x1x1 .f32) (harg10 : arg10.IsWhole) (hc : ¬isFirst i)
    (x0 : Vec F S4000x256 .f32) (x1 : Vec F S1x1x4000 .i32) (x2 : Vec F S256x256 .bf16) (x3 : Vec F S1x256 .f32) (x4 : Vec F S1x256 .f32) (x5 : Vec F S256x128 .bf16) (x6 : Vec F S1x128 .f32) (x7 : Vec F S1x128 .bf16) :
    Σ' (L8 : List (View.Piece (Elt F) S1x1x4000 .f32)), { L9 : List (View.Piece (Elt F) S1x1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7
            ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2
                ∗ owns (c : Thread nD τ) arg4 fullShare x3 ∗ owns (c : Thread nD τ) arg5 fullShare x4 ∗ owns (c : Thread nD τ) arg6 fullShare x5
                ∗ owns (c : Thread nD τ) arg7 fullShare x6 ∗ owns (c : Thread nD τ) arg8 fullShare x7
                ∗ (∃ f, arg9.view.loc (c : Thread nD τ) ↦[arg9.view.set]{fullShare} arg9.view.writes (Elt F) f L8)
                ∗ (∃ f, arg10.view.loc (c : Thread nD τ) ↦[arg10.view.set]{fullShare} arg10.view.writes (Elt F) f L9)) -∗ K ⟨⟩))
          ⊢ wp frame (wpE (defs₀ (F := F)) Variants.none c none) E (cc0__row_score_kernel i arg1 harg1 arg2 harg2 arg3 harg3 arg4 harg4 arg5 harg5 arg6 harg6 arg7 harg7 arg8 harg8 arg9 harg9 arg10 harg10) K } := by
  refine ⟨?_, ?_, fun E K => ?run⟩
  case run =>
    simp only [cc0__row_score_kernel_eq_skeleton]; unfold cc0__row_score_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
      ⟨%d8, %f8, -, H8⟩, ⟨%d9, %f9, -, H9⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg7.eq_unread hf6; obtain rfl := harg8.eq_unread hf7
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; iexact H8
    iexists _; iexact H9

/-! ## The body at the first point: row 0 of the feature block is overwritten, then the block is read -/

set_option maxHeartbeats 4000000 in
/-- At the first point the body first stores a row of zeros over row 0 of the feature block in that block's own staging
    buffer, then goes on as at the other points, loading the block it has just changed. The feature buffer comes back
    with that write applied to what was fetched (`L0`: the one piece), the other inputs as they were, and each result
    buffer with its pieces. -/
noncomputable def runFirst (c : Dev nD) (i : grid0.Coords) (arg1 : Memref sig .tc .vmem S4000x256 .f32) (harg1 : arg1.IsWhole) (arg2 : Memref sig .tc .vmem S1x1x4000 .i32) (harg2 : arg2.IsWhole) (arg3 : Memref sig .tc .vmem S256x256 .bf16) (harg3 : arg3.IsWhole) (arg4 : Memref sig .tc .vmem S1x256 .f32) (harg4 : arg4.IsWhole) (arg5 : Memref sig .tc .vmem S1x256 .f32) (harg5 : arg5.IsWhole) (arg6 : Memref sig .tc .vmem S256x128 .bf16) (harg6 : arg6.IsWhole) (arg7 : Memref sig .tc .vmem S1x128 .f32) (harg7 : arg7.IsWhole) (arg8 : Memref sig .tc .vmem S1x128 .bf16) (harg8 : arg8.IsWhole) (arg9 : Memref sig .tc .vmem S1x1x4000 .f32) (harg9 : arg9.IsWhole) (arg10 : Memref sig .tc .vmem S1x1x1 .f32) (harg10 : arg10.IsWhole) (hc : isFirst i)
    (x0 : Vec F S4000x256 .f32) (x1 : Vec F S1x1x4000 .i32) (x2 : Vec F S256x256 .bf16) (x3 : Vec F S1x256 .f32) (x4 : Vec F S1x256 .f32) (x5 : Vec F S256x128 .bf16) (x6 : Vec F S1x128 .f32) (x7 : Vec F S1x128 .bf16) :
    Σ' (L0 : List (View.Piece (Elt F) S4000x256 .f32)) (L8 : List (View.Piece (Elt F) S1x1x4000 .f32)), { L9 : List (View.Piece (Elt F) S1x1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7
            ∗ (∃ d, owns (c : Thread nD τ) arg9 fullShare d) ∗ (∃ d, owns (c : Thread nD τ) arg10 fullShare d)
            ∗ (iprop((arg1.view.loc (c : Thread nD τ) ↦[arg1.view.set]{fullShare} arg1.view.writes (Elt F) (harg1.unread x0) L0)
                ∗ owns (c : Thread nD τ) arg2 fullShare x1 ∗ owns (c : Thread nD τ) arg3 fullShare x2
                ∗ owns (c : Thread nD τ) arg4 fullShare x3 ∗ owns (c : Thread nD τ) arg5 fullShare x4 ∗ owns (c : Thread nD τ) arg6 fullShare x5
                ∗ owns (c : Thread nD τ) arg7 fullShare x6 ∗ owns (c : Thread nD τ) arg8 fullShare x7
                ∗ (∃ f, arg9.view.loc (c : Thread nD τ) ↦[arg9.view.set]{fullShare} arg9.view.writes (Elt F) f L8)
                ∗ (∃ f, arg10.view.loc (c : Thread nD τ) ↦[arg10.view.set]{fullShare} arg10.view.writes (Elt F) f L9)) -∗ K ⟨⟩))
          ⊢ wp frame (wpE (defs₀ (F := F)) Variants.none c none) E (cc0__row_score_kernel i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc0__row_score_kernel_eq_skeleton]; unfold cc0__row_score_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
      ⟨%d8, %f8, -, H8⟩, ⟨%d9, %f9, -, H9⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg7.eq_unread hf6; obtain rfl := harg8.eq_unread hf7
    sl_exec (disch := first | exact hc)
    sl_step
    iapply Hk
    isplitl [H0]
    · iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; iexact H8
    iexists _; iexact H9

end Cert.Kernel.Body

end
-- ==== Proof.Frame.lean ====
/-
  The frame of `Kernel`: the pipeline's proof data over the two runs of the body, the body obligation at every grid point,
  the launch with the host lines after the region, and the frame claim.

  What the body leaves at point `t`: in the feature window's buffer the fetched block with row 0 overwritten when `t` is
  the first point and the block as fetched otherwise (the window's block index moves at every point, so the next point
  fetches afresh and nothing reads what was left); in the seven resident windows' buffers their blocks; in the two result
  windows' buffers the pieces the run stored, read back. The argument arrays are never written: the store at the first
  point lands in the window's own staging buffer.
-/
import proofs.«420732_j53626961657857_3_alg».proof.Proof.Runs

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two runs at a grid point, on the point's staging memrefs and input blocks -/

/-- The first-point run at point `t` (which is point 0). -/
abbrev firstRun (c : Dev nD) (t : Fin cfg0.N) (h : t.val = 0) :=
  runFirst (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) ((isFirst_iff t).mpr h) (iblk m c 0 t) (iblk m c 1 t) (iblk m c 2 t) (iblk m c 3 t) (iblk m c 4 t) (iblk m c 5 t) (iblk m c 6 t) (iblk m c 7 t)

/-- The run at any later point `t`. -/
abbrev laterRun (c : Dev nD) (t : Fin cfg0.N) (h : ¬t.val = 0) :=
  runLater (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (fun hh => h ((isFirst_iff t).mp hh)) (iblk m c 0 t) (iblk m c 1 t) (iblk m c 2 t) (iblk m c 3 t) (iblk m c 4 t) (iblk m c 5 t) (iblk m c 6 t) (iblk m c 7 t)

/-- One staging buffer of each result window, through which a covering list of pieces is read back (any view of the
    shape reads the same). -/
abbrev VO8 : View sig .tc .vmem S1x1x4000 .f32 := (Memref.whole cc0_stg8_0 : Memref sig .tc .vmem S1x1x4000 .f32).view
abbrev VO9 : View sig .tc .vmem S1x1x1 .f32 := (Memref.whole cc0_stg9_0 : Memref sig .tc .vmem S1x1x1 .f32).view

/-- Each run's one store into the masked-score block covers it, and likewise the one store into the maximum's block. -/
theorem coverFirst8 (c : Dev nD) (t : Fin cfg0.N) (h : t.val = 0) (y : S1x1x4000.Idx) :
    ∃ pc ∈ (firstRun m c t h).2.1, y ∈ pc.1.set :=
  View.cover_of_tiledL (firstRun m c t h).2.1 S1x1x4000.size (by sl_kernel_rfl) y
theorem coverFirst9 (c : Dev nD) (t : Fin cfg0.N) (h : t.val = 0) (y : S1x1x1.Idx) :
    ∃ pc ∈ (firstRun m c t h).2.2.1, y ∈ pc.1.set :=
  View.cover_of_tiledL (firstRun m c t h).2.2.1 S1x1x1.size (by sl_kernel_rfl) y
theorem coverLater8 (c : Dev nD) (t : Fin cfg0.N) (h : ¬t.val = 0) (y : S1x1x4000.Idx) :
    ∃ pc ∈ (laterRun m c t h).1, y ∈ pc.1.set :=
  View.cover_of_tiledL (laterRun m c t h).1 S1x1x4000.size (by sl_kernel_rfl) y
theorem coverLater9 (c : Dev nD) (t : Fin cfg0.N) (h : ¬t.val = 0) (y : S1x1x1.Idx) :
    ∃ pc ∈ (laterRun m c t h).2.1, y ∈ pc.1.set :=
  View.cover_of_tiledL (laterRun m c t h).2.1 S1x1x1.size (by sl_kernel_rfl) y

/-! ## What the body leaves at each point -/

/-- In the feature window's buffer: the fetched block with the first point's write applied, or the block as fetched. -/
def left0 (c : Dev nD) (t : Fin cfg0.N) : Vec F S4000x256 .f32 :=
  if h : t.val = 0 then (ms0 t).view.read (Elt F) ((ms0 t).view.writes (Elt F) ((hs0 t).unread (iblk m c 0 t)) (firstRun m c t h).1)
  else iblk m c 0 t

/-- In the masked-score window's buffer: the run's pieces read back. -/
def left8 (c : Dev nD) (t : Fin cfg0.N) : Vec F S1x1x4000 .f32 :=
  if h : t.val = 0 then VO8.read (Elt F) (VO8.writes (Elt F) VO8.junk (firstRun m c t h).2.1)
  else VO8.read (Elt F) (VO8.writes (Elt F) VO8.junk (laterRun m c t h).1)

/-- In the tile-maximum window's buffer: the run's pieces read back. -/
def left9 (c : Dev nD) (t : Fin cfg0.N) : Vec F S1x1x1 .f32 :=
  if h : t.val = 0 then VO9.read (Elt F) (VO9.writes (Elt F) VO9.junk (firstRun m c t h).2.2.1)
  else VO9.read (Elt F) (VO9.writes (Elt F) VO9.junk (laterRun m c t h).2.1)

/-! ## The pipeline's proof data -/

/-- The arrays as the region finds them; after the body each window's buffer as above; the class's invariant (the scoped
    rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => left0 m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => left8 m c t
    | ⟨9, _⟩ => left9 m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = left0 m c t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = left8 m c t := by dsimp only [dats]
theorem after_9 (c : Dev nD) (t : Fin cfg0.N) : (dats m 0 c).after 9 t = left9 m c t := by dsimp only [dats]

/-- The feature window is fetched at every point (its block index moves with the point), so its buffer holds the point's
    block when the body starts, whatever the body left there before. -/
theorem before_0 (c : Dev nD) (t : Fin cfg0.N) (d) : (dats m 0 c).before 0 t d = iblk m c 0 t := by
  unfold Dat.before; rw [if_pos (fetch0_0 t)]
  unfold Dat.fetched Dat.blockOf iblk; rw [A_eq m c 0]; try rfl
/-- The adjacency window likewise. -/
theorem before_1 (c : Dev nD) (t : Fin cfg0.N) (d) : (dats m 0 c).before 1 t d = iblk m c 1 t :=
  before0_1_of m (dats m 0 c) (A_eq m c 1) (after_1 m c) t d
/-- A resident window's buffer holds its one block at every point: fetched at the first, left in place after. -/
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-! ## The body obligation, at a generic point -/

/-- What the body is called with at point `t`: the invariant, what the core owes, and the ten windows' current buffers. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

/-- What it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t))

set_option maxHeartbeats 4000000 in
/-- The body at any point: every input buffer holds its block; the point is the first or it is not, and that case's run
    applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9]
  by_cases h0 : t.val = 0
  · rw [show left0 m c t = (ms0 t).view.read (Elt F) ((ms0 t).view.writes (Elt F) ((hs0 t).unread (iblk m c 0 t)) (firstRun m c t h0).1) from dif_pos h0,
      show left8 m c t = VO8.read (Elt F) (VO8.writes (Elt F) VO8.junk (firstRun m c t h0).2.1) from dif_pos h0,
      show left9 m c t = VO9.read (Elt F) (VO9.writes (Elt F) VO9.junk (firstRun m c t h0).2.2.1) from dif_pos h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((firstRun m c t h0).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    iintro ⟨H0, H1, H2, H3, H4, H5, H6, H7, ⟨%e8, H8⟩, ⟨%e9, H9⟩⟩
    isplitl [HΦ]; · iexact HΦ
    isplitl [Ho]; · iexact Ho
    isplitl [H0]
    · unfold owns; iexists _; isplitr
      swap; · iexact H0
      ipureintro; rfl
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (coverFirst8 m c t h0)
    unfold owns; iexists _; isplitr
    swap; · iexact H9
    ipureintro; exact View.read_writes_of_cover _ _ _ _ _ (coverFirst9 m c t h0)
  · rw [show left0 m c t = iblk m c 0 t from dif_neg h0,
      show left8 m c t = VO8.read (Elt F) (VO8.writes (Elt F) VO8.junk (laterRun m c t h0).1) from dif_neg h0,
      show left9 m c t = VO9.read (Elt F) (VO9.writes (Elt F) VO9.junk (laterRun m c t h0).2.1) from dif_neg h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((laterRun m c t h0).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    iintro ⟨H0, H1, H2, H3, H4, H5, H6, H7, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (coverLater8 m c t h0)
    unfold owns; iexists _; isplitr
    swap; · iexact H9
    ipureintro; exact View.read_writes_of_cover _ _ _ _ _ (coverLater9 m c t h0)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any float values, from any memory with zero counters: every weakly fair execution of @main
    terminates, nothing faulting, every array of the pipeline ending at what the write-backs of the proof data make it and
    every other buffer as the host lines after the region leave it. -/
theorem run_main : θ_run defs (onTc (τ := τ) (main (F := F))) (s₀ m ρ)
    (Pipeline.FramePost cfgs (dats m) 0 (Pipeline.afterTail₀ cfgs (dats m) 0 (V0 m) [hostOps1, hostOps1_1, hostOps1_2])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2]) (hsub := sfx_sub) (hfresh := sfx_fresh) (hkeep := sfx_keeps)
    (hmain := hmain m Variants.none) (hA := A_eq m) (hΦ := fun _ _ => rfl)

/-- The frame claim of this program, at any float instance: the run ends and the seven argument arrays are as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.Kernel.Body

end
-- ==== Proof.RunsI.lean ====
/-
  The kernel body of `KernelIdeal` run once per control case, on any whole staging memrefs.

  The body has one branch, on `program_id == 0`: at the first grid point it overwrites row 0 of the feature block it was
  handed (256 zeros into the block's own staging buffer) before it loads the block; at every other point it loads the
  block as fetched. After that the two cases are the same straight line: three matrix products with bias, the
  self-contribution row and relu between them, the lane mask from the adjacency words, one store of the masked
  scores into the 1x1x4000 result block and one store of their lane maximum into the 1x1x1 result block.
  Each run is stated for every float instance: what the stores leave in each written buffer is a list of pieces,
  found when the buffer is handed back to the continuation.
-/
import proofs.«420732_j53626961657857_3_alg».proof.Proof.Gen.KernelIdeal.Frame
import proofs.«420732_j53626961657857_3_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch: taken at the first grid point only -/

/-- The body's one condition, `program_id == 0` as the kernel computes it from the grid coordinate. -/
abbrev isFirst (i : grid0.Coords) : Prop :=
  (Scalar.cmpi .ne (Scalar.extui (Scalar.cmpi .eq (BitVec.ofNat 32 (i 0).val) 0#32)) 0#32) = 1#1

/-- Over the fifty points it holds at point 0 and nowhere else. -/
theorem isFirst_iff : ∀ t : Fin cfg0.N, isFirst (grid0.coords t) ↔ t.val = 0 :=
  (by decide +kernel : ∀ t : Fin grid0.N, isFirst (grid0.coords t) ↔ t.val = 0)

/-! ## The staging memrefs the pipeline hands the body at a point -/

abbrev ms0 (t : Fin cfg0.N) : Memref sig .tc .vmem S4000x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1x4000 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x256 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S256x128 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x128 .bf16 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x1x4000 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x1x1 .f32 := win0_9.stage (cfg0.slots t 9)
abbrev hs9 (t : Fin cfg0.N) : (ms9 t).IsWhole := hstage0_9 ((cfg0.slots t 9).cast nbuf0_9)

/-! ## The body away from the first point: the feature block is read as fetched -/

set_option maxHeartbeats 4000000 in
/-- At a point other than the first the body stores nothing into its inputs' buffers: from the eight input buffers at
    contents `x0 … x7` and the two result buffers at anything it runs to the continuation with the inputs as they were
    and each result buffer holding its pieces (the masked scores; their lane maximum). -/
noncomputable def runLater (c : Dev nD) (i : grid0.Coords) (arg1 : Memref sig .tc .vmem S4000x256 .f32) (harg1 : arg1.IsWhole) (arg2 : Memref sig .tc .vmem S1x1x4000 .i32) (harg2 : arg2.IsWhole) (arg3 : Memref sig .tc .vmem S256x256 .bf16) (harg3 : arg3.IsWhole) (arg4 : Memref sig .tc .vmem S1x256 .f32) (harg4 : arg4.IsWhole) (arg5 : Memref sig .tc .vmem S1x256 .f32) (harg5 : arg5.IsWhole) (arg6 : Memref sig .tc .vmem S256x128 .bf16) (harg6 : arg6.IsWhole) (arg7 : Memref sig .tc .vmem S1x128 .f32) (harg7 : arg7.IsWhole) (arg8 : Memref sig .tc .vmem S1x128 .bf16) (harg8 : arg8.IsWhole) (arg9 : Memref sig .tc .vmem S1x1x4000 .f32) (harg9 : arg9.IsWhole) (arg10 : Memref sig .tc .vmem S1x1x1 .f32) (harg10 : arg10.IsWhole) (hc : ¬isFirst i)
    (x0 : Vec F S4000x256 .f32) (x1 : Vec F S1x1x4000 .i32) (x2 : Vec F S256x256 .bf16) (x3 : Vec F S1x256 .f32) (x4 : Vec F S1x256 .f32) (x5 : Vec F S256x128 .bf16) (x6 : Vec F S1x128 .f32) (x7 : Vec F S1x128 .bf16) :
    Σ' (L8 : List (View.Piece (Elt F) S1x1x4000 .f32)), { L9 : List (View.Piece (Elt F) S1x1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7
            ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2
                ∗ owns (c : Thread nD τ) arg4 fullShare x3 ∗ owns (c : Thread nD τ) arg5 fullShare x4 ∗ owns (c : Thread nD τ) arg6 fullShare x5
                ∗ owns (c : Thread nD τ) arg7 fullShare x6 ∗ owns (c : Thread nD τ) arg8 fullShare x7
                ∗ (∃ f, arg9.view.loc (c : Thread nD τ) ↦[arg9.view.set]{fullShare} arg9.view.writes (Elt F) f L8)
                ∗ (∃ f, arg10.view.loc (c : Thread nD τ) ↦[arg10.view.set]{fullShare} arg10.view.writes (Elt F) f L9)) -∗ K ⟨⟩))
          ⊢ wp frame (wpE (defs₀ (F := F)) Variants.none c none) E (cc0__row_score_kernel i arg1 harg1 arg2 harg2 arg3 harg3 arg4 harg4 arg5 harg5 arg6 harg6 arg7 harg7 arg8 harg8 arg9 harg9 arg10 harg10) K } := by
  refine ⟨?_, ?_, fun E K => ?run⟩
  case run =>
    simp only [cc0__row_score_kernel_eq_skeleton]; unfold cc0__row_score_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
      ⟨%d8, %f8, -, H8⟩, ⟨%d9, %f9, -, H9⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg7.eq_unread hf6; obtain rfl := harg8.eq_unread hf7
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; iexact H8
    iexists _; iexact H9

/-! ## The body at the first point: row 0 of the feature block is overwritten, then the block is read -/

set_option maxHeartbeats 4000000 in
/-- At the first point the body first stores a row of zeros over row 0 of the feature block in that block's own staging
    buffer, then goes on as at the other points, loading the block it has just changed. The feature buffer comes back
    with that write applied to what was fetched (`L0`: the one piece), the other inputs as they were, and each result
    buffer with its pieces. -/
noncomputable def runFirst (c : Dev nD) (i : grid0.Coords) (arg1 : Memref sig .tc .vmem S4000x256 .f32) (harg1 : arg1.IsWhole) (arg2 : Memref sig .tc .vmem S1x1x4000 .i32) (harg2 : arg2.IsWhole) (arg3 : Memref sig .tc .vmem S256x256 .bf16) (harg3 : arg3.IsWhole) (arg4 : Memref sig .tc .vmem S1x256 .f32) (harg4 : arg4.IsWhole) (arg5 : Memref sig .tc .vmem S1x256 .f32) (harg5 : arg5.IsWhole) (arg6 : Memref sig .tc .vmem S256x128 .bf16) (harg6 : arg6.IsWhole) (arg7 : Memref sig .tc .vmem S1x128 .f32) (harg7 : arg7.IsWhole) (arg8 : Memref sig .tc .vmem S1x128 .bf16) (harg8 : arg8.IsWhole) (arg9 : Memref sig .tc .vmem S1x1x4000 .f32) (harg9 : arg9.IsWhole) (arg10 : Memref sig .tc .vmem S1x1x1 .f32) (harg10 : arg10.IsWhole) (hc : isFirst i)
    (x0 : Vec F S4000x256 .f32) (x1 : Vec F S1x1x4000 .i32) (x2 : Vec F S256x256 .bf16) (x3 : Vec F S1x256 .f32) (x4 : Vec F S1x256 .f32) (x5 : Vec F S256x128 .bf16) (x6 : Vec F S1x128 .f32) (x7 : Vec F S1x128 .bf16) :
    Σ' (L0 : List (View.Piece (Elt F) S4000x256 .f32)) (L8 : List (View.Piece (Elt F) S1x1x4000 .f32)), { L9 : List (View.Piece (Elt F) S1x1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7
            ∗ (∃ d, owns (c : Thread nD τ) arg9 fullShare d) ∗ (∃ d, owns (c : Thread nD τ) arg10 fullShare d)
            ∗ (iprop((arg1.view.loc (c : Thread nD τ) ↦[arg1.view.set]{fullShare} arg1.view.writes (Elt F) (harg1.unread x0) L0)
                ∗ owns (c : Thread nD τ) arg2 fullShare x1 ∗ owns (c : Thread nD τ) arg3 fullShare x2
                ∗ owns (c : Thread nD τ) arg4 fullShare x3 ∗ owns (c : Thread nD τ) arg5 fullShare x4 ∗ owns (c : Thread nD τ) arg6 fullShare x5
                ∗ owns (c : Thread nD τ) arg7 fullShare x6 ∗ owns (c : Thread nD τ) arg8 fullShare x7
                ∗ (∃ f, arg9.view.loc (c : Thread nD τ) ↦[arg9.view.set]{fullShare} arg9.view.writes (Elt F) f L8)
                ∗ (∃ f, arg10.view.loc (c : Thread nD τ) ↦[arg10.view.set]{fullShare} arg10.view.writes (Elt F) f L9)) -∗ K ⟨⟩))
          ⊢ wp frame (wpE (defs₀ (F := F)) Variants.none c none) E (cc0__row_score_kernel i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc0__row_score_kernel_eq_skeleton]; unfold cc0__row_score_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
      ⟨%d8, %f8, -, H8⟩, ⟨%d9, %f9, -, H9⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg7.eq_unread hf6; obtain rfl := harg8.eq_unread hf7
    sl_exec (disch := first | exact hc)
    sl_step
    iapply Hk
    isplitl [H0]
    · iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; iexact H8
    iexists _; iexact H9

end Cert.KernelIdeal.Body

end
-- ==== Proof.FrameI.lean ====
/-
  The frame of `KernelIdeal`: the pipeline's proof data over the two runs of the body, the body obligation at every grid point,
  the launch with the host lines after the region, and the frame claim.

  What the body leaves at point `t`: in the feature window's buffer the fetched block with row 0 overwritten when `t` is
  the first point and the block as fetched otherwise (the window's block index moves at every point, so the next point
  fetches afresh and nothing reads what was left); in the seven resident windows' buffers their blocks; in the two result
  windows' buffers the pieces the run stored, read back. The argument arrays are never written: the store at the first
  point lands in the window's own staging buffer.
-/
import proofs.«420732_j53626961657857_3_alg».proof.Proof.RunsI

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two runs at a grid point, on the point's staging memrefs and input blocks -/

/-- The first-point run at point `t` (which is point 0). -/
abbrev firstRun (c : Dev nD) (t : Fin cfg0.N) (h : t.val = 0) :=
  runFirst (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) ((isFirst_iff t).mpr h) (iblk m c 0 t) (iblk m c 1 t) (iblk m c 2 t) (iblk m c 3 t) (iblk m c 4 t) (iblk m c 5 t) (iblk m c 6 t) (iblk m c 7 t)

/-- The run at any later point `t`. -/
abbrev laterRun (c : Dev nD) (t : Fin cfg0.N) (h : ¬t.val = 0) :=
  runLater (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (fun hh => h ((isFirst_iff t).mp hh)) (iblk m c 0 t) (iblk m c 1 t) (iblk m c 2 t) (iblk m c 3 t) (iblk m c 4 t) (iblk m c 5 t) (iblk m c 6 t) (iblk m c 7 t)

/-- One staging buffer of each result window, through which a covering list of pieces is read back (any view of the
    shape reads the same). -/
abbrev VO8 : View sig .tc .vmem S1x1x4000 .f32 := (Memref.whole cc0_stg8_0 : Memref sig .tc .vmem S1x1x4000 .f32).view
abbrev VO9 : View sig .tc .vmem S1x1x1 .f32 := (Memref.whole cc0_stg9_0 : Memref sig .tc .vmem S1x1x1 .f32).view

/-- Each run's one store into the masked-score block covers it, and likewise the one store into the maximum's block. -/
theorem coverFirst8 (c : Dev nD) (t : Fin cfg0.N) (h : t.val = 0) (y : S1x1x4000.Idx) :
    ∃ pc ∈ (firstRun m c t h).2.1, y ∈ pc.1.set :=
  View.cover_of_tiledL (firstRun m c t h).2.1 S1x1x4000.size (by sl_kernel_rfl) y
theorem coverFirst9 (c : Dev nD) (t : Fin cfg0.N) (h : t.val = 0) (y : S1x1x1.Idx) :
    ∃ pc ∈ (firstRun m c t h).2.2.1, y ∈ pc.1.set :=
  View.cover_of_tiledL (firstRun m c t h).2.2.1 S1x1x1.size (by sl_kernel_rfl) y
theorem coverLater8 (c : Dev nD) (t : Fin cfg0.N) (h : ¬t.val = 0) (y : S1x1x4000.Idx) :
    ∃ pc ∈ (laterRun m c t h).1, y ∈ pc.1.set :=
  View.cover_of_tiledL (laterRun m c t h).1 S1x1x4000.size (by sl_kernel_rfl) y
theorem coverLater9 (c : Dev nD) (t : Fin cfg0.N) (h : ¬t.val = 0) (y : S1x1x1.Idx) :
    ∃ pc ∈ (laterRun m c t h).2.1, y ∈ pc.1.set :=
  View.cover_of_tiledL (laterRun m c t h).2.1 S1x1x1.size (by sl_kernel_rfl) y

/-! ## What the body leaves at each point -/

/-- In the feature window's buffer: the fetched block with the first point's write applied, or the block as fetched. -/
def left0 (c : Dev nD) (t : Fin cfg0.N) : Vec F S4000x256 .f32 :=
  if h : t.val = 0 then (ms0 t).view.read (Elt F) ((ms0 t).view.writes (Elt F) ((hs0 t).unread (iblk m c 0 t)) (firstRun m c t h).1)
  else iblk m c 0 t

/-- In the masked-score window's buffer: the run's pieces read back. -/
def left8 (c : Dev nD) (t : Fin cfg0.N) : Vec F S1x1x4000 .f32 :=
  if h : t.val = 0 then VO8.read (Elt F) (VO8.writes (Elt F) VO8.junk (firstRun m c t h).2.1)
  else VO8.read (Elt F) (VO8.writes (Elt F) VO8.junk (laterRun m c t h).1)

/-- In the tile-maximum window's buffer: the run's pieces read back. -/
def left9 (c : Dev nD) (t : Fin cfg0.N) : Vec F S1x1x1 .f32 :=
  if h : t.val = 0 then VO9.read (Elt F) (VO9.writes (Elt F) VO9.junk (firstRun m c t h).2.2.1)
  else VO9.read (Elt F) (VO9.writes (Elt F) VO9.junk (laterRun m c t h).2.1)

/-! ## The pipeline's proof data -/

/-- The arrays as the region finds them; after the body each window's buffer as above; the class's invariant (the scoped
    rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => left0 m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => left8 m c t
    | ⟨9, _⟩ => left9 m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = left0 m c t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = left8 m c t := by dsimp only [dats]
theorem after_9 (c : Dev nD) (t : Fin cfg0.N) : (dats m 0 c).after 9 t = left9 m c t := by dsimp only [dats]

/-- The feature window is fetched at every point (its block index moves with the point), so its buffer holds the point's
    block when the body starts, whatever the body left there before. -/
theorem before_0 (c : Dev nD) (t : Fin cfg0.N) (d) : (dats m 0 c).before 0 t d = iblk m c 0 t := by
  unfold Dat.before; rw [if_pos (fetch0_0 t)]
  unfold Dat.fetched Dat.blockOf iblk; rw [A_eq m c 0]; try rfl
/-- The adjacency window likewise. -/
theorem before_1 (c : Dev nD) (t : Fin cfg0.N) (d) : (dats m 0 c).before 1 t d = iblk m c 1 t :=
  before0_1_of m (dats m 0 c) (A_eq m c 1) (after_1 m c) t d
/-- A resident window's buffer holds its one block at every point: fetched at the first, left in place after. -/
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-! ## The body obligation, at a generic point -/

/-- What the body is called with at point `t`: the invariant, what the core owes, and the ten windows' current buffers. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

/-- What it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t))

set_option maxHeartbeats 4000000 in
/-- The body at any point: every input buffer holds its block; the point is the first or it is not, and that case's run
    applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9]
  by_cases h0 : t.val = 0
  · rw [show left0 m c t = (ms0 t).view.read (Elt F) ((ms0 t).view.writes (Elt F) ((hs0 t).unread (iblk m c 0 t)) (firstRun m c t h0).1) from dif_pos h0,
      show left8 m c t = VO8.read (Elt F) (VO8.writes (Elt F) VO8.junk (firstRun m c t h0).2.1) from dif_pos h0,
      show left9 m c t = VO9.read (Elt F) (VO9.writes (Elt F) VO9.junk (firstRun m c t h0).2.2.1) from dif_pos h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((firstRun m c t h0).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    iintro ⟨H0, H1, H2, H3, H4, H5, H6, H7, ⟨%e8, H8⟩, ⟨%e9, H9⟩⟩
    isplitl [HΦ]; · iexact HΦ
    isplitl [Ho]; · iexact Ho
    isplitl [H0]
    · unfold owns; iexists _; isplitr
      swap; · iexact H0
      ipureintro; rfl
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (coverFirst8 m c t h0)
    unfold owns; iexists _; isplitr
    swap; · iexact H9
    ipureintro; exact View.read_writes_of_cover _ _ _ _ _ (coverFirst9 m c t h0)
  · rw [show left0 m c t = iblk m c 0 t from dif_neg h0,
      show left8 m c t = VO8.read (Elt F) (VO8.writes (Elt F) VO8.junk (laterRun m c t h0).1) from dif_neg h0,
      show left9 m c t = VO9.read (Elt F) (VO9.writes (Elt F) VO9.junk (laterRun m c t h0).2.1) from dif_neg h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((laterRun m c t h0).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    iintro ⟨H0, H1, H2, H3, H4, H5, H6, H7, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (coverLater8 m c t h0)
    unfold owns; iexists _; isplitr
    swap; · iexact H9
    ipureintro; exact View.read_writes_of_cover _ _ _ _ _ (coverLater9 m c t h0)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any float values, from any memory with zero counters: every weakly fair execution of @main
    terminates, nothing faulting, every array of the pipeline ending at what the write-backs of the proof data make it and
    every other buffer as the host lines after the region leave it. -/
theorem run_main : θ_run defs (onTc (τ := τ) (main (F := F))) (s₀ m ρ)
    (Pipeline.FramePost cfgs (dats m) 0 (Pipeline.afterTail₀ cfgs (dats m) 0 (V0 m) [hostOps1, hostOps1_1, hostOps1_2])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2]) (hsub := sfx_sub) (hfresh := sfx_fresh) (hkeep := sfx_keeps)
    (hmain := hmain m Variants.none) (hA := A_eq m) (hΦ := fun _ _ => rfl)

/-- The frame claim of this program, at any float instance: the run ends and the seven argument arrays are as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.KernelIdeal.Body

end
-- ==== Proof.Pieces.lean ====
/-
  What the two runs of the kernel body stored, as values.

  Each run stores once into each result block: the masked scores (the select of the three matrix products' last row
  against the fill, under the adjacency mask) and their lane maximum, both as pure functions of the eight input blocks.
  At the first grid point the feature block those products read is the fetched block with its row 0 replaced by zeros —
  what the run's one store into that block's buffer left; at the other points it is the fetched block.
-/
import proofs.«420732_j53626961657857_3_alg».proof.Proof.FrameI
import Idealize.ShloMosaic.Lib.Pipeline.Value
import Idealize.ShloMosaic.Lib.ValueIdx
import Idealize.ShloMosaic.Lib.WritesUnit

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx

/-- The zero offsets of a rank-3 and of a rank-2 whole-block rectangle, as the constant function. -/
theorem hz3 : (![0, 0, 0] : Fin 3 → Nat) = fun _ => 0 := by funext a; fin_cases a <;> rfl
theorem hz2 : (![0, 0] : Fin 2 → Nat) = fun _ => 0 := by funext a; fin_cases a <;> rfl

/-! ## The runs' pieces -/

/-- Away from the first point the masked-score block is the select over the products of the blocks as loaded. -/
theorem canonLater8 (c : Dev nD) (i : grid0.Coords) (arg1 : Memref sig .tc .vmem S4000x256 .f32) (harg1 : arg1.IsWhole) (arg2 : Memref sig .tc .vmem S1x1x4000 .i32) (harg2 : arg2.IsWhole) (arg3 : Memref sig .tc .vmem S256x256 .bf16) (harg3 : arg3.IsWhole) (arg4 : Memref sig .tc .vmem S1x256 .f32) (harg4 : arg4.IsWhole) (arg5 : Memref sig .tc .vmem S1x256 .f32) (harg5 : arg5.IsWhole) (arg6 : Memref sig .tc .vmem S256x128 .bf16) (harg6 : arg6.IsWhole) (arg7 : Memref sig .tc .vmem S1x128 .f32) (harg7 : arg7.IsWhole) (arg8 : Memref sig .tc .vmem S1x128 .bf16) (harg8 : arg8.IsWhole) (arg9 : Memref sig .tc .vmem S1x1x4000 .f32) (harg9 : arg9.IsWhole) (arg10 : Memref sig .tc .vmem S1x1x1 .f32) (harg10 : arg10.IsWhole) (hc : ¬isFirst i) (x0 : Vec F S4000x256 .f32) (x1 : Vec F S1x1x4000 .i32) (x2 : Vec F S256x256 .bf16) (x3 : Vec F S1x256 .f32) (x4 : Vec F S1x256 .f32) (x5 : Vec F S256x128 .bf16) (x6 : Vec F S1x128 .f32) (x7 : Vec F S1x128 .bf16) :
    View.canon (runLater (F := F) c i arg1 harg1 arg2 harg2 arg3 harg3 arg4 harg4 arg5 harg5 arg6 harg6 arg7 harg7 arg8 harg8 arg9 harg9 arg10 harg10 hc x0 x1 x2 x3 x4 x5 x6 x7).1 = k0_pay2 (k0_pay5 x0 x2 x4 x3 x5 x6 x7) (k0_pay6 x1) := by
  unfold runLater; dsimp only; sl_unfold_words
  rw [View.canon_unit_zero hz3]
  simp only [View.readAt_eq_ld, Memref.IsWhole.read_unread, View.ld_unit_zero (S := S4000x256) hz2, View.ld_unit_zero (S := S256x256) hz2,
    View.ld_unit_zero (S := S1x256) hz2, View.ld_unit_zero (S := S256x128) hz2, View.ld_unit_zero (S := S1x128) hz2,
    View.ld_unit_zero (S := S1x1x4000) hz3]

/-- And the maximum's block their lane maximum. -/
theorem canonLater9 (c : Dev nD) (i : grid0.Coords) (arg1 : Memref sig .tc .vmem S4000x256 .f32) (harg1 : arg1.IsWhole) (arg2 : Memref sig .tc .vmem S1x1x4000 .i32) (harg2 : arg2.IsWhole) (arg3 : Memref sig .tc .vmem S256x256 .bf16) (harg3 : arg3.IsWhole) (arg4 : Memref sig .tc .vmem S1x256 .f32) (harg4 : arg4.IsWhole) (arg5 : Memref sig .tc .vmem S1x256 .f32) (harg5 : arg5.IsWhole) (arg6 : Memref sig .tc .vmem S256x128 .bf16) (harg6 : arg6.IsWhole) (arg7 : Memref sig .tc .vmem S1x128 .f32) (harg7 : arg7.IsWhole) (arg8 : Memref sig .tc .vmem S1x128 .bf16) (harg8 : arg8.IsWhole) (arg9 : Memref sig .tc .vmem S1x1x4000 .f32) (harg9 : arg9.IsWhole) (arg10 : Memref sig .tc .vmem S1x1x1 .f32) (harg10 : arg10.IsWhole) (hc : ¬isFirst i) (x0 : Vec F S4000x256 .f32) (x1 : Vec F S1x1x4000 .i32) (x2 : Vec F S256x256 .bf16) (x3 : Vec F S1x256 .f32) (x4 : Vec F S1x256 .f32) (x5 : Vec F S256x128 .bf16) (x6 : Vec F S1x128 .f32) (x7 : Vec F S1x128 .bf16) :
    View.canon (runLater (F := F) c i arg1 harg1 arg2 harg2 arg3 harg3 arg4 harg4 arg5 harg5 arg6 harg6 arg7 harg7 arg8 harg8 arg9 harg9 arg10 harg10 hc x0 x1 x2 x3 x4 x5 x6 x7).2.1 = k0_pay3 (k0_pay5 x0 x2 x4 x3 x5 x6 x7) (k0_pay6 x1) := by
  unfold runLater; dsimp only; sl_unfold_words
  rw [View.canon_unit_zero hz3]
  simp only [View.readAt_eq_ld, Memref.IsWhole.read_unread, View.ld_unit_zero (S := S4000x256) hz2, View.ld_unit_zero (S := S256x256) hz2,
    View.ld_unit_zero (S := S1x256) hz2, View.ld_unit_zero (S := S256x128) hz2, View.ld_unit_zero (S := S1x128) hz2,
    View.ld_unit_zero (S := S1x1x4000) hz3]

/-- At the first point the same, over the feature block as the run's own store left it. -/
theorem canonFirst8 (c : Dev nD) (i : grid0.Coords) (arg1 : Memref sig .tc .vmem S4000x256 .f32) (harg1 : arg1.IsWhole) (arg2 : Memref sig .tc .vmem S1x1x4000 .i32) (harg2 : arg2.IsWhole) (arg3 : Memref sig .tc .vmem S256x256 .bf16) (harg3 : arg3.IsWhole) (arg4 : Memref sig .tc .vmem S1x256 .f32) (harg4 : arg4.IsWhole) (arg5 : Memref sig .tc .vmem S1x256 .f32) (harg5 : arg5.IsWhole) (arg6 : Memref sig .tc .vmem S256x128 .bf16) (harg6 : arg6.IsWhole) (arg7 : Memref sig .tc .vmem S1x128 .f32) (harg7 : arg7.IsWhole) (arg8 : Memref sig .tc .vmem S1x128 .bf16) (harg8 : arg8.IsWhole) (arg9 : Memref sig .tc .vmem S1x1x4000 .f32) (harg9 : arg9.IsWhole) (arg10 : Memref sig .tc .vmem S1x1x1 .f32) (harg10 : arg10.IsWhole) (hc : isFirst i) (x0 : Vec F S4000x256 .f32) (x1 : Vec F S1x1x4000 .i32) (x2 : Vec F S256x256 .bf16) (x3 : Vec F S1x256 .f32) (x4 : Vec F S1x256 .f32) (x5 : Vec F S256x128 .bf16) (x6 : Vec F S1x128 .f32) (x7 : Vec F S1x128 .bf16) :
    View.canon (runFirst (F := F) c i arg1 harg1 arg2 harg2 arg3 harg3 arg4 harg4 arg5 harg5 arg6 harg6 arg7 harg7 arg8 harg8 arg9 harg9 arg10 harg10 hc x0 x1 x2 x3 x4 x5 x6 x7).2.1
      = k0_pay2 (k0_pay5 (arg1.view.read (Elt F) (arg1.view.writes (Elt F) (harg1.unread x0) (runFirst (F := F) c i arg1 harg1 arg2 harg2 arg3 harg3 arg4 harg4 arg5 harg5 arg6 harg6 arg7 harg7 arg8 harg8 arg9 harg9 arg10 harg10 hc x0 x1 x2 x3 x4 x5 x6 x7).1))
          x2 x4 x3 x5 x6 x7) (k0_pay6 x1) := by
  unfold runFirst; dsimp only; sl_unfold_words
  rw [View.canon_unit_zero hz3]
  simp only [View.readAt_eq_ld, Memref.IsWhole.read_unread, View.ld_unit_zero (S := S4000x256) hz2, View.ld_unit_zero (S := S256x256) hz2,
    View.ld_unit_zero (S := S1x256) hz2, View.ld_unit_zero (S := S256x128) hz2, View.ld_unit_zero (S := S1x128) hz2,
    View.ld_unit_zero (S := S1x1x4000) hz3]

theorem canonFirst9 (c : Dev nD) (i : grid0.Coords) (arg1 : Memref sig .tc .vmem S4000x256 .f32) (harg1 : arg1.IsWhole) (arg2 : Memref sig .tc .vmem S1x1x4000 .i32) (harg2 : arg2.IsWhole) (arg3 : Memref sig .tc .vmem S256x256 .bf16) (harg3 : arg3.IsWhole) (arg4 : Memref sig .tc .vmem S1x256 .f32) (harg4 : arg4.IsWhole) (arg5 : Memref sig .tc .vmem S1x256 .f32) (harg5 : arg5.IsWhole) (arg6 : Memref sig .tc .vmem S256x128 .bf16) (harg6 : arg6.IsWhole) (arg7 : Memref sig .tc .vmem S1x128 .f32) (harg7 : arg7.IsWhole) (arg8 : Memref sig .tc .vmem S1x128 .bf16) (harg8 : arg8.IsWhole) (arg9 : Memref sig .tc .vmem S1x1x4000 .f32) (harg9 : arg9.IsWhole) (arg10 : Memref sig .tc .vmem S1x1x1 .f32) (harg10 : arg10.IsWhole) (hc : isFirst i) (x0 : Vec F S4000x256 .f32) (x1 : Vec F S1x1x4000 .i32) (x2 : Vec F S256x256 .bf16) (x3 : Vec F S1x256 .f32) (x4 : Vec F S1x256 .f32) (x5 : Vec F S256x128 .bf16) (x6 : Vec F S1x128 .f32) (x7 : Vec F S1x128 .bf16) :
    View.canon (runFirst (F := F) c i arg1 harg1 arg2 harg2 arg3 harg3 arg4 harg4 arg5 harg5 arg6 harg6 arg7 harg7 arg8 harg8 arg9 harg9 arg10 harg10 hc x0 x1 x2 x3 x4 x5 x6 x7).2.2.1
      = k0_pay3 (k0_pay5 (arg1.view.read (Elt F) (arg1.view.writes (Elt F) (harg1.unread x0) (runFirst (F := F) c i arg1 harg1 arg2 harg2 arg3 harg3 arg4 harg4 arg5 harg5 arg6 harg6 arg7 harg7 arg8 harg8 arg9 harg9 arg10 harg10 hc x0 x1 x2 x3 x4 x5 x6 x7).1))
          x2 x4 x3 x5 x6 x7) (k0_pay6 x1) := by
  unfold runFirst; dsimp only; sl_unfold_words
  rw [View.canon_unit_zero hz3]
  simp only [View.readAt_eq_ld, Memref.IsWhole.read_unread, View.ld_unit_zero (S := S4000x256) hz2, View.ld_unit_zero (S := S256x256) hz2,
    View.ld_unit_zero (S := S1x256) hz2, View.ld_unit_zero (S := S256x128) hz2, View.ld_unit_zero (S := S1x128) hz2,
    View.ld_unit_zero (S := S1x1x4000) hz3]

/-- The feature block after the first point's store, at row `p`, column `j`: the stored row of zeros in row 0, the fetched
    block in every other row. -/
theorem first0_apply (c : Dev nD) (i : grid0.Coords) (arg1 : Memref sig .tc .vmem S4000x256 .f32) (harg1 : arg1.IsWhole) (arg2 : Memref sig .tc .vmem S1x1x4000 .i32) (harg2 : arg2.IsWhole) (arg3 : Memref sig .tc .vmem S256x256 .bf16) (harg3 : arg3.IsWhole) (arg4 : Memref sig .tc .vmem S1x256 .f32) (harg4 : arg4.IsWhole) (arg5 : Memref sig .tc .vmem S1x256 .f32) (harg5 : arg5.IsWhole) (arg6 : Memref sig .tc .vmem S256x128 .bf16) (harg6 : arg6.IsWhole) (arg7 : Memref sig .tc .vmem S1x128 .f32) (harg7 : arg7.IsWhole) (arg8 : Memref sig .tc .vmem S1x128 .bf16) (harg8 : arg8.IsWhole) (arg9 : Memref sig .tc .vmem S1x1x4000 .f32) (harg9 : arg9.IsWhole) (arg10 : Memref sig .tc .vmem S1x1x1 .f32) (harg10 : arg10.IsWhole) (hc : isFirst i) (x0 : Vec F S4000x256 .f32) (x1 : Vec F S1x1x4000 .i32) (x2 : Vec F S256x256 .bf16) (x3 : Vec F S1x256 .f32) (x4 : Vec F S1x256 .f32) (x5 : Vec F S256x128 .bf16) (x6 : Vec F S1x128 .f32) (x7 : Vec F S1x128 .bf16) (p : Fin 4000) (j : Fin 256) :
    arg1.view.read (Elt F) (arg1.view.writes (Elt F) (harg1.unread x0) (runFirst (F := F) c i arg1 harg1 arg2 harg2 arg3 harg3 arg4 harg4 arg5 harg5 arg6 harg6 arg7 harg7 arg8 harg8 arg9 harg9 arg10 harg10 hc x0 x1 x2 x3 x4 x5 x6 x7).1) (ix2 p j)
      = if p.val = 0 then k0_pay4 (F := F) (ix2 (⟨0, by decide⟩ : Fin 1) j) else x0 (ix2 p j) := by
  unfold runFirst; dsimp only; sl_unfold_words
  by_cases hp : p.val = 0
  · rw [if_pos hp]
    refine View.read_writes_cons_unit_of_mem arg1.view (harg1.unread x0) _ _ [] (ix2 p j) (ix2 (⟨0, by decide⟩ : Fin 1) j) rfl (fun a => ?_)
    fin_cases a
    · show p.val = 0 + 0; omega
    · show j.val = 0 + j.val; omega
  · rw [if_neg hp, View.read_writes_cons_unit_of_not_mem arg1.view (harg1.unread x0) _ _ [] (ix2 p j) rfl (0 : Fin 2)
      (Or.inr (by show 0 + 1 ≤ p.val; omega)), View.writes_nil, harg1.read_unread]

/-! ## At a grid point -/

variable (m : (ℓ : Loc nD τ sig) → Buf (Elt F) ℓ)

/-- The eight input blocks at point `t`, each at its literal type. -/
abbrev blk0 (c : Dev nD) (t : Fin cfg0.N) : Vec F S4000x256 .f32 := iblk m c 0 t
abbrev blk1 (c : Dev nD) (t : Fin cfg0.N) : Vec F S1x1x4000 .i32 := iblk m c 1 t
abbrev blk2 (c : Dev nD) (t : Fin cfg0.N) : Vec F S256x256 .bf16 := iblk m c 2 t
abbrev blk3 (c : Dev nD) (t : Fin cfg0.N) : Vec F S1x256 .f32 := iblk m c 3 t
abbrev blk4 (c : Dev nD) (t : Fin cfg0.N) : Vec F S1x256 .f32 := iblk m c 4 t
abbrev blk5 (c : Dev nD) (t : Fin cfg0.N) : Vec F S256x128 .bf16 := iblk m c 5 t
abbrev blk6 (c : Dev nD) (t : Fin cfg0.N) : Vec F S1x128 .f32 := iblk m c 6 t
abbrev blk7 (c : Dev nD) (t : Fin cfg0.N) : Vec F S1x128 .bf16 := iblk m c 7 t

/-- The feature block the products read at point `t`: as the first point's store left it, or as fetched. -/
abbrev feat (c : Dev nD) (t : Fin cfg0.N) : Vec F S4000x256 .f32 := left0 m c t

/-- At every point the masked-score window's buffer is left at the select over the products of `feat` and the resident
    blocks (window 4 is the bias row, window 3 the self-contribution row), under the adjacency block's mask. -/
theorem left8_eq (c : Dev nD) (t : Fin cfg0.N) :
    left8 m c t = k0_pay2 (k0_pay5 (feat m c t) (blk2 m c t) (blk4 m c t) (blk3 m c t) (blk5 m c t) (blk6 m c t) (blk7 m c t)) (k0_pay6 (blk1 m c t)) := by
  by_cases h : t.val = 0
  · unfold left8 feat; rw [dif_pos h, View.read_writes_junk_eq_canon]
    rw [show left0 m c t = (ms0 t).view.read (Elt F) ((ms0 t).view.writes (Elt F) ((hs0 t).unread (iblk m c 0 t)) (firstRun m c t h).1) from dif_pos h]
    exact canonFirst8 (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) ((isFirst_iff t).mpr h) (iblk m c 0 t) (iblk m c 1 t) (iblk m c 2 t) (iblk m c 3 t) (iblk m c 4 t) (iblk m c 5 t) (iblk m c 6 t) (iblk m c 7 t)
  · unfold left8 feat; rw [dif_neg h, View.read_writes_junk_eq_canon]
    rw [show left0 m c t = iblk m c 0 t from dif_neg h]
    exact canonLater8 (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (fun hh => h ((isFirst_iff t).mp hh)) (iblk m c 0 t) (iblk m c 1 t) (iblk m c 2 t) (iblk m c 3 t) (iblk m c 4 t) (iblk m c 5 t) (iblk m c 6 t) (iblk m c 7 t)

/-- And the tile-maximum window's buffer at their lane maximum. -/
theorem left9_eq (c : Dev nD) (t : Fin cfg0.N) :
    left9 m c t = k0_pay3 (k0_pay5 (feat m c t) (blk2 m c t) (blk4 m c t) (blk3 m c t) (blk5 m c t) (blk6 m c t) (blk7 m c t)) (k0_pay6 (blk1 m c t)) := by
  by_cases h : t.val = 0
  · unfold left9 feat; rw [dif_pos h, View.read_writes_junk_eq_canon]
    rw [show left0 m c t = (ms0 t).view.read (Elt F) ((ms0 t).view.writes (Elt F) ((hs0 t).unread (iblk m c 0 t)) (firstRun m c t h).1) from dif_pos h]
    exact canonFirst9 (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) ((isFirst_iff t).mpr h) (iblk m c 0 t) (iblk m c 1 t) (iblk m c 2 t) (iblk m c 3 t) (iblk m c 4 t) (iblk m c 5 t) (iblk m c 6 t) (iblk m c 7 t)
  · unfold left9 feat; rw [dif_neg h, View.read_writes_junk_eq_canon]
    rw [show left0 m c t = iblk m c 0 t from dif_neg h]
    exact canonLater9 (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (fun hh => h ((isFirst_iff t).mp hh)) (iblk m c 0 t) (iblk m c 1 t) (iblk m c 2 t) (iblk m c 3 t) (iblk m c 4 t) (iblk m c 5 t) (iblk m c 6 t) (iblk m c 7 t)

/-- `feat` at row `p`, column `j`: at the first point the stored zeros in row 0; everywhere else the fetched block. -/
theorem feat_apply (c : Dev nD) (t : Fin cfg0.N) (p : Fin 4000) (j : Fin 256) :
    feat m c t (ix2 p j)
      = if t.val = 0 ∧ p.val = 0 then k0_pay4 (F := F) (ix2 (⟨0, by decide⟩ : Fin 1) j) else blk0 m c t (ix2 p j) := by
  by_cases h : t.val = 0
  · unfold feat
    rw [show left0 m c t = (ms0 t).view.read (Elt F) ((ms0 t).view.writes (Elt F) ((hs0 t).unread (iblk m c 0 t)) (firstRun m c t h).1) from dif_pos h]
    refine (first0_apply (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) ((isFirst_iff t).mpr h) (iblk m c 0 t) (iblk m c 1 t) (iblk m c 2 t) (iblk m c 3 t) (iblk m c 4 t) (iblk m c 5 t) (iblk m c 6 t) (iblk m c 7 t) p j).trans ?_
    by_cases hp : p.val = 0
    · rw [if_pos hp, if_pos ⟨h, hp⟩]
    · rw [if_neg hp, if_neg (fun hh => hp hh.2)]
  · unfold feat
    rw [show left0 m c t = iblk m c 0 t from dif_neg h, if_neg (fun hh => h hh.1)]

end Cert.KernelIdeal.Body
end
-- ==== Proof.Spec.lean ====
/-
  The function both programs compute, written once over the argument arrays, index by index, on the extended reals.

  For a neighbour row `v` (256 features) the score is
      mlp v = Σ_k ws_k · max (Σ_j max (Σ_i v_i · W0n_ij + b0_j + self_j) 0 · W1_jk + b1_k) 0,
  where `W0n` is the lower half of `W0` (rows 256 … 511) and `self_j = Σ_i feature[0,i] · W0[i,j]` is the upper half applied to
  feature row 0, the same for every row. Row `r` of the node array contributes its feature row, except row 0, whose neighbour
  row is zero; a column whose adjacency word is zero has its score replaced by the fill `-1e30`. One more row, the
  sentinel, has the zero neighbour row and is never masked. The result is the softmax over these 200001 scores taken
  with the maximum subtracted, with the masked-out columns set to zero afterwards.
-/
import Idealize.ShloMosaic.PureOps.Ideal
import Idealize.ShloMosaic.Lib.ValueIdx

noncomputable section

open scoped BigOperators

namespace Cert.Spec

open Idealize.ShloMosaic Idealize.ShloMosaic.ValueIdx

/-- The initial value of every maximum in both programs: the f32 word of `-∞`. -/
abbrev negInf : EReal := Ideal.ofBits .f32 0xFF800000#32
/-- The fill of a masked-out score: the f32 word of `-1e30`, the same word in both programs. -/
abbrev negBig : EReal := Ideal.ofBits .f32 0xF149F2CA#32

/-- Two dense layers with relu and the scoring row, on one neighbour row `v`, over plain coordinate-indexed weights:
    `w0n` the neighbour half of the first layer, `b0` its bias, `sc` the self contribution added after the bias. -/
def mlp (w0n : Fin 256 → Fin 256 → EReal) (b0 sc : Fin 256 → EReal) (w1 : Fin 256 → Fin 128 → EReal) (b1 ws : Fin 128 → EReal)
    (v : Fin 256 → EReal) : EReal :=
  ∑ k : Fin 128, ws k * max ((∑ j : Fin 256, max ((∑ i : Fin 256, v i * w0n i j) + b0 j + sc j) 0 * w1 j k) + b1 k) 0

/-- The column that lane `p` of tile `t` holds: the kernel cuts the 200000 columns into fifty tiles of 4000. -/
def col (t : Fin 50) (p : Fin 4000) : Fin 200000 := ⟨4000 * t.val + p.val, by have := t.isLt; have := p.isLt; omega⟩

/-- Row `i` of the upper half of `W0` (the half that multiplies the node's own features). -/
def lo (i : Fin 256) : Fin 512 := ⟨i.val, by have := i.isLt; omega⟩
/-- Row `i` of the lower half of `W0` (the half that multiplies the neighbour's features). -/
def hi (i : Fin 256) : Fin 512 := ⟨256 + i.val, by have := i.isLt; omega⟩

section
variable (A : (⟨2, ![1, 200000]⟩ : Shape).Idx → BitVec 32) (X : (⟨2, ![200000, 256]⟩ : Shape).Idx → EReal)
  (W0 : (⟨2, ![512, 256]⟩ : Shape).Idx → EReal) (b0 : (⟨1, ![256]⟩ : Shape).Idx → EReal)
  (W1 : (⟨2, ![256, 128]⟩ : Shape).Idx → EReal) (b1 : (⟨1, ![128]⟩ : Shape).Idx → EReal)
  (ws : (⟨2, ![128, 1]⟩ : Shape).Idx → EReal)

/-- The self contribution: feature row 0 through the upper half of `W0`. -/
def selfc (j : Fin 256) : EReal := ∑ i : Fin 256, X (ix2 (⟨0, by decide⟩ : Fin 200000) i) * W0 (ix2 (lo i) j)

/-- The score of a neighbour row under this problem's weights. -/
def score (v : Fin 256 → EReal) : EReal :=
  mlp (fun i j => W0 (ix2 (hi i) j)) (fun j => b0 (ix1 j)) (selfc X W0) (fun j k => W1 (ix2 j k)) (fun k => b1 (ix1 k))
    (fun k => ws (ix2 k (⟨0, by decide⟩ : Fin 1))) v

/-- Node `r`'s neighbour row: its feature row, zero for node 0. -/
def nrow (r : Fin 200000) (i : Fin 256) : EReal := if r.val = 0 then 0 else X (ix2 r i)

/-- Column `r`'s adjacency bit, as both programs compute it (`adj ≠ 0`). -/
def bit (r : Fin 200000) : BitVec 1 := Scalar.cmpi .ne (A (ix2 (⟨0, by decide⟩ : Fin 1) r)) 0#32

/-- Column `r`'s score, replaced by the fill where the adjacency word is zero. -/
def masked (r : Fin 200000) : EReal := Scalar.select (bit A r) (score X W0 b0 W1 b1 ws (nrow X r)) negBig

/-- The sentinel's score: the zero neighbour row, never masked. -/
def sentinel : EReal := score X W0 b0 W1 b1 ws (fun _ => 0)

/-- The maximum of all 200001 scores. -/
def top : EReal := max (Finset.univ.fold max negInf (masked A X W0 b0 W1 b1 ws)) (sentinel X W0 b0 W1 b1 ws)

/-- Column `r`'s exponential, the maximum subtracted. -/
def ex (r : Fin 200000) : EReal := Ideal.exp (masked A X W0 b0 W1 b1 ws r - top A X W0 b0 W1 b1 ws)
/-- The sentinel's. -/
def exS : EReal := Ideal.exp (sentinel X W0 b0 W1 b1 ws - top A X W0 b0 W1 b1 ws)
/-- The softmax denominator. -/
def total : EReal := (∑ r : Fin 200000, ex A X W0 b0 W1 b1 ws r) + exS A X W0 b0 W1 b1 ws

/-- The result array [200001, 1]: the softmax weights of the 200000 columns, zero where masked out, then the sentinel's. -/
def result (j : (⟨2, ![200001, 1]⟩ : Shape).Idx) : EReal :=
  if h : (j 0).val < 200000 then
    Scalar.select (bit A ⟨(j 0).val, h⟩) (Ideal.div (ex A X W0 b0 W1 b1 ws ⟨(j 0).val, h⟩) (total A X W0 b0 W1 b1 ws)) 0
  else Ideal.div (exS A X W0 b0 W1 b1 ws) (total A X W0 b0 W1 b1 ws)

/-- The maximum by its universal property: the least bound of `-∞`, every column's masked score and the sentinel's. Any
    other arrangement of the same maxima (tile by tile; all 200001 in one fold) is `top` once it has this property. -/
theorem top_le_iff (c : EReal) :
    top A X W0 b0 W1 b1 ws ≤ c ↔ negInf ≤ c ∧ (∀ r, masked A X W0 b0 W1 b1 ws r ≤ c) ∧ sentinel X W0 b0 W1 b1 ws ≤ c := by
  unfold top
  rw [max_le_iff, Finset.fold_max_le]
  constructor
  · rintro ⟨⟨h0, h1⟩, h2⟩; exact ⟨h0, fun r => h1 r (Finset.mem_univ r), h2⟩
  · rintro ⟨h0, h1, h2⟩; exact ⟨⟨h0, fun r _ => h1 r⟩, h2⟩

/-- An extended real with `top`'s universal property is `top`. -/
theorem eq_top_of_le_iff (M : EReal)
    (h : ∀ c, M ≤ c ↔ negInf ≤ c ∧ (∀ r, masked A X W0 b0 W1 b1 ws r ≤ c) ∧ sentinel X W0 b0 W1 b1 ws ≤ c) :
    M = top A X W0 b0 W1 b1 ws :=
  eq_of_forall_ge_iff fun c => by rw [h c, top_le_iff]

end

end Cert.Spec

end
-- ==== Proof.Blocks.lean ====
/-
  From the pipeline's blocks to its arrays, for any float values.

  The grid has fifty points. The feature array [200000, 256] is read in blocks of 4000 rows and the adjacency array
  [50, 1, 4000] one tile at a time, both at block index (t, 0, …): a block's coordinate in its array is the block index
  times the block size plus the coordinate inside the block, so row p of the block at point t is row 4000·t + p, and lane p
  of the adjacency block is lane p of tile t. The six weight windows have one block, the whole array, at block index zero
  at every point. The two result arrays [50, 1, 4000] and [50, 1, 1] are written one tile per point; distinct points write
  distinct tiles, so after the last write-back tile t holds exactly what the body left at point t.
-/
import proofs.«420732_j53626961657857_3_alg».proof.Proof.FrameI
import proofs.«420732_j53626961657857_3_alg».proof.Proof.Spec
import Idealize.ShloMosaic.Lib.Pipeline.Value
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

variable (m : (ℓ : Loc nD τ sig) → Buf (Elt F) ℓ)

/-- A grid point as a tile number. -/
def tile (t : Fin cfg0.N) : Fin 50 := ⟨t.val, lt_of_lt_of_eq t.isLt N_0⟩

private theorem idx0 : ∀ t : Fin cfg0.N, win0_0.index t (0 : Fin 2) = t.val ∧ win0_0.index t (1 : Fin 2) = 0 :=
  (by decide +kernel : ∀ t : Fin grid0.N, _)
private theorem idx1 : ∀ t : Fin cfg0.N, win0_1.index t (0 : Fin 3) = t.val ∧ win0_1.index t (1 : Fin 3) = 0 ∧ win0_1.index t (2 : Fin 3) = 0 :=
  (by decide +kernel : ∀ t : Fin grid0.N, _)
private theorem idx8 : ∀ t : Fin cfg0.N, win0_8.index t (0 : Fin 3) = t.val ∧ win0_8.index t (1 : Fin 3) = 0 ∧ win0_8.index t (2 : Fin 3) = 0 :=
  (by decide +kernel : ∀ t : Fin grid0.N, _)
private theorem idx9 : ∀ t : Fin cfg0.N, win0_9.index t (0 : Fin 3) = t.val ∧ win0_9.index t (1 : Fin 3) = 0 ∧ win0_9.index t (2 : Fin 3) = 0 :=
  (by decide +kernel : ∀ t : Fin grid0.N, _)

/-- Row p of the feature block at point t is row 4000·t + p of the feature array. -/
theorem iblk0_apply (c : Dev nD) (t : Fin cfg0.N) (p : Fin 4000) (i : Fin 256) :
    iblk m c 0 t (ix2 p i) = V m c main_arg1 (ix2 (Cert.Spec.col (tile t) p) i) := by
  obtain ⟨e0, e1⟩ := idx0 t
  show V m c main_arg1 (((cfg0.win 0).blk t).view.emb (ix2 p i)) = _
  congr 1
  funext a; apply Fin.ext
  match a with
  | ⟨0, _⟩ => show win0_0.index t (0 : Fin 2) * 4000 + 1 * p.val = 4000 * t.val + p.val; omega
  | ⟨1, _⟩ => show win0_0.index t (1 : Fin 2) * 256 + 1 * i.val = i.val; omega

/-- Lane p of the adjacency block at point t. -/
theorem iblk1_apply (c : Dev nD) (t : Fin cfg0.N) (p : Fin 4000) :
    iblk m c 1 t (ix3 (⟨0, by decide⟩ : Fin 1) (⟨0, by decide⟩ : Fin 1) p) = V m c main_v10 (ix3 (tile t) (⟨0, by decide⟩ : Fin 1) p) := by
  obtain ⟨e0, e1, e2⟩ := idx1 t
  show V m c main_v10 (((cfg0.win 1).blk t).view.emb (ix3 (⟨0, by decide⟩ : Fin 1) (⟨0, by decide⟩ : Fin 1) p)) = _
  congr 1
  funext a; apply Fin.ext
  match a with
  | ⟨0, _⟩ => show win0_1.index t (0 : Fin 3) * 1 + 1 * 0 = t.val; omega
  | ⟨1, _⟩ => show win0_1.index t (1 : Fin 3) * 1 + 1 * 0 = 0; omega
  | ⟨2, _⟩ => show win0_1.index t (2 : Fin 3) * 4000 + 1 * p.val = p.val; omega

private theorem idx2 : ∀ t : Fin cfg0.N, win0_2.index t (0 : Fin 2) = 0 ∧ win0_2.index t (1 : Fin 2) = 0 :=
  (by decide +kernel : ∀ t : Fin grid0.N, _)
private theorem idx3 : ∀ t : Fin cfg0.N, win0_3.index t (0 : Fin 2) = 0 ∧ win0_3.index t (1 : Fin 2) = 0 :=
  (by decide +kernel : ∀ t : Fin grid0.N, _)
private theorem idx4 : ∀ t : Fin cfg0.N, win0_4.index t (0 : Fin 2) = 0 ∧ win0_4.index t (1 : Fin 2) = 0 :=
  (by decide +kernel : ∀ t : Fin grid0.N, _)
private theorem idx5 : ∀ t : Fin cfg0.N, win0_5.index t (0 : Fin 2) = 0 ∧ win0_5.index t (1 : Fin 2) = 0 :=
  (by decide +kernel : ∀ t : Fin grid0.N, _)
private theorem idx6 : ∀ t : Fin cfg0.N, win0_6.index t (0 : Fin 2) = 0 ∧ win0_6.index t (1 : Fin 2) = 0 :=
  (by decide +kernel : ∀ t : Fin grid0.N, _)
private theorem idx7 : ∀ t : Fin cfg0.N, win0_7.index t (0 : Fin 2) = 0 ∧ win0_7.index t (1 : Fin 2) = 0 :=
  (by decide +kernel : ∀ t : Fin grid0.N, _)

/-- A resident window's block is its whole array, at every point. -/
theorem iblk2_eq (c : Dev nD) (t : Fin cfg0.N) : iblk m c 2 t = V m c main_v8 := by
  obtain ⟨e0, e1⟩ := idx2 t
  funext j
  show V m c main_v8 (((cfg0.win 2).blk t).view.emb j) = V m c main_v8 j
  congr 1
  funext a; apply Fin.ext
  match a with
  | ⟨0, _⟩ => show win0_2.index t (0 : Fin 2) * 256 + 1 * (j 0).val = (j 0).val; omega
  | ⟨1, _⟩ => show win0_2.index t (1 : Fin 2) * 256 + 1 * (j 1).val = (j 1).val; omega
theorem iblk3_eq (c : Dev nD) (t : Fin cfg0.N) : iblk m c 3 t = V m c main_v3 := by
  obtain ⟨e0, e1⟩ := idx3 t
  funext j
  show V m c main_v3 (((cfg0.win 3).blk t).view.emb j) = V m c main_v3 j
  congr 1
  funext a; apply Fin.ext
  match a with
  | ⟨0, _⟩ => show win0_3.index t (0 : Fin 2) * 1 + 1 * (j 0).val = (j 0).val; omega
  | ⟨1, _⟩ => show win0_3.index t (1 : Fin 2) * 256 + 1 * (j 1).val = (j 1).val; omega
theorem iblk4_eq (c : Dev nD) (t : Fin cfg0.N) : iblk m c 4 t = V m c main_v4 := by
  obtain ⟨e0, e1⟩ := idx4 t
  funext j
  show V m c main_v4 (((cfg0.win 4).blk t).view.emb j) = V m c main_v4 j
  congr 1
  funext a; apply Fin.ext
  match a with
  | ⟨0, _⟩ => show win0_4.index t (0 : Fin 2) * 1 + 1 * (j 0).val = (j 0).val; omega
  | ⟨1, _⟩ => show win0_4.index t (1 : Fin 2) * 256 + 1 * (j 1).val = (j 1).val; omega
theorem iblk5_eq (c : Dev nD) (t : Fin cfg0.N) : iblk m c 5 t = V m c main_v9 := by
  obtain ⟨e0, e1⟩ := idx5 t
  funext j
  show V m c main_v9 (((cfg0.win 5).blk t).view.emb j) = V m c main_v9 j
  congr 1
  funext a; apply Fin.ext
  match a with
  | ⟨0, _⟩ => show win0_5.index t (0 : Fin 2) * 256 + 1 * (j 0).val = (j 0).val; omega
  | ⟨1, _⟩ => show win0_5.index t (1 : Fin 2) * 128 + 1 * (j 1).val = (j 1).val; omega
theorem iblk6_eq (c : Dev nD) (t : Fin cfg0.N) : iblk m c 6 t = V m c main_v5 := by
  obtain ⟨e0, e1⟩ := idx6 t
  funext j
  show V m c main_v5 (((cfg0.win 6).blk t).view.emb j) = V m c main_v5 j
  congr 1
  funext a; apply Fin.ext
  match a with
  | ⟨0, _⟩ => show win0_6.index t (0 : Fin 2) * 1 + 1 * (j 0).val = (j 0).val; omega
  | ⟨1, _⟩ => show win0_6.index t (1 : Fin 2) * 128 + 1 * (j 1).val = (j 1).val; omega
theorem iblk7_eq (c : Dev nD) (t : Fin cfg0.N) : iblk m c 7 t = V m c main_v7 := by
  obtain ⟨e0, e1⟩ := idx7 t
  funext j
  show V m c main_v7 (((cfg0.win 7).blk t).view.emb j) = V m c main_v7 j
  congr 1
  funext a; apply Fin.ext
  match a with
  | ⟨0, _⟩ => show win0_7.index t (0 : Fin 2) * 1 + 1 * (j 0).val = (j 0).val; omega
  | ⟨1, _⟩ => show win0_7.index t (1 : Fin 2) * 128 + 1 * (j 1).val = (j 1).val; omega

/-- The two result windows' index maps send distinct grid points to distinct block indices. -/
private theorem inj8 : ∀ t t' : Fin cfg0.N, win0_8.index t = win0_8.index t' → t = t' :=
  (by decide +kernel : ∀ t t' : Fin grid0.N, win0_8.index t = win0_8.index t' → t = t')
private theorem inj9 : ∀ t t' : Fin cfg0.N, win0_9.index t = win0_9.index t' → t = t' :=
  (by decide +kernel : ∀ t t' : Fin grid0.N, win0_9.index t = win0_9.index t' → t = t')

/-- So two points' blocks of a result array share no index. -/
private theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (inj8 t t' h)
private theorem disjoint9 : ∀ t t' : Fin cfg0.N, (cfg0.win 9).flush t = true → (cfg0.win 9).flush t' = true → t ≠ t' →
    Disjoint ((cfg0.win 9).blk t).view.set ((cfg0.win 9).blk t').view.set :=
  fun t t' _ _ hne => (cfg0.win 9).disjoint_blk fun h => hne (inj9 t t' h)

/-- After the last write-back the masked-score array holds, in tile t, what the body left at point t. -/
theorem arr8_apply (c : Dev nD) (t : Fin cfg0.N) (p : Fin 4000) :
    (dats m 0 c).arrAt 8 cfg0.N (ix3 (tile t) (⟨0, by decide⟩ : Fin 1) p) = left8 m c t (ix3 (⟨0, by decide⟩ : Fin 1) (⟨0, by decide⟩ : Fin 1) p) := by
  obtain ⟨e0, e1, e2⟩ := idx8 t
  have h := (dats m 0 c).arrAt_emb_eq_flushed 8 disjoint8 t (flush0_8 t) (ix3 (⟨0, by decide⟩ : Fin 1) (⟨0, by decide⟩ : Fin 1) p)
  have e : ((cfg0.win 8).blk t).view.emb (ix3 (⟨0, by decide⟩ : Fin 1) (⟨0, by decide⟩ : Fin 1) p) = ix3 (tile t) (⟨0, by decide⟩ : Fin 1) p := by
    funext a; apply Fin.ext
    match a with
    | ⟨0, _⟩ => show win0_8.index t (0 : Fin 3) * 1 + 1 * 0 = t.val; omega
    | ⟨1, _⟩ => show win0_8.index t (1 : Fin 3) * 1 + 1 * 0 = 0; omega
    | ⟨2, _⟩ => show win0_8.index t (2 : Fin 3) * 4000 + 1 * p.val = p.val; omega
  rw [e] at h
  rw [h]
  show (dats m 0 c).after 8 t (ix3 (⟨0, by decide⟩ : Fin 1) (⟨0, by decide⟩ : Fin 1) p) = _
  rw [after_8]

/-- And the tile-maximum array, at tile t, what the body left at point t. -/
theorem arr9_apply (c : Dev nD) (t : Fin cfg0.N) :
    (dats m 0 c).arrAt 9 cfg0.N (ix3 (tile t) (⟨0, by decide⟩ : Fin 1) (⟨0, by decide⟩ : Fin 1)) = left9 m c t (ix3 (⟨0, by decide⟩ : Fin 1) (⟨0, by decide⟩ : Fin 1) (⟨0, by decide⟩ : Fin 1)) := by
  obtain ⟨e0, e1, e2⟩ := idx9 t
  have h := (dats m 0 c).arrAt_emb_eq_flushed 9 disjoint9 t (flush0_9 t) (ix3 (⟨0, by decide⟩ : Fin 1) (⟨0, by decide⟩ : Fin 1) (⟨0, by decide⟩ : Fin 1))
  have e : ((cfg0.win 9).blk t).view.emb (ix3 (⟨0, by decide⟩ : Fin 1) (⟨0, by decide⟩ : Fin 1) (⟨0, by decide⟩ : Fin 1)) = ix3 (tile t) (⟨0, by decide⟩ : Fin 1) (⟨0, by decide⟩ : Fin 1) := by
    funext a; apply Fin.ext
    match a with
    | ⟨0, _⟩ => show win0_9.index t (0 : Fin 3) * 1 + 1 * 0 = t.val; omega
    | ⟨1, _⟩ => show win0_9.index t (1 : Fin 3) * 1 + 1 * 0 = 0; omega
    | ⟨2, _⟩ => show win0_9.index t (2 : Fin 3) * 1 + 1 * 0 = 0; omega
  rw [e] at h
  rw [h]
  show (dats m 0 c).after 9 t (ix3 (⟨0, by decide⟩ : Fin 1) (⟨0, by decide⟩ : Fin 1) (⟨0, by decide⟩ : Fin 1)) = _
  rw [after_9]

end Cert.KernelIdeal.Body

end
-- ==== Proof.BlockValue.lean ====
/-
  The arithmetic of one block of the row-score kernel, read lane by lane on the extended reals.

  A block holds 4000 feature rows. For row p the body computes the three-layer perceptron of that row (two dense layers
  with bias and relu, then the scoring row), keeps the score where the row's adjacency word is not zero and puts the
  fill elsewhere, and takes the maximum of the 4000 kept values. Each of the three facts below reads one of the body's
  stored values at one index and says it is that closed expression.
-/
import proofs.«420732_j53626961657857_3_alg».proof.Proof.Gen.KernelIdeal.Skeleton
import proofs.«420732_j53626961657857_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.BlockValue

open Cert.KernelIdeal Cert.KernelIdeal.Gen Idealize.ShloMosaic Idealize.ShloMosaic.ValueIdx

/-! ## The mask and the lane maximum -/

/-- The adjacency block [1,1,4000] viewed as [1,4000]: lane p reads word (0,0,p). -/
theorem adj_apply (a : Vec Ideal S1x1x4000 .i32) (p : Fin 4000) :
    k0_pay6 (F := Ideal) a (ix2 (⟨0, by decide⟩ : Fin 1) p) = a (ix3 (⟨0, by decide⟩ : Fin 1) (⟨0, by decide⟩ : Fin 1) p) := by
  unfold k0_pay6
  exact shapeCast_1ab_ab_apply a shapeCasts_S1x1x4000_S1x4000 _ p

/-- The select at lane p: the score where the word is not zero, the fill elsewhere. -/
theorem keep_apply (s : FVec Ideal S1x4000 .f32) (c : IVec S1x4000 32) (p : Fin 4000) :
    k0_pay1 (F := Ideal) s c (ix2 (⟨0, by decide⟩ : Fin 1) p)
      = Scalar.select (Scalar.cmpi .ne (c (ix2 (⟨0, by decide⟩ : Fin 1) p)) 0#32) (s (ix2 (⟨0, by decide⟩ : Fin 1) p)) Cert.Spec.negBig := rfl

/-- The stored block at lane p: the score where the adjacency word is not zero, the fill elsewhere. -/
theorem masked_apply (s : FVec Ideal S1x4000 .f32) (a : Vec Ideal S1x1x4000 .i32) (p : Fin 4000) :
    k0_pay2 (F := Ideal) s (k0_pay6 (F := Ideal) a) (ix3 (⟨0, by decide⟩ : Fin 1) (⟨0, by decide⟩ : Fin 1) p)
      = Scalar.select (Scalar.cmpi .ne (a (ix3 (⟨0, by decide⟩ : Fin 1) (⟨0, by decide⟩ : Fin 1) p)) 0#32) (s (ix2 (⟨0, by decide⟩ : Fin 1) p)) Cert.Spec.negBig := by
  unfold k0_pay2
  refine (shapeCast_ab_1ab_apply (k0_pay1 (F := Ideal) s (k0_pay6 (F := Ideal) a)) shapeCasts_S1x4000_S1x1x4000 _ _ p).trans ?_
  rw [keep_apply, adj_apply]

/-- The index over lane p of the one reduced row is (0, p). -/
theorem lift_lane (p : Fin 4000) :
    reduces_S1x4000_S1.lift (ix1 (⟨0, by decide⟩ : Fin 1)) p = ix2 (⟨0, by decide⟩ : Fin 1) p :=
  funext fun c => Fin.ext (by match c with | ⟨0, _⟩ => rfl | ⟨1, _⟩ => rfl)

/-- The lane maximum: the fold of max from -∞ over the 4000 lanes of the same masked values. -/
theorem tilemax_apply (s : FVec Ideal S1x4000 .f32) (a : Vec Ideal S1x1x4000 .i32) :
    k0_pay3 (F := Ideal) s (k0_pay6 (F := Ideal) a) (ix3 (⟨0, by decide⟩ : Fin 1) (⟨0, by decide⟩ : Fin 1) (⟨0, by decide⟩ : Fin 1))
      = (Finset.univ : Finset (Fin 4000)).fold max Cert.Spec.negInf
          (fun p => Scalar.select (Scalar.cmpi .ne (a (ix3 (⟨0, by decide⟩ : Fin 1) (⟨0, by decide⟩ : Fin 1) p)) 0#32) (s (ix2 (⟨0, by decide⟩ : Fin 1) p)) Cert.Spec.negBig) := by
  unfold k0_pay3
  refine (shapeCast_ab_1ab_apply _ shapeCasts_S1x1_S1x1x1 _ _ _).trans ?_
  refine (shapeCast_a_1a_apply _ shapeCasts_S1_S1x1 _ _).trans ?_
  refine (Ideal.multiReduction_maximumf_single (k0_pay1 (F := Ideal) s (k0_pay6 (F := Ideal) a)) 0xFF800000#32
    reduces_S1x4000_S1 (.inl rfl) rfl (ix1 (⟨0, by decide⟩ : Fin 1))).trans ?_
  show (Finset.univ : Finset (Fin 4000)).fold max Cert.Spec.negInf _ = _
  refine Finset.fold_congr fun p _ => ?_
  show k0_pay1 (F := Ideal) s (k0_pay6 (F := Ideal) a) (reduces_S1x4000_S1.lift (ix1 (⟨0, by decide⟩ : Fin 1)) p) = _
  rw [lift_lane, keep_apply, adj_apply]

/-! ## The three matrix products read at an index

Each product contracts one axis of each operand. Read at an output index it is the sum, over that axis's coordinate, of
the operands' products; the four small facts before each say which operand coordinate is the output's and which the
contraction's. -/

theorem lhs1_0 (i : S4000x256.Idx) (q : dot_S4000x256_S256x256_S4000x256_1_0_0_1_n_n.contr.Idx) :
    (dot_S4000x256_S256x256_S4000x256_1_0_0_1_n_n.lhsIdx i q 0).val = (i 0).val := by
  unfold DotDims.lhsIdx
  rw [dif_neg (show ¬(0 : Fin S4000x256.rank) ∈ dot_S4000x256_S256x256_S4000x256_1_0_0_1_n_n.lhsBatch by decide), dif_pos (show (0 : Fin S4000x256.rank) ∈ dot_S4000x256_S256x256_S4000x256_1_0_0_1_n_n.lhsNonContracting by decide)]
  rfl
theorem lhs1_1 (i : S4000x256.Idx) (q : dot_S4000x256_S256x256_S4000x256_1_0_0_1_n_n.contr.Idx) :
    (dot_S4000x256_S256x256_S4000x256_1_0_0_1_n_n.lhsIdx i q 1).val = (q ⟨0, by decide⟩).val :=
  dot_S4000x256_S256x256_S4000x256_1_0_0_1_n_n.lhsIdx_val_of_single rfl i q
theorem rhs1_0 (i : S4000x256.Idx) (q : dot_S4000x256_S256x256_S4000x256_1_0_0_1_n_n.contr.Idx) :
    (dot_S4000x256_S256x256_S4000x256_1_0_0_1_n_n.rhsIdx i q 0).val = (q ⟨0, by decide⟩).val :=
  dot_S4000x256_S256x256_S4000x256_1_0_0_1_n_n.rhsIdx_val_of_single rfl i q
theorem rhs1_1 (i : S4000x256.Idx) (q : dot_S4000x256_S256x256_S4000x256_1_0_0_1_n_n.contr.Idx) :
    (dot_S4000x256_S256x256_S4000x256_1_0_0_1_n_n.rhsIdx i q 1).val = (i 1).val := by
  unfold DotDims.rhsIdx
  rw [dif_neg (show ¬(1 : Fin S256x256.rank) ∈ dot_S4000x256_S256x256_S4000x256_1_0_0_1_n_n.rhsBatch by decide), dif_pos (show (1 : Fin S256x256.rank) ∈ dot_S4000x256_S256x256_S4000x256_1_0_0_1_n_n.rhsNonContracting by decide)]
  rfl

/-- Rows [4000,256] times [256,256] into a zero accumulator, at (p, j): the sum over the 256 features. -/
theorem mm1_apply (a : FVec Ideal S4000x256 .bf16) (b : FVec Ideal S256x256 .bf16) (p : Fin 4000) (j : Fin 256) :
    matmul dot_S4000x256_S256x256_S4000x256_1_0_0_1_n_n none a b (constant (F := Ideal) S4000x256 .f32 0x00000000#32) (ix2 p j)
      = ∑ i : Fin 256, a (ix2 p i) * b (ix2 i j) := by
  simp only [matmul]
  rw [Ideal.matmul_constant_zero_apply, ← Equiv.sum_comp (contrEquiv1 dot_S4000x256_S256x256_S4000x256_1_0_0_1_n_n 256 rfl rfl).symm]
  refine Finset.sum_congr rfl fun k _ => ?_
  have hk := contrEquiv1_symm_val dot_S4000x256_S256x256_S4000x256_1_0_0_1_n_n 256 rfl rfl k
  have el : dot_S4000x256_S256x256_S4000x256_1_0_0_1_n_n.lhsIdx (ix2 p j) ((contrEquiv1 dot_S4000x256_S256x256_S4000x256_1_0_0_1_n_n 256 rfl rfl).symm k) = ix2 p k := funext fun c => Fin.ext (by
    match c with
    | ⟨0, _⟩ => exact lhs1_0 _ _
    | ⟨1, _⟩ => exact (lhs1_1 _ _).trans hk)
  have er : dot_S4000x256_S256x256_S4000x256_1_0_0_1_n_n.rhsIdx (ix2 p j) ((contrEquiv1 dot_S4000x256_S256x256_S4000x256_1_0_0_1_n_n 256 rfl rfl).symm k) = ix2 k j := funext fun c => Fin.ext (by
    match c with
    | ⟨0, _⟩ => exact (rhs1_0 _ _).trans hk
    | ⟨1, _⟩ => exact rhs1_1 _ _)
  rw [el, er]

theorem lhs2_0 (i : S4000x128.Idx) (q : dot_S4000x256_S256x128_S4000x128_1_0_0_1_n_n.contr.Idx) :
    (dot_S4000x256_S256x128_S4000x128_1_0_0_1_n_n.lhsIdx i q 0).val = (i 0).val := by
  unfold DotDims.lhsIdx
  rw [dif_neg (show ¬(0 : Fin S4000x256.rank) ∈ dot_S4000x256_S256x128_S4000x128_1_0_0_1_n_n.lhsBatch by decide), dif_pos (show (0 : Fin S4000x256.rank) ∈ dot_S4000x256_S256x128_S4000x128_1_0_0_1_n_n.lhsNonContracting by decide)]
  rfl
theorem lhs2_1 (i : S4000x128.Idx) (q : dot_S4000x256_S256x128_S4000x128_1_0_0_1_n_n.contr.Idx) :
    (dot_S4000x256_S256x128_S4000x128_1_0_0_1_n_n.lhsIdx i q 1).val = (q ⟨0, by decide⟩).val :=
  dot_S4000x256_S256x128_S4000x128_1_0_0_1_n_n.lhsIdx_val_of_single rfl i q
theorem rhs2_0 (i : S4000x128.Idx) (q : dot_S4000x256_S256x128_S4000x128_1_0_0_1_n_n.contr.Idx) :
    (dot_S4000x256_S256x128_S4000x128_1_0_0_1_n_n.rhsIdx i q 0).val = (q ⟨0, by decide⟩).val :=
  dot_S4000x256_S256x128_S4000x128_1_0_0_1_n_n.rhsIdx_val_of_single rfl i q
theorem rhs2_1 (i : S4000x128.Idx) (q : dot_S4000x256_S256x128_S4000x128_1_0_0_1_n_n.contr.Idx) :
    (dot_S4000x256_S256x128_S4000x128_1_0_0_1_n_n.rhsIdx i q 1).val = (i 1).val := by
  unfold DotDims.rhsIdx
  rw [dif_neg (show ¬(1 : Fin S256x128.rank) ∈ dot_S4000x256_S256x128_S4000x128_1_0_0_1_n_n.rhsBatch by decide), dif_pos (show (1 : Fin S256x128.rank) ∈ dot_S4000x256_S256x128_S4000x128_1_0_0_1_n_n.rhsNonContracting by decide)]
  rfl

/-- Rows [4000,256] times [256,128] into a zero accumulator, at (p, k): the sum over the 256 hidden units. -/
theorem mm2_apply (a : FVec Ideal S4000x256 .bf16) (b : FVec Ideal S256x128 .bf16) (p : Fin 4000) (k : Fin 128) :
    matmul dot_S4000x256_S256x128_S4000x128_1_0_0_1_n_n none a b (constant (F := Ideal) S4000x128 .f32 0x00000000#32) (ix2 p k)
      = ∑ j : Fin 256, a (ix2 p j) * b (ix2 j k) := by
  simp only [matmul]
  rw [Ideal.matmul_constant_zero_apply, ← Equiv.sum_comp (contrEquiv1 dot_S4000x256_S256x128_S4000x128_1_0_0_1_n_n 256 rfl rfl).symm]
  refine Finset.sum_congr rfl fun j _ => ?_
  have hj := contrEquiv1_symm_val dot_S4000x256_S256x128_S4000x128_1_0_0_1_n_n 256 rfl rfl j
  have el : dot_S4000x256_S256x128_S4000x128_1_0_0_1_n_n.lhsIdx (ix2 p k) ((contrEquiv1 dot_S4000x256_S256x128_S4000x128_1_0_0_1_n_n 256 rfl rfl).symm j) = ix2 p j := funext fun c => Fin.ext (by
    match c with
    | ⟨0, _⟩ => exact lhs2_0 _ _
    | ⟨1, _⟩ => exact (lhs2_1 _ _).trans hj)
  have er : dot_S4000x256_S256x128_S4000x128_1_0_0_1_n_n.rhsIdx (ix2 p k) ((contrEquiv1 dot_S4000x256_S256x128_S4000x128_1_0_0_1_n_n 256 rfl rfl).symm j) = ix2 j k := funext fun c => Fin.ext (by
    match c with
    | ⟨0, _⟩ => exact (rhs2_0 _ _).trans hj
    | ⟨1, _⟩ => exact rhs2_1 _ _)
  rw [el, er]

theorem lhs3_0 (i : S1x4000.Idx) (q : dot_S1x128_S4000x128_S1x4000_1_1_0_0_n_n.contr.Idx) :
    (dot_S1x128_S4000x128_S1x4000_1_1_0_0_n_n.lhsIdx i q 0).val = (i 0).val := by
  unfold DotDims.lhsIdx
  rw [dif_neg (show ¬(0 : Fin S1x128.rank) ∈ dot_S1x128_S4000x128_S1x4000_1_1_0_0_n_n.lhsBatch by decide), dif_pos (show (0 : Fin S1x128.rank) ∈ dot_S1x128_S4000x128_S1x4000_1_1_0_0_n_n.lhsNonContracting by decide)]
  rfl
theorem lhs3_1 (i : S1x4000.Idx) (q : dot_S1x128_S4000x128_S1x4000_1_1_0_0_n_n.contr.Idx) :
    (dot_S1x128_S4000x128_S1x4000_1_1_0_0_n_n.lhsIdx i q 1).val = (q ⟨0, by decide⟩).val :=
  dot_S1x128_S4000x128_S1x4000_1_1_0_0_n_n.lhsIdx_val_of_single rfl i q
theorem rhs3_0 (i : S1x4000.Idx) (q : dot_S1x128_S4000x128_S1x4000_1_1_0_0_n_n.contr.Idx) :
    (dot_S1x128_S4000x128_S1x4000_1_1_0_0_n_n.rhsIdx i q 0).val = (i 1).val := by
  unfold DotDims.rhsIdx
  rw [dif_neg (show ¬(0 : Fin S4000x128.rank) ∈ dot_S1x128_S4000x128_S1x4000_1_1_0_0_n_n.rhsBatch by decide), dif_pos (show (0 : Fin S4000x128.rank) ∈ dot_S1x128_S4000x128_S1x4000_1_1_0_0_n_n.rhsNonContracting by decide)]
  rfl
theorem rhs3_1 (i : S1x4000.Idx) (q : dot_S1x128_S4000x128_S1x4000_1_1_0_0_n_n.contr.Idx) :
    (dot_S1x128_S4000x128_S1x4000_1_1_0_0_n_n.rhsIdx i q 1).val = (q ⟨0, by decide⟩).val :=
  dot_S1x128_S4000x128_S1x4000_1_1_0_0_n_n.rhsIdx_val_of_single rfl i q

/-- The scoring row [1,128] against rows [4000,128], both contracted along their second axis, at (0, p): the sum over
    the 128 units of row p. -/
theorem mm3_apply (a : FVec Ideal S1x128 .bf16) (b : FVec Ideal S4000x128 .bf16) (p : Fin 4000) :
    matmul dot_S1x128_S4000x128_S1x4000_1_1_0_0_n_n none a b (constant (F := Ideal) S1x4000 .f32 0x00000000#32) (ix2 (⟨0, by decide⟩ : Fin 1) p)
      = ∑ k : Fin 128, a (ix2 (⟨0, by decide⟩ : Fin 1) k) * b (ix2 p k) := by
  simp only [matmul]
  rw [Ideal.matmul_constant_zero_apply, ← Equiv.sum_comp (contrEquiv1 dot_S1x128_S4000x128_S1x4000_1_1_0_0_n_n 128 rfl rfl).symm]
  refine Finset.sum_congr rfl fun k _ => ?_
  have hk := contrEquiv1_symm_val dot_S1x128_S4000x128_S1x4000_1_1_0_0_n_n 128 rfl rfl k
  have el : dot_S1x128_S4000x128_S1x4000_1_1_0_0_n_n.lhsIdx (ix2 (⟨0, by decide⟩ : Fin 1) p) ((contrEquiv1 dot_S1x128_S4000x128_S1x4000_1_1_0_0_n_n 128 rfl rfl).symm k) = ix2 (⟨0, by decide⟩ : Fin 1) k := funext fun c => Fin.ext (by
    match c with
    | ⟨0, _⟩ => exact lhs3_0 _ _
    | ⟨1, _⟩ => exact (lhs3_1 _ _).trans hk)
  have er : dot_S1x128_S4000x128_S1x4000_1_1_0_0_n_n.rhsIdx (ix2 (⟨0, by decide⟩ : Fin 1) p) ((contrEquiv1 dot_S1x128_S4000x128_S1x4000_1_1_0_0_n_n 128 rfl rfl).symm k) = ix2 p k := funext fun c => Fin.ext (by
    match c with
    | ⟨0, _⟩ => exact rhs3_0 _ _
    | ⟨1, _⟩ => exact (rhs3_1 _ _).trans hk)
  rw [el, er]

/-! ## The perceptron of one row -/

/-- The three matrix products at lane p: the perceptron of row p of the feature block. -/
theorem scores_apply (x0 : Vec Ideal S4000x256 .f32) (w0n : Vec Ideal S256x256 .bf16) (b0r sc : Vec Ideal S1x256 .f32) (w1 : Vec Ideal S256x128 .bf16) (b1r : Vec Ideal S1x128 .f32) (wsr : Vec Ideal S1x128 .bf16) (p : Fin 4000) :
    k0_pay5 (F := Ideal) x0 w0n b0r sc w1 b1r wsr (ix2 (⟨0, by decide⟩ : Fin 1) p)
      = Cert.Spec.mlp (fun i j => w0n (ix2 i j)) (fun j => b0r (ix2 (⟨0, by decide⟩ : Fin 1) j)) (fun j => sc (ix2 (⟨0, by decide⟩ : Fin 1) j))
          (fun j k => w1 (ix2 j k)) (fun k => b1r (ix2 (⟨0, by decide⟩ : Fin 1) k)) (fun k => wsr (ix2 (⟨0, by decide⟩ : Fin 1) k)) (fun i => x0 (ix2 p i)) := by
  unfold k0_pay5 Cert.Spec.mlp
  simp only [shapeCast_self]
  refine (mm3_apply _ _ p).trans ?_
  refine Finset.sum_congr rfl fun k _ => ?_
  congr 1
  simp only [truncf_apply, maximumf_apply, addf_apply, broadcast_apply, mm2_apply, mm1_apply,
    broadcastTo_1b_ab_apply, Ideal.ofBits_def, Ideal.ofBits_zero_f32]
  rfl

end Cert.KernelIdeal.BlockValue

end
-- ==== Proof.TailFn.lean ====
/-
  The host lines after the kernel region, as one function of what they read: the two result arrays of the region (the
  masked scores [50,1,4000] and the per-tile maxima [50,1,1]), the self-contribution row and the first bias as rows
  [1,256], the second layer's weights, its bias as a row [1,128], the scoring weights [128,1] and the adjacency words.

  In order: the sentinel's score (relu (self + b0), one more dense layer with relu, the scoring product — plain f32 on
  the host); the maximum of the fifty tile maxima and the sentinel's score; the exponentials of the scores less that
  maximum; their sum plus the sentinel's exponential; the quotients; zero where the adjacency word is zero; the sentinel's
  quotient appended as row 200000.
-/
import proofs.«420732_j53626961657857_3_alg».proof.Proof.Gen.KernelIdeal
import Idealize.ShloMosaic.PureOps.Ideal

noncomputable section

namespace Cert.KernelIdeal.Tail

open Cert.KernelIdeal Cert.KernelIdeal.Gen Idealize.ShloMosaic

/-- The sentinel's score: `relu (relu (self + b0) · W1 + b1) · ws`, a scalar. -/
def sentinelScore (v3 v4 : FVec Ideal S1x256 .f32) (a4 : FVec Ideal S256x128 .f32) (v5 : FVec Ideal S1x128 .f32)
    (a6 : FVec Ideal S128x1 .f32) : FVec Ideal S_ .f32 :=
  shapeCast S_
    (Host.dotGeneral (F := Ideal) dot_S1x128_S128x1_S1x1_1_0_0_1_n_n none
      (maximumf
        (addf
          (Host.dotGeneral (F := Ideal) dot_S1x256_S256x128_S1x128_1_0_0_1_n_n none
            (maximumf (addf v3 v4) (broadcastInDim S1x256 ![] bcast_S_S1x256 (constant (F := Ideal) S_ .f32 0x00000000#32))) a4)
          v5)
        (broadcastInDim S1x128 ![] bcast_S_S1x128 (constant (F := Ideal) S_ .f32 0x00000000#32)))
      a6)
    shapeCasts_S1x1_S_

/-- The maximum over everything: the fifty tile maxima (from `-∞`) and the sentinel's score. -/
def topAll (Mx : FVec Ideal S50x1x1 .f32) (s : FVec Ideal S_ .f32) : FVec Ideal S_ .f32 :=
  maximumf
    (Host.reduce (FloatOps.maximumf (F := Ideal) (φ := .f32)) (shapeCast S50 Mx shapeCasts_S50x1x1_S50 : FVec Ideal S50 .f32) (constant (F := Ideal) S_ .f32 0xFF800000#32)
      reducesTo_S50_S_d0 h_S_ : FVec Ideal S_ .f32)
    s

/-- The columns' exponentials, the maximum subtracted. -/
def exps (R : FVec Ideal S50x1x4000 .f32) (top : FVec Ideal S_ .f32) : FVec Ideal S200000 .f32 :=
  Host.exp (F := Ideal) (subf (shapeCast S200000 R shapeCasts_S50x1x4000_S200000) (broadcastInDim S200000 ![] bcast_S_S200000 top))

/-- The whole tail. -/
def tail (R : FVec Ideal S50x1x4000 .f32) (Mx : FVec Ideal S50x1x1 .f32) (v3 v4 : FVec Ideal S1x256 .f32)
    (a4 : FVec Ideal S256x128 .f32) (v5 : FVec Ideal S1x128 .f32) (a6 : FVec Ideal S128x1 .f32) (a0 : IVec S1x200000 32) :
    FVec Ideal S200001x1 .f32 :=
  let s := sentinelScore v3 v4 a4 v5 a6
  let top := topAll Mx s
  let e := exps R top
  let es : FVec Ideal S_ .f32 := Host.exp (F := Ideal) (subf s top)
  let tot : FVec Ideal S_ .f32 :=
    addf (Host.reduceAdd (F := Ideal) e (constant (F := Ideal) S_ .f32 0x00000000#32) reducesTo_S200000_S_d0 h_S_) es
  let q : FVec Ideal S200000 .f32 := Host.divf (F := Ideal) e (broadcastInDim S200000 ![] bcast_S_S200000 tot)
  let on : IVec S200000 1 :=
    cmpi .ne (shapeCast S200000 a0 shapeCasts_S1x200000_S200000) (broadcastInDim S200000 ![] bcast_S_S200000 (constantI S_ 32 0#32))
  let kept : FVec Ideal S200000 .f32 :=
    select on q (broadcastInDim S200000 ![] bcast_S_S200000 (id (constant (F := Ideal) S_ .f32 0x00000000#32)))
  concatenate S200001x1 0
    [⟨S200000x1, shapeCast S200000x1 kept shapeCasts_S200000_S200000x1⟩,
     ⟨S1x1, shapeCast S1x1 (Host.divf (F := Ideal) es tot) shapeCasts_S_S1x1⟩]
    concatenates_S200000x1_S1x1_S200001x1_d0

end Cert.KernelIdeal.Tail

end
-- ==== Proof.HostSide.lean ====
/-
  What the host lines around the kernel region compute, on the extended reals.

  Before the region: the adjacency words regrouped into fifty tiles of 4000 lanes; the two halves of the first layer's
  weights (the lower half narrowed to bf16, the identity here); feature row 0 through the upper half (the self
  contribution, a row of 256 sums); the two biases as rows; the second layer's weights and the scoring weights narrowed
  to bf16. Each staged array is read at an index in terms of the argument arrays.

  After the region: the remaining lines, run in order from what the region leaves, are the tail function of the two
  result arrays, the two staged rows and the bias row, and the argument arrays.
-/
import proofs.«420732_j53626961657857_3_alg».proof.Proof.Gen.KernelIdeal.Frame
import proofs.«420732_j53626961657857_3_alg».proof.Proof.TailFn
import proofs.«420732_j53626961657857_3_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.Lib.Pipeline.FrameSuffix
import Idealize.ShloMosaic.PureOps.Ideal.Laws

set_option maxRecDepth 16384

noncomputable section

namespace Cert.KernelIdeal.HostSide

open Cert.KernelIdeal Cert.KernelIdeal.Gen Idealize.ShloMosaic Idealize.ShloMosaic.TcCoe Idealize.ShloMosaic.ValueIdx Idealize.SL.Sem
open Idealize.ShloMosaic.Pipeline (Dat)
open scoped BigOperators

variable (m : (ℓ : Loc nD τ sig) → Buf (Elt Ideal) ℓ) (c : Dev nD)

/-! ## The arrays the region's windows stage, read at an index -/

/-- The adjacency words reach the region as fifty tiles of 4000 lanes: a row-major regrouping of the 200000 columns, so
    lane `p` of tile `t` is column `4000 t + p`. -/
theorem V_adj (t : Fin 50) (p : Fin 4000) : V m c main_v10 (ix3 t (⟨0, by decide⟩ : Fin 1) p) = m ((c : Thread nD τ).loc main_arg0) (ix2 (⟨0, by decide⟩ : Fin 1) (Cert.Spec.col t p)) := by
  have e : (V m c main_v10 : S50x1x4000.Idx → BitVec 32)
      = shapeCast S50x1x4000 (m ((c : Thread nD τ).loc main_arg0) : S1x200000.Idx → BitVec 32) shapeCasts_S1x200000_S50x1x4000 := by
    dsimp only [V, V0]
    simp only [hostOps0, List.flatten_cons, List.flatten_nil, List.append_nil]
    after_results
    rfl
  refine (congrFun e _).trans (shapeCast_apply _ _ _ _ ?_)
  show (S1x200000.rowMajor _).val = (S50x1x4000.rowMajor _).val
  rw [Shape.rowMajor_val_two, Shape.rowMajor_val_three]
  show 0 * 200000 + (4000 * t.val + p.val) = (t.val * 1 + 0) * 4000 + p.val
  omega

/-- The neighbour half of the first layer: rows 256 … 511 of `W0`; the narrowing to bf16 changes nothing on the extended
    reals. -/
theorem V_w0n (i j : Fin 256) : V m c main_v8 (ix2 i j) = m ((c : Thread nD τ).loc main_arg2) (ix2 (Cert.Spec.hi i) j) := by
  have e : (V m c main_v8 : S256x256.Idx → EReal)
      = truncf .bf16 (extractStridedSlice S256x256 ![256, 0] (m ((c : Thread nD τ).loc main_arg2) : S512x256.Idx → EReal)
          slices_S512x256_S256x256_256_0 : FVec Ideal S256x256 .f32) bitsLt_bf16_f32 := by
    dsimp only [V, V0]
    simp only [hostOps0, List.flatten_cons, List.flatten_nil, List.append_nil]
    after_results
  refine (congrFun e _).trans ?_
  exact slice2_axis0_apply 256 (m ((c : Thread nD τ).loc main_arg2) : S512x256.Idx → EReal) slices_S512x256_S256x256_256_0 i j (Cert.Spec.hi i) rfl

/-- The operand indices of the contraction [1,256] · [256,256] at output index `i` and contraction position `q`, axis by axis:
    the left operand is read at (row of `i`, `q`), the right one at (`q`, column of `i`). -/
theorem dotrow_lhs_0 (i : S1x256.Idx) (q : dot_S1x256_S256x256_S1x256_1_0_0_1_n_n.contr.Idx) :
    (dot_S1x256_S256x256_S1x256_1_0_0_1_n_n.lhsIdx i q 0).val = (i 0).val := by
  unfold DotDims.lhsIdx
  rw [dif_neg (show ¬(0 : Fin S1x256.rank) ∈ dot_S1x256_S256x256_S1x256_1_0_0_1_n_n.lhsBatch by decide),
    dif_pos (show (0 : Fin S1x256.rank) ∈ dot_S1x256_S256x256_S1x256_1_0_0_1_n_n.lhsNonContracting by decide)]
  rfl
theorem dotrow_lhs_1 (i : S1x256.Idx) (q : dot_S1x256_S256x256_S1x256_1_0_0_1_n_n.contr.Idx) :
    (dot_S1x256_S256x256_S1x256_1_0_0_1_n_n.lhsIdx i q 1).val = (q ⟨0, by decide⟩).val :=
  dot_S1x256_S256x256_S1x256_1_0_0_1_n_n.lhsIdx_val_of_single rfl i q
theorem dotrow_rhs_0 (i : S1x256.Idx) (q : dot_S1x256_S256x256_S1x256_1_0_0_1_n_n.contr.Idx) :
    (dot_S1x256_S256x256_S1x256_1_0_0_1_n_n.rhsIdx i q 0).val = (q ⟨0, by decide⟩).val :=
  dot_S1x256_S256x256_S1x256_1_0_0_1_n_n.rhsIdx_val_of_single rfl i q
theorem dotrow_rhs_1 (i : S1x256.Idx) (q : dot_S1x256_S256x256_S1x256_1_0_0_1_n_n.contr.Idx) :
    (dot_S1x256_S256x256_S1x256_1_0_0_1_n_n.rhsIdx i q 1).val = (i 1).val := by
  unfold DotDims.rhsIdx
  rw [dif_neg (show ¬(1 : Fin S256x256.rank) ∈ dot_S1x256_S256x256_S1x256_1_0_0_1_n_n.rhsBatch by decide),
    dif_pos (show (1 : Fin S256x256.rank) ∈ dot_S1x256_S256x256_S1x256_1_0_0_1_n_n.rhsNonContracting by decide)]
  rfl

/-- The one-axis contraction [1,256] · [256,256] read at column `j`: the sum over the shared axis. -/
theorem dot_row (x : FVec Ideal S1x256 .f32) (y : FVec Ideal S256x256 .f32) (j : Fin 256) :
    Host.dotGeneral (F := Ideal) dot_S1x256_S256x256_S1x256_1_0_0_1_n_n none x y (ix2 (⟨0, by decide⟩ : Fin 1) j)
      = ∑ i : Fin 256, x (ix2 (⟨0, by decide⟩ : Fin 1) i) * y (ix2 i j) := by
  simp only [Host.dotGeneral]
  rw [Ideal.dotGeneral_apply, ← Equiv.sum_comp (contrEquiv1 dot_S1x256_S256x256_S1x256_1_0_0_1_n_n 256 rfl rfl).symm]
  refine Finset.sum_congr rfl fun i _ => ?_
  have hk := contrEquiv1_symm_val dot_S1x256_S256x256_S1x256_1_0_0_1_n_n 256 rfl rfl i
  have el : dot_S1x256_S256x256_S1x256_1_0_0_1_n_n.lhsIdx (ix2 (⟨0, by decide⟩ : Fin 1) j)
      ((contrEquiv1 dot_S1x256_S256x256_S1x256_1_0_0_1_n_n 256 rfl rfl).symm i) = ix2 (⟨0, by decide⟩ : Fin 1) i :=
    funext fun a => Fin.ext (by
      match a with
      | ⟨0, _⟩ => exact dotrow_lhs_0 _ _
      | ⟨1, _⟩ => exact (dotrow_lhs_1 _ _).trans hk)
  have er : dot_S1x256_S256x256_S1x256_1_0_0_1_n_n.rhsIdx (ix2 (⟨0, by decide⟩ : Fin 1) j)
      ((contrEquiv1 dot_S1x256_S256x256_S1x256_1_0_0_1_n_n 256 rfl rfl).symm i) = ix2 i j :=
    funext fun a => Fin.ext (by
      match a with
      | ⟨0, _⟩ => exact (dotrow_rhs_0 _ _).trans hk
      | ⟨1, _⟩ => exact dotrow_rhs_1 _ _)
  rw [el, er]

theorem V_selfc (j : Fin 256) : V m c main_v3 (ix2 (⟨0, by decide⟩ : Fin 1) j) = Cert.Spec.selfc (m ((c : Thread nD τ).loc main_arg1)) (m ((c : Thread nD τ).loc main_arg2)) j := by
  have e : (V m c main_v3 : S1x256.Idx → EReal)
      = Host.dotGeneral (F := Ideal) dot_S1x256_S256x256_S1x256_1_0_0_1_n_n none
          (extractStridedSlice S1x256 ![0, 0] (m ((c : Thread nD τ).loc main_arg1) : S200000x256.Idx → EReal) slices_S200000x256_S1x256_0_0 : FVec Ideal S1x256 .f32)
          (extractStridedSlice S256x256 ![0, 0] (m ((c : Thread nD τ).loc main_arg2) : S512x256.Idx → EReal) slices_S512x256_S256x256_0_0 : FVec Ideal S256x256 .f32) := by
    dsimp only [V, V0]
    simp only [hostOps0, List.flatten_cons, List.flatten_nil, List.append_nil]
    after_results
  refine (congrFun e _).trans ((dot_row _ _ j).trans ?_)
  unfold Cert.Spec.selfc
  refine Finset.sum_congr rfl fun i _ => ?_
  congr 1
  · exact slice2_axis0_apply 0 _ _ (⟨0, by decide⟩ : Fin 1) i (⟨0, by decide⟩ : Fin 200000) rfl
  · exact slice2_axis0_apply 0 _ _ i j (Cert.Spec.lo i) (Nat.zero_add _).symm

theorem V_b0 (j : Fin 256) : V m c main_v4 (ix2 (⟨0, by decide⟩ : Fin 1) j) = m ((c : Thread nD τ).loc main_arg3) (ix1 j) := by
  have e : (V m c main_v4 : S1x256.Idx → EReal)
      = shapeCast S1x256 (m ((c : Thread nD τ).loc main_arg3) : S256.Idx → EReal) shapeCasts_S256_S1x256 := by
    dsimp only [V, V0]
    simp only [hostOps0, List.flatten_cons, List.flatten_nil, List.append_nil]
    after_results
    rfl
  exact (congrFun e _).trans (shapeCast_a_1a_apply _ _ _ j)

theorem V_w1 (j : Fin 256) (k : Fin 128) : V m c main_v9 (ix2 j k) = m ((c : Thread nD τ).loc main_arg4) (ix2 j k) := by
  have e : (V m c main_v9 : S256x128.Idx → EReal)
      = (truncf .bf16 (m ((c : Thread nD τ).loc main_arg4) : FVec Ideal S256x128 .f32) bitsLt_bf16_f32 : FVec Ideal S256x128 .bf16) := by
    dsimp only [V, V0]
    simp only [hostOps0, List.flatten_cons, List.flatten_nil, List.append_nil]
    after_results
  exact congrFun e _

theorem V_b1 (k : Fin 128) : V m c main_v5 (ix2 (⟨0, by decide⟩ : Fin 1) k) = m ((c : Thread nD τ).loc main_arg5) (ix1 k) := by
  have e : (V m c main_v5 : S1x128.Idx → EReal)
      = shapeCast S1x128 (m ((c : Thread nD τ).loc main_arg5) : S128.Idx → EReal) shapeCasts_S128_S1x128 := by
    dsimp only [V, V0]
    simp only [hostOps0, List.flatten_cons, List.flatten_nil, List.append_nil]
    after_results
    rfl
  exact (congrFun e _).trans (shapeCast_a_1a_apply _ _ _ k)

theorem V_ws (k : Fin 128) : V m c main_v7 (ix2 (⟨0, by decide⟩ : Fin 1) k) = m ((c : Thread nD τ).loc main_arg6) (ix2 k (⟨0, by decide⟩ : Fin 1)) := by
  have e : (V m c main_v7 : S1x128.Idx → EReal)
      = truncf .bf16 (shapeCast S1x128 (m ((c : Thread nD τ).loc main_arg6) : S128x1.Idx → EReal) shapeCasts_S128x1_S1x128 : FVec Ideal S1x128 .f32) bitsLt_bf16_f32 := by
    dsimp only [V, V0]
    simp only [hostOps0, List.flatten_cons, List.flatten_nil, List.append_nil]
    after_results
    rfl
  refine (congrFun e _).trans (shapeCast_apply _ _ _ _ ?_)
  show (S128x1.rowMajor _).val = (S1x128.rowMajor _).val
  rw [Shape.rowMajor_val_two, Shape.rowMajor_val_two]
  show k.val * 1 + 0 = 0 * 128 + k.val
  omega

/-! ## The host lines after the region -/

set_option maxHeartbeats 1600000 in
/-- The host lines after the region, for ANY proof data of the pipeline whose arrays are the contents the region finds
    (`hA`): the tail function of the two result arrays after the last write-back, the two rows the prefix computed, and
    the argument arrays. -/
theorem tail_run (dats : (p : Fin 1) → (c : Dev nD) → Dat τ (Elt Ideal) Unit ℕ (UR sig nD τ) ℕ (cfgs p) c)
    (hA : ∀ c w, (dats 0 c).A w = V m c (Pipeline.arrRef spec0 w)) :
    Pipeline.afterTail₀ cfgs dats 0 (V0 m) [hostOps1, hostOps1_1, hostOps1_2] c main_v41
      = Cert.KernelIdeal.Tail.tail ((dats 0 c).arrAt 8 cfg0.N) ((dats 0 c).arrAt 9 cfg0.N) (V m c main_v3) (V m c main_v4)
          (m ((c : Thread nD τ).loc main_arg4)) (V m c main_v5) (m ((c : Thread nD τ).loc main_arg6)) (m ((c : Thread nD τ).loc main_arg0)) := by
  -- what the lines read and do not write: the two result arrays as the region left them; the three staged rows, inputs
  -- of the region and so never written back, and the argument arrays as the region found them
  have h8 : Pipeline.withArrays (cfgs 0).spec c (V0 m c) (fun w => (dats 0 c).arrAt w (cfgs 0).N) (Proc.devRef .tc main_v11_0)
      = (dats 0 c).arrAt 8 cfg0.N := Pipeline.withArrays_arr spec0 launch0.win.arr_inj c _ _ 8
  have h9 : Pipeline.withArrays (cfgs 0).spec c (V0 m c) (fun w => (dats 0 c).arrAt w (cfgs 0).N) (Proc.devRef .tc main_v11_1)
      = (dats 0 c).arrAt 9 cfg0.N := Pipeline.withArrays_arr spec0 launch0.win.arr_inj c _ _ 9
  have hv3 : Pipeline.withArrays (cfgs 0).spec c (V0 m c) (fun w => (dats 0 c).arrAt w (cfgs 0).N) (Proc.devRef .tc main_v3)
      = V m c main_v3 :=
    (Pipeline.withArrays_arr spec0 launch0.win.arr_inj c _ _ 3).trans (((dats 0 c).arrAt_in 3 rfl _).trans (hA c 3))
  have hv4 : Pipeline.withArrays (cfgs 0).spec c (V0 m c) (fun w => (dats 0 c).arrAt w (cfgs 0).N) (Proc.devRef .tc main_v4)
      = V m c main_v4 :=
    (Pipeline.withArrays_arr spec0 launch0.win.arr_inj c _ _ 4).trans (((dats 0 c).arrAt_in 4 rfl _).trans (hA c 4))
  have hv5 : Pipeline.withArrays (cfgs 0).spec c (V0 m c) (fun w => (dats 0 c).arrAt w (cfgs 0).N) (Proc.devRef .tc main_v5)
      = V m c main_v5 :=
    (Pipeline.withArrays_arr spec0 launch0.win.arr_inj c _ _ 6).trans (((dats 0 c).arrAt_in 6 rfl _).trans (hA c 6))
  have ha0 : Pipeline.withArrays (cfgs 0).spec c (V0 m c) (fun w => (dats 0 c).arrAt w (cfgs 0).N) (Proc.devRef .tc main_arg0)
      = m ((c : Thread nD τ).loc main_arg0) :=
    (Pipeline.withArrays_of_ne _ c (V0 m c) _ main_arg0 (by exact (by decide : ∀ w, Pipeline.arrRef spec0 w ≠ main_arg0))).trans
      (V_main_arg0 m c)
  have ha4 : Pipeline.withArrays (cfgs 0).spec c (V0 m c) (fun w => (dats 0 c).arrAt w (cfgs 0).N) (Proc.devRef .tc main_arg4)
      = m ((c : Thread nD τ).loc main_arg4) :=
    (Pipeline.withArrays_of_ne _ c (V0 m c) _ main_arg4 (by exact (by decide : ∀ w, Pipeline.arrRef spec0 w ≠ main_arg4))).trans
      (V_main_arg4 m c)
  have ha6 : Pipeline.withArrays (cfgs 0).spec c (V0 m c) (fun w => (dats 0 c).arrAt w (cfgs 0).N) (Proc.devRef .tc main_arg6)
      = m ((c : Thread nD τ).loc main_arg6) :=
    (Pipeline.withArrays_of_ne _ c (V0 m c) _ main_arg6 (by exact (by decide : ∀ w, Pipeline.arrRef spec0 w ≠ main_arg6))).trans
      (V_main_arg6 m c)
  unfold Pipeline.afterTail₀
  simp only [hostOps1, hostOps1_1, hostOps1_2, List.flatten_cons, List.flatten_nil, List.append_nil, List.cons_append, List.nil_append]
  -- the last line joins two arrays; each is read off the lines before it
  simp only [StableHlo.after_cons, StableHlo.after_nil]
  rw [StableHlo.binary_result]
  unfold Tail.tail Tail.exps Tail.topAll Tail.sentinelScore
  refine congrArg₂ (fun a b => concatenate S200001x1 0 [⟨S200000x1, a⟩, ⟨S1x1, b⟩] concatenates_S200000x1_S1x1_S200001x1_d0) ?_ ?_
  · after_results_simp
    simp only [StableHlo.TRef.ofBuf, StableHlo.TRef.toBuf, cast_eq]
    rw [h8, h9, hv3, hv4, hv5, ha0, ha4, ha6]
    rfl
  · after_results_simp
    rw [h8, h9, hv3, hv4, hv5, ha4, ha6]
    rfl

end Cert.KernelIdeal.HostSide

end
-- ==== Proof.TailValue.lean ====
/-
  The host lines after the kernel region compute the specification: given that the region's two result arrays hold
  every column's masked score and every tile's maximum, and that the three rows are the self contribution and the two
  biases, the tail's array is the specification's result, index by index, on the extended reals.

  The pieces, in the tail's order: the sentinel's score (two one-axis contractions read as sums over their one
  coordinate); the overall maximum, identified by its universal property (the least bound of minus infinity, every
  column's masked score and the sentinel's); each column's exponential; the total; and the two halves of the
  concatenated result.
-/
import proofs.«420732_j53626961657857_3_alg».proof.Proof.TailFn
import proofs.«420732_j53626961657857_3_alg».proof.Proof.Spec
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws
import Idealize.ShloMosaic.PureOps.Reduce

noncomputable section

open scoped BigOperators

namespace Cert.KernelIdeal.TailValue

open Cert.KernelIdeal Cert.KernelIdeal.Gen Cert.KernelIdeal.Tail Idealize.ShloMosaic Idealize.ShloMosaic.ValueIdx

/-! ## The two contractions of the sentinel's score, each a sum over its one contracted coordinate -/

theorem lhs_first_0 (i : S1x128.Idx) (q : dot_S1x256_S256x128_S1x128_1_0_0_1_n_n.contr.Idx) :
    (dot_S1x256_S256x128_S1x128_1_0_0_1_n_n.lhsIdx i q 0).val = (i 0).val := by
  unfold DotDims.lhsIdx
  rw [dif_neg (show ¬(0 : Fin S1x256.rank) ∈ dot_S1x256_S256x128_S1x128_1_0_0_1_n_n.lhsBatch by decide),
    dif_pos (show (0 : Fin S1x256.rank) ∈ dot_S1x256_S256x128_S1x128_1_0_0_1_n_n.lhsNonContracting by decide)]
  rfl
theorem lhs_first_1 (i : S1x128.Idx) (q : dot_S1x256_S256x128_S1x128_1_0_0_1_n_n.contr.Idx) :
    (dot_S1x256_S256x128_S1x128_1_0_0_1_n_n.lhsIdx i q 1).val = (q ⟨0, by decide⟩).val :=
  dot_S1x256_S256x128_S1x128_1_0_0_1_n_n.lhsIdx_val_of_single rfl i q
theorem rhs_first_0 (i : S1x128.Idx) (q : dot_S1x256_S256x128_S1x128_1_0_0_1_n_n.contr.Idx) :
    (dot_S1x256_S256x128_S1x128_1_0_0_1_n_n.rhsIdx i q 0).val = (q ⟨0, by decide⟩).val :=
  dot_S1x256_S256x128_S1x128_1_0_0_1_n_n.rhsIdx_val_of_single rfl i q
theorem rhs_first_1 (i : S1x128.Idx) (q : dot_S1x256_S256x128_S1x128_1_0_0_1_n_n.contr.Idx) :
    (dot_S1x256_S256x128_S1x128_1_0_0_1_n_n.rhsIdx i q 1).val = (i 1).val := by
  unfold DotDims.rhsIdx
  rw [dif_neg (show ¬(1 : Fin S256x128.rank) ∈ dot_S1x256_S256x128_S1x128_1_0_0_1_n_n.rhsBatch by decide),
    dif_pos (show (1 : Fin S256x128.rank) ∈ dot_S1x256_S256x128_S1x128_1_0_0_1_n_n.rhsNonContracting by decide)]
  rfl

/-- The row [1,256] times the weights [256,128], at column `k`: the sum over the 256 features. -/
theorem dot_first_apply (x : FVec Ideal S1x256 .f32) (w : FVec Ideal S256x128 .f32) (u : Fin 1) (k : Fin 128) :
    Host.dotGeneral (F := Ideal) dot_S1x256_S256x128_S1x128_1_0_0_1_n_n none x w (ix2 u k)
      = ∑ j : Fin 256, x (ix2 u j) * w (ix2 j k) := by
  simp only [Host.dotGeneral]
  rw [Ideal.dotGeneral_apply, ← Equiv.sum_comp (contrEquiv1 dot_S1x256_S256x128_S1x128_1_0_0_1_n_n 256 rfl rfl).symm]
  refine Finset.sum_congr rfl fun j _ => ?_
  have hk := contrEquiv1_symm_val dot_S1x256_S256x128_S1x128_1_0_0_1_n_n 256 rfl rfl j
  have el : dot_S1x256_S256x128_S1x128_1_0_0_1_n_n.lhsIdx (ix2 u k)
      ((contrEquiv1 dot_S1x256_S256x128_S1x128_1_0_0_1_n_n 256 rfl rfl).symm j) = ix2 u j := funext fun a => Fin.ext (by
    match a with
    | ⟨0, _⟩ => exact lhs_first_0 _ _
    | ⟨1, _⟩ => exact (lhs_first_1 _ _).trans hk)
  have er : dot_S1x256_S256x128_S1x128_1_0_0_1_n_n.rhsIdx (ix2 u k)
      ((contrEquiv1 dot_S1x256_S256x128_S1x128_1_0_0_1_n_n 256 rfl rfl).symm j) = ix2 j k := funext fun a => Fin.ext (by
    match a with
    | ⟨0, _⟩ => exact (rhs_first_0 _ _).trans hk
    | ⟨1, _⟩ => exact rhs_first_1 _ _)
  rw [el, er]

theorem lhs_second_0 (i : S1x1.Idx) (q : dot_S1x128_S128x1_S1x1_1_0_0_1_n_n.contr.Idx) :
    (dot_S1x128_S128x1_S1x1_1_0_0_1_n_n.lhsIdx i q 0).val = (i 0).val := by
  unfold DotDims.lhsIdx
  rw [dif_neg (show ¬(0 : Fin S1x128.rank) ∈ dot_S1x128_S128x1_S1x1_1_0_0_1_n_n.lhsBatch by decide),
    dif_pos (show (0 : Fin S1x128.rank) ∈ dot_S1x128_S128x1_S1x1_1_0_0_1_n_n.lhsNonContracting by decide)]
  rfl
theorem lhs_second_1 (i : S1x1.Idx) (q : dot_S1x128_S128x1_S1x1_1_0_0_1_n_n.contr.Idx) :
    (dot_S1x128_S128x1_S1x1_1_0_0_1_n_n.lhsIdx i q 1).val = (q ⟨0, by decide⟩).val :=
  dot_S1x128_S128x1_S1x1_1_0_0_1_n_n.lhsIdx_val_of_single rfl i q
theorem rhs_second_0 (i : S1x1.Idx) (q : dot_S1x128_S128x1_S1x1_1_0_0_1_n_n.contr.Idx) :
    (dot_S1x128_S128x1_S1x1_1_0_0_1_n_n.rhsIdx i q 0).val = (q ⟨0, by decide⟩).val :=
  dot_S1x128_S128x1_S1x1_1_0_0_1_n_n.rhsIdx_val_of_single rfl i q
theorem rhs_second_1 (i : S1x1.Idx) (q : dot_S1x128_S128x1_S1x1_1_0_0_1_n_n.contr.Idx) :
    (dot_S1x128_S128x1_S1x1_1_0_0_1_n_n.rhsIdx i q 1).val = (i 1).val := by
  unfold DotDims.rhsIdx
  rw [dif_neg (show ¬(1 : Fin S128x1.rank) ∈ dot_S1x128_S128x1_S1x1_1_0_0_1_n_n.rhsBatch by decide),
    dif_pos (show (1 : Fin S128x1.rank) ∈ dot_S1x128_S128x1_S1x1_1_0_0_1_n_n.rhsNonContracting by decide)]
  rfl

/-- The row [1,128] times the scoring column [128,1], at its one entry: the sum over the 128 hidden units. -/
theorem dot_second_apply (x : FVec Ideal S1x128 .f32) (w : FVec Ideal S128x1 .f32) (u v : Fin 1) :
    Host.dotGeneral (F := Ideal) dot_S1x128_S128x1_S1x1_1_0_0_1_n_n none x w (ix2 u v)
      = ∑ k : Fin 128, x (ix2 u k) * w (ix2 k v) := by
  simp only [Host.dotGeneral]
  rw [Ideal.dotGeneral_apply, ← Equiv.sum_comp (contrEquiv1 dot_S1x128_S128x1_S1x1_1_0_0_1_n_n 128 rfl rfl).symm]
  refine Finset.sum_congr rfl fun k _ => ?_
  have hk := contrEquiv1_symm_val dot_S1x128_S128x1_S1x1_1_0_0_1_n_n 128 rfl rfl k
  have el : dot_S1x128_S128x1_S1x1_1_0_0_1_n_n.lhsIdx (ix2 u v)
      ((contrEquiv1 dot_S1x128_S128x1_S1x1_1_0_0_1_n_n 128 rfl rfl).symm k) = ix2 u k := funext fun a => Fin.ext (by
    match a with
    | ⟨0, _⟩ => exact lhs_second_0 _ _
    | ⟨1, _⟩ => exact (lhs_second_1 _ _).trans hk)
  have er : dot_S1x128_S128x1_S1x1_1_0_0_1_n_n.rhsIdx (ix2 u v)
      ((contrEquiv1 dot_S1x128_S128x1_S1x1_1_0_0_1_n_n 128 rfl rfl).symm k) = ix2 k v := funext fun a => Fin.ext (by
    match a with
    | ⟨0, _⟩ => exact (rhs_second_0 _ _).trans hk
    | ⟨1, _⟩ => exact rhs_second_1 _ _)
  rw [el, er]

/-! ## The reshapes, each read at an index -/

/-- The one entry of a [1,1] array, reshaped to a scalar. -/
theorem cast_entry_scalar {α : Type} (x : S1x1.Idx → α) :
    shapeCast S_ x shapeCasts_S1x1_S_ ix0 = x (ix2 (⟨0, by decide⟩ : Fin 1) (⟨0, by decide⟩ : Fin 1)) :=
  shapeCast_apply x _ _ _ (by
    have h1 := (S1x1.rowMajor (ix2 (⟨0, by decide⟩ : Fin 1) (⟨0, by decide⟩ : Fin 1))).isLt
    have h2 := (S_.rowMajor ix0).isLt
    have e1 : S1x1.numel = 1 := by decide
    have e2 : S_.numel = 1 := by decide
    omega)

/-- A scalar reshaped to [1,1], at its one entry. -/
theorem cast_scalar_entry {α : Type} (x : S_.Idx → α) (a b : Fin 1) :
    shapeCast S1x1 x shapeCasts_S_S1x1 (ix2 a b) = x ix0 :=
  shapeCast_apply x _ _ _ (by
    have h1 := (S1x1.rowMajor (ix2 a b)).isLt
    have h2 := (S_.rowMajor ix0).isLt
    have e1 : S1x1.numel = 1 := by decide
    have e2 : S_.numel = 1 := by decide
    omega)

/-- The tile maxima [50,1,1] reshaped to [50], at tile `t`. -/
theorem cast_tiles {α : Type} (x : S50x1x1.Idx → α) (t : Fin 50) :
    shapeCast S50 x shapeCasts_S50x1x1_S50 (ix1 t) = x (ix3 t (⟨0, by decide⟩ : Fin 1) (⟨0, by decide⟩ : Fin 1)) :=
  shapeCast_apply x _ _ _ (by
    rw [Shape.rowMajor_val_three, Shape.rowMajor_val_one]
    show (t.val * 1 + 0) * 1 + 0 = t.val
    omega)

/-- The scores [50,1,4000] reshaped to [200000] are row-major: lane `p` of tile `t` is column `4000 t + p`. -/
theorem cast_scores {α : Type} (x : S50x1x4000.Idx → α) (t : Fin 50) (p : Fin 4000) :
    shapeCast S200000 x shapeCasts_S50x1x4000_S200000 (ix1 (Cert.Spec.col t p)) = x (ix3 t (⟨0, by decide⟩ : Fin 1) p) :=
  shapeCast_apply x _ _ _ (by
    rw [Shape.rowMajor_val_three, Shape.rowMajor_val_one]
    show (t.val * 1 + 0) * 4000 + p.val = 4000 * t.val + p.val
    omega)

/-- A vector [200000] reshaped to a column [200000,1], at row `r`. -/
theorem cast_column {α : Type} (x : S200000.Idx → α) (r : Fin 200000) (u : Fin 1) :
    shapeCast S200000x1 x shapeCasts_S200000_S200000x1 (ix2 r u) = x (ix1 r) :=
  shapeCast_apply x _ _ _ (by
    rw [Shape.rowMajor_val_two, Shape.rowMajor_val_one]
    show r.val = r.val * 1 + u.val
    omega)

/-- Every column is some lane of some tile. -/
theorem exists_col (r : Fin 200000) : ∃ (t : Fin 50) (p : Fin 4000), r = Cert.Spec.col t p :=
  ⟨⟨r.val / 4000, by have := r.isLt; omega⟩, ⟨r.val % 4000, by omega⟩, Fin.ext (by
    show r.val = 4000 * (r.val / 4000) + r.val % 4000
    omega)⟩

/-! ## The sentinel's score -/

/-- The tail's sentinel score is the specification's: the zero neighbour row contributes nothing to the first layer, so
    its input is the bias plus the self contribution, and the two contractions are the specification's two sums. -/
theorem sentinelScore_eq (X : FVec Ideal S200000x256 .f32) (W0 : FVec Ideal S512x256 .f32) (b0 : FVec Ideal S256 .f32)
    (W1 : FVec Ideal S256x128 .f32) (b1 : FVec Ideal S128 .f32) (ws : FVec Ideal S128x1 .f32)
    (v3 v4 : FVec Ideal S1x256 .f32) (v5 : FVec Ideal S1x128 .f32)
    (hv3 : ∀ j : Fin 256, v3 (ix2 (⟨0, by decide⟩ : Fin 1) j) = Cert.Spec.selfc X W0 j)
    (hv4 : ∀ j : Fin 256, v4 (ix2 (⟨0, by decide⟩ : Fin 1) j) = b0 (ix1 j))
    (hv5 : ∀ k : Fin 128, v5 (ix2 (⟨0, by decide⟩ : Fin 1) k) = b1 (ix1 k)) :
    sentinelScore v3 v4 W1 v5 ws ix0 = Cert.Spec.sentinel X W0 b0 W1 b1 ws := by
  unfold sentinelScore
  rw [cast_entry_scalar, dot_second_apply]
  unfold Cert.Spec.sentinel Cert.Spec.score Cert.Spec.mlp
  refine Finset.sum_congr rfl fun k _ => ?_
  rw [maximumf_apply, addf_apply, dot_first_apply, broadcastInDim_scalar_apply, constant_apply, Ideal.ofBits_zero_f32,
    hv5 k, mul_comm]
  have inner : (∑ j : Fin 256, maximumf (addf v3 v4)
        (broadcastInDim S1x256 ![] bcast_S_S1x256 (constant (F := Ideal) S_ .f32 0x00000000#32)) (ix2 (⟨0, by decide⟩ : Fin 1) j)
          * W1 (ix2 j k))
      = ∑ j : Fin 256, max ((∑ i : Fin 256, (0 : EReal) * W0 (ix2 (Cert.Spec.hi i) j)) + b0 (ix1 j) + Cert.Spec.selfc X W0 j) 0
          * W1 (ix2 j k) := by
    refine Finset.sum_congr rfl fun j _ => ?_
    rw [maximumf_apply, addf_apply, broadcastInDim_scalar_apply, constant_apply, Ideal.ofBits_zero_f32, hv3 j, hv4 j]
    simp only [zero_mul, Finset.sum_const_zero, zero_add]
    rw [add_comm]
  rw [inner]

/-! ## The overall maximum -/

/-- The tail's maximum by its bounds: it is below `c` exactly when minus infinity, each of the fifty tile maxima and
    the sentinel's score are. (The host's reduction over the one axis of [50] into a scalar is the fold of `max` over
    all fifty indices from its initial value.) -/
theorem topAll_le_iff (Mx : FVec Ideal S50x1x1 .f32) (s : FVec Ideal S_ .f32) (c : EReal) :
    topAll Mx s ix0 ≤ c
      ↔ (Cert.Spec.negInf ≤ c ∧ ∀ t : Fin 50, Mx (ix3 t (⟨0, by decide⟩ : Fin 1) (⟨0, by decide⟩ : Fin 1)) ≤ c) ∧ s ix0 ≤ c := by
  unfold topAll
  rw [maximumf_apply, max_le_iff, Host.reduce_eq_fold,
    Finset.filter_true_of_mem (fun i _ => funext fun b => b.elim0)]
  refine and_congr ?_ Iff.rfl
  show Finset.fold max Cert.Spec.negInf (shapeCast S50 Mx shapeCasts_S50x1x1_S50) Finset.univ ≤ c ↔ _
  rw [Finset.fold_max_le]
  refine and_congr Iff.rfl ⟨fun h t => ?_, fun h i _ => ?_⟩
  · have ht := h (ix1 t) (Finset.mem_univ _)
    rwa [cast_tiles] at ht
  · obtain ⟨t, rfl⟩ : ∃ t : Fin 50, i = ix1 t := ⟨i 0, eq_ix1 i⟩
    rw [cast_tiles]
    exact h t

/-- The tail's maximum is the specification's: it is the least bound of minus infinity, every column's masked score
    (each column is a lane of a tile, and a tile's entry is the maximum over its lanes) and the sentinel's score. -/
theorem topAll_eq (A : IVec S1x200000 32) (X : FVec Ideal S200000x256 .f32) (W0 : FVec Ideal S512x256 .f32)
    (b0 : FVec Ideal S256 .f32) (W1 : FVec Ideal S256x128 .f32) (b1 : FVec Ideal S128 .f32) (ws : FVec Ideal S128x1 .f32)
    (Mx : FVec Ideal S50x1x1 .f32) (s : FVec Ideal S_ .f32)
    (hM : ∀ t : Fin 50, Mx (ix3 t (⟨0, by decide⟩ : Fin 1) (⟨0, by decide⟩ : Fin 1))
        = (Finset.univ : Finset (Fin 4000)).fold max Cert.Spec.negInf
            (fun p => Cert.Spec.masked A X W0 b0 W1 b1 ws (Cert.Spec.col t p)))
    (hs : s ix0 = Cert.Spec.sentinel X W0 b0 W1 b1 ws) :
    topAll Mx s ix0 = Cert.Spec.top A X W0 b0 W1 b1 ws := by
  refine Cert.Spec.eq_top_of_le_iff A X W0 b0 W1 b1 ws _ fun c => ?_
  rw [topAll_le_iff, hs]
  constructor
  · rintro ⟨⟨h0, h1⟩, h2⟩
    refine ⟨h0, fun r => ?_, h2⟩
    obtain ⟨t, p, rfl⟩ := exists_col r
    have ht := h1 t
    rw [hM t, Finset.fold_max_le] at ht
    exact ht.2 p (Finset.mem_univ p)
  · rintro ⟨h0, h1, h2⟩
    refine ⟨⟨h0, fun t => ?_⟩, h2⟩
    rw [hM t, Finset.fold_max_le]
    exact ⟨h0, fun p _ => h1 _⟩

/-! ## The exponentials and their total -/

/-- A column's exponential: the score array's entry less the maximum, through the exponential. -/
theorem exps_apply (R : FVec Ideal S50x1x4000 .f32) (top : FVec Ideal S_ .f32) (t : Fin 50) (p : Fin 4000) :
    exps R top (ix1 (Cert.Spec.col t p)) = Ideal.exp (R (ix3 t (⟨0, by decide⟩ : Fin 1) p) - top ix0) := by
  unfold exps
  show FloatOps.hostUnary .exp (subf (shapeCast S200000 R shapeCasts_S50x1x4000_S200000)
    (broadcastInDim S200000 ![] bcast_S_S200000 top) (ix1 (Cert.Spec.col t p))) = _
  rw [Ideal.hostUnary_exp_def, subf_apply, cast_scores, broadcastInDim_scalar_apply]

/-- A rank-1 index set is its coordinate's range … -/
def idxEquiv1 {n : Nat} : (⟨1, ![n]⟩ : Shape).Idx ≃ Fin n where
  toFun i := i 0
  invFun r := ix1 r
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ r : Fin n, f (ix1 r) := by
  rw [← Equiv.sum_comp (idxEquiv1 (n := n)).symm f]
  rfl

/-- The tail's total is the specification's once the exponentials are: the host's sum into a scalar from zero is the sum
    over all 200000 columns, and the sentinel's exponential is added to it. -/
theorem total_eq (A : IVec S1x200000 32) (X : FVec Ideal S200000x256 .f32) (W0 : FVec Ideal S512x256 .f32)
    (b0 : FVec Ideal S256 .f32) (W1 : FVec Ideal S256x128 .f32) (b1 : FVec Ideal S128 .f32) (ws : FVec Ideal S128x1 .f32)
    (e : FVec Ideal S200000 .f32) (es : FVec Ideal S_ .f32)
    (he : ∀ r : Fin 200000, e (ix1 r) = Cert.Spec.ex A X W0 b0 W1 b1 ws r)
    (hes : es ix0 = Cert.Spec.exS A X W0 b0 W1 b1 ws) :
    addf (Host.reduceAdd (F := Ideal) e (constant (F := Ideal) S_ .f32 0x00000000#32) reducesTo_S200000_S_d0 h_S_) es ix0
      = Cert.Spec.total A X W0 b0 W1 b1 ws := by
  rw [addf_apply, hostReduceAdd_apply, Ideal.hostReduceAdd_total _ (fun b => b.elim0), constant_apply,
    Ideal.ofBits_zero_f32, zero_add, sum_idx1, hes]
  unfold Cert.Spec.total
  exact congrArg (· + Cert.Spec.exS A X W0 b0 W1 b1 ws) (Finset.sum_congr rfl fun r _ => he r)

/-! ## The result array, row by row -/

/-- A row below 200000 of the concatenation is that row of the first piece. -/
theorem concat_left {α : Type} (x₁ : S200000x1.Idx → α) (x₂ : S1x1.Idx → α) (r : Fin 200001) (u : Fin 1)
    (h : r.val < 200000) :
    concatenate S200001x1 0 [⟨S200000x1, x₁⟩, ⟨S1x1, x₂⟩] concatenates_S200000x1_S1x1_S200001x1_d0 (ix2 r u)
      = x₁ (ix2 (⟨r.val, h⟩ : Fin 200000) u) :=
  concatenate_pair_apply_left (t := S200001x1) 0 x₁ x₂ concatenates_S200000x1_S1x1_S200001x1_d0 (ix2 r u) rfl
    (ix2 (⟨r.val, h⟩ : Fin 200000) u) (fun b => by match b with | ⟨0, _⟩ => rfl | ⟨1, _⟩ => rfl)

/-- Row 200000 of the concatenation is the second piece's one row. -/
theorem concat_right {α : Type} (x₁ : S200000x1.Idx → α) (x₂ : S1x1.Idx → α) (r : Fin 200001) (u : Fin 1)
    (h : r.val = 200000) :
    concatenate S200001x1 0 [⟨S200000x1, x₁⟩, ⟨S1x1, x₂⟩] concatenates_S200000x1_S1x1_S200001x1_d0 (ix2 r u)
      = x₂ (ix2 (⟨0, by decide⟩ : Fin 1) u) :=
  concatenate_pair_apply_right (t := S200001x1) 0 x₁ x₂ concatenates_S200000x1_S1x1_S200001x1_d0 (ix2 r u) rfl rfl
    (ix2 (⟨0, by decide⟩ : Fin 1) u)
    (fun b hb => by match b, hb with | ⟨0, _⟩, hb => exact (hb (Fin.ext rfl)).elim | ⟨1, _⟩, _ => rfl)
    (by show 0 + 200000 = r.val; omega)

/-- The tail's keep-condition at column `r` is the specification's adjacency bit. -/
theorem on_apply (A : IVec S1x200000 32) (r : Fin 200000) :
    cmpi .ne (shapeCast S200000 A shapeCasts_S1x200000_S200000)
        (broadcastInDim S200000 ![] bcast_S_S200000 (constantI S_ 32 0#32)) (ix1 r) = Cert.Spec.bit A r := by
  show IntOp.cmpi .ne (shapeCast S200000 A shapeCasts_S1x200000_S200000 (ix1 r))
    (broadcastInDim S200000 ![] bcast_S_S200000 (constantI S_ 32 0#32) (ix1 r)) = _
  rw [shapeCast_1a_a_apply, broadcastInDim_scalar_apply]
  rfl

/-- The fill of a dropped column is zero. -/
theorem fill_apply (i : S200000.Idx) :
    broadcastInDim S200000 ![] bcast_S_S200000 (id (constant (F := Ideal) S_ .f32 0x00000000#32)) i = (0 : EReal) := by
  rw [broadcastInDim_scalar_apply]
  exact Ideal.ofBits_zero_f32

/-- The specification's result at a row below 200000 … -/
theorem result_lt (A : IVec S1x200000 32) (X : FVec Ideal S200000x256 .f32) (W0 : FVec Ideal S512x256 .f32)
    (b0 : FVec Ideal S256 .f32) (W1 : FVec Ideal S256x128 .f32) (b1 : FVec Ideal S128 .f32) (ws : FVec Ideal S128x1 .f32)
    (r : Fin 200001) (u : Fin 1) (h : r.val < 200000) :
    Cert.Spec.result A X W0 b0 W1 b1 ws (ix2 r u)
      = Scalar.select (Cert.Spec.bit A ⟨r.val, h⟩)
          (Ideal.div (Cert.Spec.ex A X W0 b0 W1 b1 ws ⟨r.val, h⟩) (Cert.Spec.total A X W0 b0 W1 b1 ws)) 0 :=
  dif_pos h
/-- … and at row 200000. -/
theorem result_last (A : IVec S1x200000 32) (X : FVec Ideal S200000x256 .f32) (W0 : FVec Ideal S512x256 .f32)
    (b0 : FVec Ideal S256 .f32) (W1 : FVec Ideal S256x128 .f32) (b1 : FVec Ideal S128 .f32) (ws : FVec Ideal S128x1 .f32)
    (r : Fin 200001) (u : Fin 1) (h : ¬r.val < 200000) :
    Cert.Spec.result A X W0 b0 W1 b1 ws (ix2 r u)
      = Ideal.div (Cert.Spec.exS A X W0 b0 W1 b1 ws) (Cert.Spec.total A X W0 b0 W1 b1 ws) :=
  dif_neg h

/-- If the masked-score array holds every column's masked score, the tile-maximum array every tile's maximum, and the three rows are the self contribution and the two biases, the tail's result is the specification's. -/
theorem tail_eq_result (A : IVec S1x200000 32) (X : FVec Ideal S200000x256 .f32) (W0 : FVec Ideal S512x256 .f32) (b0 : FVec Ideal S256 .f32)
    (W1 : FVec Ideal S256x128 .f32) (b1 : FVec Ideal S128 .f32) (ws : FVec Ideal S128x1 .f32)
    (R : FVec Ideal S50x1x4000 .f32) (Mx : FVec Ideal S50x1x1 .f32) (v3 v4 : FVec Ideal S1x256 .f32) (v5 : FVec Ideal S1x128 .f32)
    (hR : ∀ (t : Fin 50) (p : Fin 4000), R (ix3 t (⟨0, by decide⟩ : Fin 1) p) = Cert.Spec.masked A X W0 b0 W1 b1 ws (Cert.Spec.col t p))
    (hM : ∀ t : Fin 50, Mx (ix3 t (⟨0, by decide⟩ : Fin 1) (⟨0, by decide⟩ : Fin 1))
        = (Finset.univ : Finset (Fin 4000)).fold max Cert.Spec.negInf (fun p => Cert.Spec.masked A X W0 b0 W1 b1 ws (Cert.Spec.col t p)))
    (hv3 : ∀ j : Fin 256, v3 (ix2 (⟨0, by decide⟩ : Fin 1) j) = Cert.Spec.selfc X W0 j)
    (hv4 : ∀ j : Fin 256, v4 (ix2 (⟨0, by decide⟩ : Fin 1) j) = b0 (ix1 j))
    (hv5 : ∀ k : Fin 128, v5 (ix2 (⟨0, by decide⟩ : Fin 1) k) = b1 (ix1 k)) :
    tail R Mx v3 v4 W1 v5 ws A = Cert.Spec.result A X W0 b0 W1 b1 ws := by
  have hs := sentinelScore_eq X W0 b0 W1 b1 ws v3 v4 v5 hv3 hv4 hv5
  have htop := topAll_eq A X W0 b0 W1 b1 ws Mx _ hM hs
  have hex : ∀ r : Fin 200000, exps R (topAll Mx (sentinelScore v3 v4 W1 v5 ws)) (ix1 r)
      = Cert.Spec.ex A X W0 b0 W1 b1 ws r := by
    intro r
    obtain ⟨t, p, rfl⟩ := exists_col r
    rw [exps_apply, hR t p, htop]
    rfl
  have hes : Host.exp (F := Ideal) (subf (sentinelScore v3 v4 W1 v5 ws) (topAll Mx (sentinelScore v3 v4 W1 v5 ws))) ix0
      = Cert.Spec.exS A X W0 b0 W1 b1 ws := by
    show FloatOps.hostUnary .exp (subf (sentinelScore v3 v4 W1 v5 ws) (topAll Mx (sentinelScore v3 v4 W1 v5 ws)) ix0) = _
    rw [Ideal.hostUnary_exp_def, subf_apply, hs, htop]
    rfl
  have htot := total_eq A X W0 b0 W1 b1 ws _ _ hex hes
  funext j
  obtain ⟨r, u, rfl⟩ : ∃ (r : Fin 200001) (u : Fin 1), j = ix2 r u := ⟨j 0, j 1, eq_ix2 j⟩
  unfold tail
  dsimp only
  by_cases h : r.val < 200000
  · rw [result_lt A X W0 b0 W1 b1 ws r u h, concat_left _ _ r u h, cast_column, select_apply, on_apply, fill_apply,
      hostDivf_apply, broadcastInDim_scalar_apply, htot, hex]
  · rw [result_last A X W0 b0 W1 b1 ws r u h, concat_right _ _ r u (by have := r.isLt; omega), cast_scalar_entry,
      hostDivf_apply, htot, hes]

end Cert.KernelIdeal.TailValue

end
-- ==== Proof.KernelValue.lean ====
/-
  The kernel program's result, at the extended reals, is the specification of its arguments.

  Lane `p` of tile `t` holds column `4000·t + p`. The body's stored value there is the select, under that column's adjacency
  word, of the perceptron of the column's neighbour row — the feature row, or zeros for column 0, which is row 0 of the
  first tile's block after the body's own store — over the resident blocks, which are the lower half of `W0`, the first
  bias, the self contribution, `W1`, the second bias and the scoring weights as the host lines before the region
  laid them out. So the masked-score array holds every column's masked score and the tile-maximum array every tile's
  maximum, and the host lines after the region turn those into the softmax the specification names.
-/
import proofs.«420732_j53626961657857_3_alg».proof.Proof.Pieces
import proofs.«420732_j53626961657857_3_alg».proof.Proof.Blocks
import proofs.«420732_j53626961657857_3_alg».proof.Proof.BlockValue
import proofs.«420732_j53626961657857_3_alg».proof.Proof.HostSide
import proofs.«420732_j53626961657857_3_alg».proof.Proof.TailValue
import proofs.«420732_j53626961657857_3_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Value

open Cert.KernelIdeal Cert.KernelIdeal.Gen Cert.KernelIdeal.Body
open Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (ρ : Dev nD → PrngReg)

/-- The specification at this launch's argument arrays. -/
abbrev spec (c : Dev nD) : S200001x1.Idx → EReal := Cert.Spec.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- The row of zeros the first point stores, at any column: the real zero. -/
theorem zeroRow_apply (j : Fin 256) : k0_pay4 (F := Ideal) (ix2 (⟨0, by decide⟩ : Fin 1) j) = 0 := by
  unfold k0_pay4
  exact Ideal.ofBits_zero_f32

/-- The neighbour row the products read at lane `p` of point `t` is the specification's neighbour row of that column. -/
theorem feat_row (c : Dev nD) (t : Fin cfg0.N) (p : Fin 4000) :
    (fun i : Fin 256 => feat m c t (ix2 p i)) = Cert.Spec.nrow (m ((c : Thread nD τ).loc main_arg1)) (Cert.Spec.col (tile t) p) := by
  funext i
  rw [feat_apply m c t p i]
  unfold Cert.Spec.nrow
  have hcol : (Cert.Spec.col (tile t) p).val = 4000 * t.val + p.val := rfl
  by_cases h : t.val = 0 ∧ p.val = 0
  · rw [if_pos h, if_pos (by rw [hcol]; omega), zeroRow_apply]
  · rw [if_neg h, if_neg (by rw [hcol]; omega)]
    show iblk m c 0 t (ix2 p i) = _
    rw [iblk0_apply m c t p i, V_main_arg1 m c]

/-- The value the body stores at lane `p` of point `t`: that column's masked score. -/
theorem lane_eq (c : Dev nD) (t : Fin cfg0.N) (p : Fin 4000) :
    Scalar.select (Scalar.cmpi .ne (blk1 m c t (ix3 (⟨0, by decide⟩ : Fin 1) (⟨0, by decide⟩ : Fin 1) p)) 0#32)
        (k0_pay5 (F := Ideal) (feat m c t) (blk2 m c t) (blk4 m c t) (blk3 m c t) (blk5 m c t) (blk6 m c t) (blk7 m c t) (ix2 (⟨0, by decide⟩ : Fin 1) p))
        Cert.Spec.negBig
      = Cert.Spec.masked (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (Cert.Spec.col (tile t) p) := by
  rw [Cert.KernelIdeal.BlockValue.scores_apply (feat m c t) (blk2 m c t) (blk4 m c t) (blk3 m c t) (blk5 m c t) (blk6 m c t) (blk7 m c t) p, feat_row m c t p]
  unfold Cert.Spec.masked Cert.Spec.bit Cert.Spec.score
  have e1 : blk1 m c t (ix3 (⟨0, by decide⟩ : Fin 1) (⟨0, by decide⟩ : Fin 1) p) = (m ((c : Thread nD τ).loc main_arg0)) (ix2 (⟨0, by decide⟩ : Fin 1) (Cert.Spec.col (tile t) p)) := by
    show iblk m c 1 t _ = _
    rw [iblk1_apply m c t p, Cert.KernelIdeal.HostSide.V_adj m c (tile t) p]
  have e2 : (fun i j : Fin 256 => blk2 m c t (ix2 i j)) = fun i j => (m ((c : Thread nD τ).loc main_arg2)) (ix2 (Cert.Spec.hi i) j) := by
    funext i j; show iblk m c 2 t _ = _; rw [iblk2_eq m c t, Cert.KernelIdeal.HostSide.V_w0n m c i j]
  have e4 : (fun j : Fin 256 => blk4 m c t (ix2 (⟨0, by decide⟩ : Fin 1) j)) = fun j => (m ((c : Thread nD τ).loc main_arg3)) (ix1 j) := by
    funext j; show iblk m c 4 t _ = _; rw [iblk4_eq m c t, Cert.KernelIdeal.HostSide.V_b0 m c j]
  have e3 : (fun j : Fin 256 => blk3 m c t (ix2 (⟨0, by decide⟩ : Fin 1) j)) = Cert.Spec.selfc (m ((c : Thread nD τ).loc main_arg1)) (m ((c : Thread nD τ).loc main_arg2)) := by
    funext j; show iblk m c 3 t _ = _; rw [iblk3_eq m c t, Cert.KernelIdeal.HostSide.V_selfc m c j]
  have e5 : (fun (j : Fin 256) (k : Fin 128) => blk5 m c t (ix2 j k)) = fun j k => (m ((c : Thread nD τ).loc main_arg4)) (ix2 j k) := by
    funext j k; show iblk m c 5 t _ = _; rw [iblk5_eq m c t, Cert.KernelIdeal.HostSide.V_w1 m c j k]
  have e6 : (fun k : Fin 128 => blk6 m c t (ix2 (⟨0, by decide⟩ : Fin 1) k)) = fun k => (m ((c : Thread nD τ).loc main_arg5)) (ix1 k) := by
    funext k; show iblk m c 6 t _ = _; rw [iblk6_eq m c t, Cert.KernelIdeal.HostSide.V_b1 m c k]
  have e7 : (fun k : Fin 128 => blk7 m c t (ix2 (⟨0, by decide⟩ : Fin 1) k)) = fun k => (m ((c : Thread nD τ).loc main_arg6)) (ix2 k (⟨0, by decide⟩ : Fin 1)) := by
    funext k; show iblk m c 7 t _ = _; rw [iblk7_eq m c t, Cert.KernelIdeal.HostSide.V_ws m c k]
  rw [e1, e2, e4, e3, e5, e6, e7]

/-- A tile number as a grid point. -/
def pointOf (t : Fin 50) : Fin cfg0.N := ⟨t.val, lt_of_lt_of_eq t.isLt N_0.symm⟩
theorem tile_pointOf (t : Fin 50) : tile (pointOf t) = t := Fin.ext rfl

/-- The masked-score array after the run: every column's masked score. -/
theorem scores_array (c : Dev nD) (t : Fin 50) (p : Fin 4000) :
    (dats m 0 c).arrAt 8 cfg0.N (ix3 t (⟨0, by decide⟩ : Fin 1) p) = Cert.Spec.masked (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (Cert.Spec.col t p) := by
  have h := arr8_apply m c (pointOf t) p
  rw [tile_pointOf] at h
  rw [h, left8_eq m c (pointOf t), Cert.KernelIdeal.BlockValue.masked_apply]
  have := lane_eq m c (pointOf t) p
  rw [tile_pointOf] at this
  exact this

/-- The tile-maximum array after the run: every tile's maximum of its columns' masked scores, from `-∞`. -/
theorem maxima_array (c : Dev nD) (t : Fin 50) :
    (dats m 0 c).arrAt 9 cfg0.N (ix3 t (⟨0, by decide⟩ : Fin 1) (⟨0, by decide⟩ : Fin 1))
      = (Finset.univ : Finset (Fin 4000)).fold max Cert.Spec.negInf (fun p => Cert.Spec.masked (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (Cert.Spec.col t p)) := by
  have h := arr9_apply m c (pointOf t)
  rw [tile_pointOf] at h
  rw [h, left9_eq m c (pointOf t), Cert.KernelIdeal.BlockValue.tilemax_apply]
  refine congrArg (fun f : Fin 4000 → EReal => (Finset.univ : Finset (Fin 4000)).fold max Cert.Spec.negInf f) (funext fun p => ?_)
  have := lane_eq m c (pointOf t) p
  rw [tile_pointOf] at this
  exact this

/-- What the host lines after the region leave in the result buffer: the specification. -/
theorem result_eq (c : Dev nD) :
    Pipeline.afterTail₀ cfgs (dats m) 0 (V0 m) [hostOps1, hostOps1_1, hostOps1_2] c main_v41 = spec m c := by
  rw [Cert.KernelIdeal.HostSide.tail_run m c (dats m) (A_eq m)]
  exact Cert.KernelIdeal.TailValue.tail_eq_result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) _ _ _ _ _
    (scores_array m c) (maxima_array m c) (Cert.KernelIdeal.HostSide.V_selfc m c) (Cert.KernelIdeal.HostSide.V_b0 m c) (Cert.KernelIdeal.HostSide.V_b1 m c)

/-- The kernel program's run at the extended reals: it ends, the result buffer holds the specification of the argument
    arrays, and the argument arrays are as launched. -/
theorem run : θ_run defs (onTc (τ := τ) (main (F := Ideal))) ⟨m, fun _ => 0, ρ⟩ (fun r => ∀ c : Dev nD,
      r.2.mem ((c.tc : Thread nD τ).loc main_v41) = spec m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_v41 (Pipeline.mem_restRefs_of main_v41 (by decide) (by decide))).trans (result_eq m c),
      (((h c).2 main_arg0 (Pipeline.mem_restRefs_of main_arg0 (by decide) (by decide))).trans (W_main_arg0 m (dats m) c)),
      ((h c).1 0).trans (((dats m 0 c).arrAt_in 0 rfl _).trans ((A_eq m c 0).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c))⟩)
    (run_main (F := Ideal) m ρ)

end Cert.KernelIdeal.Value

end
-- ==== Proof.RefScores.lean ====
/-
  The reference's three dense layers, read at one row, on the extended reals.

  Row `r` of the first layer's input is feature row 0 (columns 0 … 255) followed by the neighbour row (columns 256 … 511):
  row `r` of the feature array with its row 0 overwritten by zeros, and a row of zeros appended as row 200000. The sum over
  the 512 columns splits into the two halves; the half over feature row 0 is the self contribution, the same for every
  row, and moving it behind the bias gives the arrangement of the specification. The two later layers are read off
  term by term; the last product is commuted.
-/
import proofs.«420732_j53626961657857_3_alg».proof.Proof.RefRead
import proofs.«420732_j53626961657857_3_alg».proof.Proof.Spec
import Idealize.ShloMosaic.Lib.ValueIdx
import Idealize.ShloMosaic.Lib.Pipeline.Value
import Idealize.ShloMosaic.PureOps.Ideal
import Idealize.ShloMosaic.PureOps.Ideal.Laws
import Mathlib.Algebra.BigOperators.Fin

noncomputable section

open scoped BigOperators

namespace Cert.RefScores

open Cert.ReferenceIdeal Cert.ReferenceIdeal.Gen Cert.ReferenceIdeal.ReadP Idealize.ShloMosaic Idealize.ShloMosaic.ValueIdx

/-! ## The overwritten row -/

/-- A left fold of pointwise overwrites, all by one constant `z`: an index holds `z` exactly when some step names it. -/
theorem foldl_overwrite_const {ι κ α : Type} {dec : DecidableEq ι} (p : κ → ι) (z : α) (l : List κ) (r : ι → α) (i : ι) :
    (l.foldl (fun r n => fun i' => if i' = p n then z else r i') r) i = if ∃ n ∈ l, p n = i then z else r i := by
  induction l generalizing r with
  | nil => simp
  | cons n l ih =>
    rw [List.foldl_cons, ih]
    by_cases h : ∃ m ∈ l, p m = i
    · obtain ⟨m, hm, e⟩ := h
      rw [if_pos ⟨m, hm, e⟩, if_pos ⟨m, List.mem_cons_of_mem _ hm, e⟩]
    · rw [if_neg h]
      by_cases h2 : i = p n
      · rw [if_pos h2, if_pos ⟨n, List.mem_cons_self, h2.symm⟩]
      · rw [if_neg h2, if_neg]
        rintro ⟨m, hm, e⟩
        rcases List.mem_cons.1 hm with rfl | hm
        · exact h2 e.symm
        · exact h ⟨m, hm, e⟩

/-- The scatter's one start index is the literal 0, on every operand axis. -/
theorem start_eq (j : S256.Idx) (a : Fin S200000x256.rank) :
    scatter_S200000x256_S1_S256_0_0_0_0.start j (val_main_v5 (F := Ideal)) a = 0 := by
  unfold ScatterDims.start
  split
  · rw [val_main_v5_apply, val_main_c_1_apply]; rfl
  · rfl

/-- The window coordinate on the row axis (the inserted one) is 0. -/
theorem window_zero (j : S256.Idx) :
    scatter_S200000x256_S1_S256_0_0_0_0.window j (0 : Fin 2) = 0 := by
  unfold ScatterDims.window
  rw [dif_neg (by decide)]

/-- The window coordinate on the column axis is the update's own coordinate. -/
theorem window_one (j : S256.Idx) :
    scatter_S200000x256_S1_S256_0_0_0_0.window j (1 : Fin 2) = (j 0).val := by
  unfold ScatterDims.window
  rw [dif_pos (by decide)]
  rfl

/-- Update element `j` lands at row 0, column `j`. -/
theorem resultIdx_eq (j : S256.Idx) :
    scatter_S200000x256_S1_S256_0_0_0_0.resultIdx? j (val_main_v5 (F := Ideal)) = some (ix2 (⟨0, by decide⟩ : Fin 200000) (j 0 : Fin 256)) := by
  unfold ScatterDims.resultIdx?
  have hj : (j 0).val < 256 := (j 0).isLt
  have h : ∀ a : Fin S200000x256.rank,
      0 ≤ scatter_S200000x256_S1_S256_0_0_0_0.start j (val_main_v5 (F := Ideal)) a + (scatter_S200000x256_S1_S256_0_0_0_0.window j a : Int) ∧
      scatter_S200000x256_S1_S256_0_0_0_0.start j (val_main_v5 (F := Ideal)) a + (scatter_S200000x256_S1_S256_0_0_0_0.window j a : Int) < S200000x256.size a := by
    intro a
    rw [start_eq]
    match a with
    | ⟨0, _⟩ => rw [show (⟨0, _⟩ : Fin S200000x256.rank) = (0 : Fin 2) from rfl, window_zero]; decide
    | ⟨1, _⟩ =>
      rw [show (⟨1, _⟩ : Fin S200000x256.rank) = (1 : Fin 2) from rfl, window_one]
      show (0 : Int) ≤ 0 + ((j 0).val : Int) ∧ 0 + ((j 0).val : Int) < (256 : Nat)
      omega
  rw [dif_pos h]
  refine congrArg some (funext fun a => Fin.ext ?_)
  match a with
  | ⟨0, _⟩ =>
    show (scatter_S200000x256_S1_S256_0_0_0_0.start j (val_main_v5 (F := Ideal)) (0 : Fin 2) + (scatter_S200000x256_S1_S256_0_0_0_0.window j (0 : Fin 2) : Int)).toNat = 0
    rw [start_eq, window_zero]; rfl
  | ⟨1, _⟩ =>
    show (scatter_S200000x256_S1_S256_0_0_0_0.start j (val_main_v5 (F := Ideal)) (1 : Fin 2) + (scatter_S200000x256_S1_S256_0_0_0_0.window j (1 : Fin 2) : Int)).toNat = (j 0).val
    rw [start_eq, window_one]; omega

/-- The feature array with row 0 overwritten by zeros. -/
theorem v7_apply (X : (⟨S200000x256, .f32⟩ : BufTy).Contents (Elt Ideal)) (r : Fin 200000) (i : Fin 256) :
    val_main_v7 (F := Ideal) X (ix2 r i) = if r.val = 0 then 0 else X (ix2 r i) := by
  unfold val_main_v7 Host.scatter
  simp only [resultIdx_eq, val_main_v6_apply, val_main_cst_apply, Ideal.ofBits_def, Ideal.ofBits_zero_f32]
  refine (foldl_overwrite_const
    (fun n : Fin S256.numel => ix2 (⟨0, by decide⟩ : Fin 200000) (S256.rowMajor.symm n 0 : Fin 256)) (0 : EReal) _ _ _).trans ?_
  by_cases hr : r.val = 0
  · rw [if_pos hr, if_pos]
    refine ⟨S256.rowMajor (ix1 i), List.mem_finRange _, ?_⟩
    beta_reduce
    rw [Equiv.symm_apply_apply]
    funext a
    match a with
    | ⟨0, _⟩ => exact Fin.ext hr.symm
    | ⟨1, _⟩ => rfl
  · rw [if_neg hr, if_neg]
    rintro ⟨n, _, e⟩
    exact hr (congrArg Fin.val (congrFun e 0)).symm

/-! ## The first layer's input -/

/-- A sum over 512 indices, as the two halves of 256. -/
theorem sum_split (f : Fin 512 → EReal) :
    ∑ k : Fin 512, f k = ∑ i : Fin 256, f (Cert.Spec.lo i) + ∑ i : Fin 256, f (Cert.Spec.hi i) :=
  Fin.sum_univ_add (a := 256) (b := 256) f

/-- The neighbour array: the zeroed-row-0 feature array, and one more row of zeros. -/
theorem v9_apply (X : (⟨S200000x256, .f32⟩ : BufTy).Contents (Elt Ideal)) (r : Fin 200001) (i : Fin 256) :
    val_main_v9 (F := Ideal) X (ix2 r i) = if h : r.val < 200000 then Cert.Spec.nrow X ⟨r.val, h⟩ i else 0 := by
  unfold val_main_v9
  by_cases h : r.val < 200000
  · rw [dif_pos h]
    rw [concatenate_pair_apply_left (t := S200001x256) (s₁ := S200000x256) (s₂ := S1x256) (0 : Fin 2) _ _ concatenates_S200000x256_S1x256_S200001x256_d0 (ix2 r i) rfl
      (ix2 (⟨r.val, h⟩ : Fin 200000) i) (fun b => by match b with | ⟨0, _⟩ => rfl | ⟨1, _⟩ => rfl)]
    rw [v7_apply]; rfl
  · rw [dif_neg h]
    rw [concatenate_pair_apply_right (t := S200001x256) (s₁ := S200000x256) (s₂ := S1x256) (0 : Fin 2) _ _ concatenates_S200000x256_S1x256_S200001x256_d0 (ix2 r i) rfl rfl
      (ix2 (⟨0, by decide⟩ : Fin 1) i)
      (fun b hb => by match b with | ⟨0, _⟩ => exact absurd rfl hb | ⟨1, _⟩ => rfl)
      (by have := r.isLt; show 0 + 200000 = r.val; omega)]
    rw [val_main_v8_apply, val_main_cst_2_apply, Ideal.ofBits_def, Ideal.ofBits_zero_f32]

/-- The broadcast of feature row 0. -/
theorem v12_apply (X : (⟨S200000x256, .f32⟩ : BufTy).Contents (Elt Ideal)) (r : Fin 200001) (i : Fin 256) :
    val_main_v12 (F := Ideal) X (ix2 r i) = X (ix2 (⟨0, by decide⟩ : Fin 200000) i) := by
  rw [val_main_v12_apply, val_main_v11_apply, val_main_v10_apply]
  refine congrArg X (funext fun a => Fin.ext ?_)
  match a with
  | ⟨0, _⟩ => rfl
  | ⟨1, _⟩ => exact Nat.mod_eq_of_lt i.isLt

/-- Row `r` of the first layer's input: feature row 0 in the first 256 columns. -/
theorem v13_lo (X : (⟨S200000x256, .f32⟩ : BufTy).Contents (Elt Ideal)) (r : Fin 200001) (i : Fin 256) :
    val_main_v13 (F := Ideal) X (ix2 r (Cert.Spec.lo i)) = X (ix2 (⟨0, by decide⟩ : Fin 200000) i) := by
  unfold val_main_v13
  rw [concatenate_pair_apply_left (t := S200001x512) (s₁ := S200001x256) (s₂ := S200001x256) (1 : Fin 2) _ _ concatenates_S200001x256_S200001x256_S200001x512_d1 (ix2 r (Cert.Spec.lo i)) rfl
    (ix2 r i) (fun b => by match b with | ⟨0, _⟩ => rfl | ⟨1, _⟩ => rfl)]
  exact v12_apply X r i

/-- Row `r` of the first layer's input: the neighbour row in the last 256 columns. -/
theorem v13_hi (X : (⟨S200000x256, .f32⟩ : BufTy).Contents (Elt Ideal)) (r : Fin 200001) (i : Fin 256) :
    val_main_v13 (F := Ideal) X (ix2 r (Cert.Spec.hi i)) = val_main_v9 (F := Ideal) X (ix2 r i) := by
  unfold val_main_v13
  rw [concatenate_pair_apply_right (t := S200001x512) (s₁ := S200001x256) (s₂ := S200001x256) (1 : Fin 2) _ _ concatenates_S200001x256_S200001x256_S200001x512_d1 (ix2 r (Cert.Spec.hi i)) rfl rfl
    (ix2 r i)
    (fun b hb => by match b with | ⟨0, _⟩ => rfl | ⟨1, _⟩ => exact absurd rfl hb)
    (by show i.val + 256 = 256 + i.val; omega)]

/-! ## The layers -/

/-- The first dense layer with its relu at (r, j): the neighbour half of the product, the bias, then the self half. -/
theorem v18_apply (X : (⟨S200000x256, .f32⟩ : BufTy).Contents (Elt Ideal)) (W0 : (⟨S512x256, .f32⟩ : BufTy).Contents (Elt Ideal))
    (b0 : (⟨S256, .f32⟩ : BufTy).Contents (Elt Ideal)) (r : Fin 200001) (j : Fin 256) :
    val_main_v18 (F := Ideal) X W0 b0 (ix2 r j)
      = max ((∑ i : Fin 256, val_main_v9 (F := Ideal) X (ix2 r i) * W0 (ix2 (Cert.Spec.hi i) j)) + b0 (ix1 j)
          + Cert.Spec.selfc X W0 j) 0 := by
  have el : ∀ k : Fin 512, lidx_main_v14 (ix2 r j) k = ix2 r k := fun k => funext fun a => by
    match a with | ⟨0, _⟩ => rfl | ⟨1, _⟩ => rfl
  have er : ∀ k : Fin 512, ridx_main_v14 (ix2 r j) k = ix2 k j := fun k => funext fun a => by
    match a with | ⟨0, _⟩ => rfl | ⟨1, _⟩ => rfl
  have eb : idx_main_v15 (idx_main_v16 (ix2 r j)) = ix1 j := funext fun a => by
    match a with | ⟨0, _⟩ => rfl
  rw [val_main_v18_apply, val_main_v17_apply, val_main_v14_apply, val_main_v16_apply, val_main_v15_apply,
    val_main_call0_v0_apply, val_main_call0_cst_apply, Ideal.maximumf_def, Ideal.addf_def, Ideal.ofBits_def,
    Ideal.ofBits_zero_f32, eb, sum_split]
  simp only [el, er, v13_lo, v13_hi]
  unfold Cert.Spec.selfc
  rw [add_comm (∑ i : Fin 256, X (ix2 (⟨0, by decide⟩ : Fin 200000) i) * W0 (ix2 (Cert.Spec.lo i) j)), add_right_comm]

/-- The second dense layer with its relu at (r, k). -/
theorem v23_apply (X : (⟨S200000x256, .f32⟩ : BufTy).Contents (Elt Ideal)) (W0 : (⟨S512x256, .f32⟩ : BufTy).Contents (Elt Ideal))
    (b0 : (⟨S256, .f32⟩ : BufTy).Contents (Elt Ideal)) (W1 : (⟨S256x128, .f32⟩ : BufTy).Contents (Elt Ideal))
    (b1 : (⟨S128, .f32⟩ : BufTy).Contents (Elt Ideal)) (r : Fin 200001) (k : Fin 128) :
    val_main_v23 (F := Ideal) X W0 b0 W1 b1 (ix2 r k)
      = max ((∑ j : Fin 256, val_main_v18 (F := Ideal) X W0 b0 (ix2 r j) * W1 (ix2 j k)) + b1 (ix1 k)) 0 := by
  have el : ∀ j : Fin 256, lidx_main_v19 (ix2 r k) j = ix2 r j := fun j => funext fun a => by
    match a with | ⟨0, _⟩ => rfl | ⟨1, _⟩ => rfl
  have er : ∀ j : Fin 256, ridx_main_v19 (ix2 r k) j = ix2 j k := fun j => funext fun a => by
    match a with | ⟨0, _⟩ => rfl | ⟨1, _⟩ => rfl
  have eb : idx_main_v20 (idx_main_v21 (ix2 r k)) = ix1 k := funext fun a => by
    match a with | ⟨0, _⟩ => rfl
  rw [val_main_v23_apply, val_main_v22_apply, val_main_v19_apply, val_main_v21_apply, val_main_v20_apply,
    val_main_call1_v0_apply, val_main_call1_cst_apply, Ideal.maximumf_def, Ideal.addf_def, Ideal.ofBits_def,
    Ideal.ofBits_zero_f32, eb]
  simp only [el, er]

/-- The score column at row r, over the second layer's row. -/
theorem v24_apply (X : (⟨S200000x256, .f32⟩ : BufTy).Contents (Elt Ideal)) (W0 : (⟨S512x256, .f32⟩ : BufTy).Contents (Elt Ideal))
    (b0 : (⟨S256, .f32⟩ : BufTy).Contents (Elt Ideal)) (W1 : (⟨S256x128, .f32⟩ : BufTy).Contents (Elt Ideal))
    (b1 : (⟨S128, .f32⟩ : BufTy).Contents (Elt Ideal)) (ws : (⟨S128x1, .f32⟩ : BufTy).Contents (Elt Ideal)) (r : Fin 200001) :
    val_main_v24 (F := Ideal) X W0 b0 W1 b1 ws (ix2 r (⟨0, by decide⟩ : Fin 1))
      = ∑ k : Fin 128, ws (ix2 k (⟨0, by decide⟩ : Fin 1)) * val_main_v23 (F := Ideal) X W0 b0 W1 b1 (ix2 r k) := by
  have el : ∀ k : Fin 128, lidx_main_v24 (ix2 r (⟨0, by decide⟩ : Fin 1)) k = ix2 r k := fun k => funext fun a => by
    match a with | ⟨0, _⟩ => rfl | ⟨1, _⟩ => rfl
  have er : ∀ k : Fin 128, ridx_main_v24 (ix2 r (⟨0, by decide⟩ : Fin 1)) k = ix2 k (⟨0, by decide⟩ : Fin 1) := fun k => funext fun a => by
    match a with | ⟨0, _⟩ => rfl | ⟨1, _⟩ => rfl
  rw [val_main_v24_apply]
  simp only [el, er]
  exact Finset.sum_congr rfl fun k _ => mul_comm _ _

/-- The reference's score column at row r: the perceptron of node r's neighbour row for r < 200000 (the zero row for node 0), and of the zero row for the appended row 200000. -/
theorem scores_apply (X : (⟨S200000x256, .f32⟩ : BufTy).Contents (Elt Ideal)) (W0 : (⟨S512x256, .f32⟩ : BufTy).Contents (Elt Ideal)) (b0 : (⟨S256, .f32⟩ : BufTy).Contents (Elt Ideal)) (W1 : (⟨S256x128, .f32⟩ : BufTy).Contents (Elt Ideal)) (b1 : (⟨S128, .f32⟩ : BufTy).Contents (Elt Ideal)) (ws : (⟨S128x1, .f32⟩ : BufTy).Contents (Elt Ideal)) (r : Fin 200001) :
    Cert.ReferenceIdeal.ReadP.val_main_v24 (F := Ideal) X W0 b0 W1 b1 ws (ix2 r (⟨0, by decide⟩ : Fin 1))
      = if h : r.val < 200000 then Cert.Spec.score X W0 b0 W1 b1 ws (Cert.Spec.nrow X ⟨r.val, h⟩) else Cert.Spec.sentinel X W0 b0 W1 b1 ws := by
  rw [v24_apply]
  simp only [v23_apply, v18_apply, v9_apply]
  by_cases h : r.val < 200000
  · simp only [dif_pos h]
    rfl
  · simp only [dif_neg h]
    rfl

end Cert.RefScores

end
-- ==== Proof.RefSoftmax.lean ====
/-
  The reference's masked softmax over its column of scores, read at the extended reals.

  Given the score of every one of the 200001 rows (the 200000 nodes and the sentinel), the reference
    * replaces the score of a node whose adjacency word is zero by the fill (the sentinel keeps its own),
    * takes the maximum of the 200001 masked scores (one fold from minus infinity, joined once more with minus infinity),
    * exponentiates every masked score with the maximum subtracted, sums the 200001 exponentials from zero,
    * divides every exponential by that sum, and puts zero where the adjacency word is zero.
  Each stage is read at an index from the stage before it; the maximum is identified by its universal property and the
  sum by splitting off its last term. The result is the specification's, index by index.
-/
import proofs.«420732_j53626961657857_3_alg».proof.Proof.RefRead
import proofs.«420732_j53626961657857_3_alg».proof.Proof.Spec
import Idealize.ShloMosaic.Lib.Pipeline.Value
import Idealize.ShloMosaic.Lib.ValueIdx
import Idealize.ShloMosaic.PureOps.Reduce
import Idealize.ShloMosaic.PureOps.Ideal.Laws
import Mathlib.Data.Finset.Fold
import Mathlib.Algebra.BigOperators.Fin

namespace Cert.RefSoftmax

open Cert.ReferenceIdeal Cert.ReferenceIdeal.Gen Cert.ReferenceIdeal.ReadP Idealize.ShloMosaic Idealize.ShloMosaic.ValueIdx

noncomputable section

open scoped BigOperators

section
variable (A : (⟨S1x200000, .i32⟩ : BufTy).Contents (Elt Ideal)) (X : (⟨S200000x256, .f32⟩ : BufTy).Contents (Elt Ideal))
  (W0 : (⟨S512x256, .f32⟩ : BufTy).Contents (Elt Ideal)) (b0 : (⟨S256, .f32⟩ : BufTy).Contents (Elt Ideal))
  (W1 : (⟨S256x128, .f32⟩ : BufTy).Contents (Elt Ideal)) (b1 : (⟨S128, .f32⟩ : BufTy).Contents (Elt Ideal))
  (ws : (⟨S128x1, .f32⟩ : BufTy).Contents (Elt Ideal))

/-! ## The mask -/

/-- Below the last row the mask is the adjacency bit. -/
theorem mask_lt (r : Fin 200001) (h : r.val < 200000) :
    val_main_v4 (F := Ideal) A (ix1 r) = Cert.Spec.bit A ⟨r.val, h⟩ := by
  unfold val_main_v4
  rw [concatenate_pair_apply_left _ _ _ concatenates_S200000_S1_S200001_d0 (ix1 r) rfl (ix1 (⟨r.val, h⟩ : Fin 200000))
    (fun b => by match b with | ⟨0, _⟩ => rfl)]
  rw [val_main_v2_apply, val_main_v0_apply, val_main_v1_apply, val_main_c_apply]
  unfold Cert.Spec.bit Scalar.cmpi
  refine congrArg (fun z => IntOp.cmpi .ne (A z) 0#32) (funext fun a => Fin.ext ?_)
  match a with
  | ⟨0, _⟩ => rfl
  | ⟨1, _⟩ => show r.val % 200000 = r.val; omega

/-- At the last row the mask is set. -/
theorem mask_last (r : Fin 200001) (h : ¬ r.val < 200000) :
    val_main_v4 (F := Ideal) A (ix1 r) = 1#1 := by
  unfold val_main_v4
  rw [concatenate_pair_apply_right _ _ _ concatenates_S200000_S1_S200001_d0 (ix1 r) rfl rfl (ix1 (⟨0, by decide⟩ : Fin 1))
    (fun b hb => by match b with | ⟨0, _⟩ => exact absurd rfl hb)
    (by show 0 + 200000 = r.val; have := r.isLt; omega)]
  rw [val_main_v3_apply, val_main_c_0_apply]

/-! ## The masked scores -/

/-- The hypothesis on the score column, as carried through this file. -/
abbrev ScoreHyp : Prop :=
  ∀ r : Fin 200001, val_main_v24 (F := Ideal) X W0 b0 W1 b1 ws (ix2 r (⟨0, by decide⟩ : Fin 1))
    = if h : r.val < 200000 then Cert.Spec.score X W0 b0 W1 b1 ws (Cert.Spec.nrow X ⟨r.val, h⟩) else Cert.Spec.sentinel X W0 b0 W1 b1 ws

/-- The mask column at a row is the mask at that row. -/
theorem idx25 (r : Fin 200001) : idx_main_v25 (ix2 r (⟨0, by decide⟩ : Fin 1)) = ix1 r :=
  funext fun a => by match a with | ⟨0, _⟩ => rfl

/-- Below the last row the masked score is the specification's masked score. -/
theorem col_lt (hs : ScoreHyp X W0 b0 W1 b1 ws) (r : Fin 200001) (h : r.val < 200000) :
    val_main_v26 (F := Ideal) A X W0 b0 W1 b1 ws (ix2 r (⟨0, by decide⟩ : Fin 1)) = Cert.Spec.masked A X W0 b0 W1 b1 ws ⟨r.val, h⟩ := by
  rw [val_main_v26_apply, val_main_v25_apply, val_main_call2_v0_apply, val_main_cst_3_apply, hs r, dif_pos h, idx25, mask_lt A r h]
  rfl

/-- At the last row it is the sentinel's score. -/
theorem col_last (hs : ScoreHyp X W0 b0 W1 b1 ws) (r : Fin 200001) (h : ¬ r.val < 200000) :
    val_main_v26 (F := Ideal) A X W0 b0 W1 b1 ws (ix2 r (⟨0, by decide⟩ : Fin 1)) = Cert.Spec.sentinel X W0 b0 W1 b1 ws := by
  rw [val_main_v26_apply, val_main_v25_apply, hs r, dif_neg h, idx25, mask_last A r h, select_one]

/-! ## The maximum -/

/-- A fold of the maximum over 200001 terms is below a bound exactly when its start, its first 200000 terms and its last term are. -/
theorem fold_le_iff (f : Fin 200001 → EReal) (b c : EReal) :
    (Finset.univ : Finset (Fin 200001)).fold (FloatOps.maximumf (F := Ideal) (φ := .f32)) b f ≤ c
      ↔ b ≤ c ∧ (∀ r : Fin 200000, f (Fin.castSucc r) ≤ c) ∧ f (Fin.last 200000) ≤ c := by
  refine (Finset.fold_max_le (s := (Finset.univ : Finset (Fin 200001))) (f := f) (b := b) c).trans ?_
  refine and_congr Iff.rfl ?_
  rw [← Fin.forall_fin_succ' (P := fun i => f i ≤ c)]
  exact ⟨fun H i => H i (Finset.mem_univ i), fun H i _ => H i⟩

/-- The index of the column with row k inserted above a rank-one index. -/
theorem lift_eq (hr : S200001x1.Reduces [0] S1) (j : S1.Idx) (k : Fin 200001) :
    hr.lift j k = ix2 k (⟨0, by decide⟩ : Fin 1) :=
  funext fun a => Fin.ext (by
    match a with
    | ⟨0, _⟩ => rfl
    | ⟨1, _⟩ => show (j 0).val = 0; have h0 : (j 0).val < 1 := (j 0).isLt; omega)

/-- The fold over the inserted row coordinate, written over the 200001 rows of the column. -/
theorem fold_col (g : S200001x1.Idx → EReal) (b : EReal) (hr : S200001x1.Reduces [0] S1) (j : S1.Idx) :
    (Finset.univ : Finset (Fin (S200001x1.size 0))).fold (FloatOps.maximumf (F := Ideal) (φ := .f32)) b (g ∘ hr.lift j)
      = (Finset.univ : Finset (Fin 200001)).fold (FloatOps.maximumf (F := Ideal) (φ := .f32)) b
          (fun k => g (ix2 k (⟨0, by decide⟩ : Fin 1))) :=
  congrArg (fun f : Fin 200001 → EReal => (Finset.univ : Finset (Fin 200001)).fold (FloatOps.maximumf (F := Ideal) (φ := .f32)) b f)
    (funext fun k => congrArg g (lift_eq hr j k))

/-- The reference's maximum is the specification's. -/
theorem top_eq (hs : ScoreHyp X W0 b0 W1 b1 ws) (j : S1.Idx) :
    val_main_v29 (F := Ideal) A X W0 b0 W1 b1 ws j = Cert.Spec.top A X W0 b0 W1 b1 ws := by
  refine Cert.Spec.eq_top_of_le_iff A X W0 b0 W1 b1 ws _ fun c => ?_
  rw [val_main_v29_apply, val_main_v28_apply, val_main_cst_5_apply, Ideal.maximumf_def, max_le_iff]
  have hr : S200001x1.Reduces [0] S1 := by decide
  have e1 : ∀ r : Fin 200000, val_main_v26 (F := Ideal) A X W0 b0 W1 b1 ws (ix2 (n0 := 200001) (Fin.castSucc r) (⟨0, by decide⟩ : Fin 1))
      = Cert.Spec.masked A X W0 b0 W1 b1 ws r := fun r => col_lt A X W0 b0 W1 b1 ws hs (Fin.castSucc r) r.isLt
  have e2 : val_main_v26 (F := Ideal) A X W0 b0 W1 b1 ws (ix2 (n0 := 200001) (Fin.last 200000) (⟨0, by decide⟩ : Fin 1))
      = Cert.Spec.sentinel X W0 b0 W1 b1 ws := col_last A X W0 b0 W1 b1 ws hs (Fin.last 200000) (Nat.lt_irrefl 200000)
  unfold val_main_v27
  generalize val_main_v26 (F := Ideal) A X W0 b0 W1 b1 ws = g at e1 e2 ⊢
  rw [Host.reduce_eq_fold_single FloatOps.maximumf _ _ reducesTo_S200001x1_S1_d0 hr h_S_ j, fold_col g _ hr j, val_main_cst_4_apply]
  refine (and_congr Iff.rfl (fold_le_iff _ _ c)).trans ?_
  constructor
  · rintro ⟨h0, _, h1, h2⟩
    exact ⟨h0, fun r => (e1 r).symm.trans_le (h1 r), e2.symm.trans_le h2⟩
  · rintro ⟨h0, h1, h2⟩
    exact ⟨h0, h0, fun r => (e1 r).trans_le (h1 r), e2.trans_le h2⟩

/-! ## The exponentials and their sum -/

/-- The broadcast maximum at any row is the specification's maximum. -/
theorem top_bcast (hs : ScoreHyp X W0 b0 W1 b1 ws) (i : S200001x1.Idx) :
    val_main_v31 (F := Ideal) A X W0 b0 W1 b1 ws i = Cert.Spec.top A X W0 b0 W1 b1 ws := by
  rw [val_main_v31_apply, val_main_v30_apply, top_eq A X W0 b0 W1 b1 ws hs]

/-- Below the last row the exponential is the column's. -/
theorem exp_lt (hs : ScoreHyp X W0 b0 W1 b1 ws) (r : Fin 200001) (h : r.val < 200000) :
    val_main_v33 (F := Ideal) A X W0 b0 W1 b1 ws (ix2 r (⟨0, by decide⟩ : Fin 1)) = Cert.Spec.ex A X W0 b0 W1 b1 ws ⟨r.val, h⟩ := by
  rw [val_main_v33_apply, val_main_v32_apply, top_bcast A X W0 b0 W1 b1 ws hs, col_lt A X W0 b0 W1 b1 ws hs r h]
  rfl

/-- At the last row it is the sentinel's. -/
theorem exp_last (hs : ScoreHyp X W0 b0 W1 b1 ws) (r : Fin 200001) (h : ¬ r.val < 200000) :
    val_main_v33 (F := Ideal) A X W0 b0 W1 b1 ws (ix2 r (⟨0, by decide⟩ : Fin 1)) = Cert.Spec.exS A X W0 b0 W1 b1 ws := by
  rw [val_main_v33_apply, val_main_v32_apply, top_bcast A X W0 b0 W1 b1 ws hs, col_last A X W0 b0 W1 b1 ws hs r h]
  rfl

/-- The index the sum reads at row k. -/
theorem idx34 (j : S1.Idx) (k : Fin 200001) : idx_main_v34 j k = ix2 k (⟨0, by decide⟩ : Fin 1) :=
  funext fun a => Fin.ext (by
    match a with
    | ⟨0, _⟩ => rfl
    | ⟨1, _⟩ => show (j 0).val = 0; have h0 : (j 0).val < 1 := (j 0).isLt; omega)

/-- The reference's sum of exponentials is the specification's denominator. -/
theorem total_eq (hs : ScoreHyp X W0 b0 W1 b1 ws) (j : S1.Idx) :
    val_main_v34 (F := Ideal) A X W0 b0 W1 b1 ws j = Cert.Spec.total A X W0 b0 W1 b1 ws := by
  rw [val_main_v34_apply, val_main_cst_6_apply, Ideal.ofBits_def, Ideal.ofBits_zero_f32, zero_add, Fin.sum_univ_castSucc]
  unfold Cert.Spec.total
  refine congrArg₂ (· + ·) (Finset.sum_congr rfl fun k _ => ?_) ?_
  · rw [idx34]; exact exp_lt A X W0 b0 W1 b1 ws hs (Fin.castSucc k) k.isLt
  · rw [idx34]; exact exp_last A X W0 b0 W1 b1 ws hs (Fin.last 200000) (Nat.lt_irrefl 200000)

/-- The broadcast sum at any row. -/
theorem total_bcast (hs : ScoreHyp X W0 b0 W1 b1 ws) (i : S200001x1.Idx) :
    val_main_v36 (F := Ideal) A X W0 b0 W1 b1 ws i = Cert.Spec.total A X W0 b0 W1 b1 ws := by
  rw [val_main_v36_apply, val_main_v35_apply, total_eq A X W0 b0 W1 b1 ws hs]

/-! ## The result -/

/-- The second mask column at a row is the mask at that row. -/
theorem idx38 (r : Fin 200001) : idx_main_v38 (ix2 r (⟨0, by decide⟩ : Fin 1)) = ix1 r :=
  funext fun a => by match a with | ⟨0, _⟩ => rfl

end

/-- Given the score column, the reference's result is the specification's, index by index. -/
theorem result_of_scores (A : (⟨S1x200000, .i32⟩ : BufTy).Contents (Elt Ideal)) (X : (⟨S200000x256, .f32⟩ : BufTy).Contents (Elt Ideal)) (W0 : (⟨S512x256, .f32⟩ : BufTy).Contents (Elt Ideal)) (b0 : (⟨S256, .f32⟩ : BufTy).Contents (Elt Ideal)) (W1 : (⟨S256x128, .f32⟩ : BufTy).Contents (Elt Ideal)) (b1 : (⟨S128, .f32⟩ : BufTy).Contents (Elt Ideal)) (ws : (⟨S128x1, .f32⟩ : BufTy).Contents (Elt Ideal))
    (hs : ∀ r : Fin 200001, Cert.ReferenceIdeal.ReadP.val_main_v24 (F := Ideal) X W0 b0 W1 b1 ws (ix2 r (⟨0, by decide⟩ : Fin 1))
      = if h : r.val < 200000 then Cert.Spec.score X W0 b0 W1 b1 ws (Cert.Spec.nrow X ⟨r.val, h⟩) else Cert.Spec.sentinel X W0 b0 W1 b1 ws) :
    Cert.ReferenceIdeal.ReadP.val_main_v39 (F := Ideal) A X W0 b0 W1 b1 ws = Cert.Spec.result A X W0 b0 W1 b1 ws := by
  funext j
  obtain ⟨r, rfl⟩ : ∃ r : Fin 200001, j = ix2 r (⟨0, by decide⟩ : Fin 1) :=
    ⟨j 0, funext fun a => by
      match a with
      | ⟨0, _⟩ => rfl
      | ⟨1, _⟩ => exact Fin.ext (by show (j 1).val = 0; have h1 : (j 1).val < 1 := (j 1).isLt; omega)⟩
  rw [val_main_v39_apply, val_main_v38_apply, val_main_v37_apply, total_bcast A X W0 b0 W1 b1 ws hs, val_main_call3_v1_apply,
    val_main_call3_v0_apply, val_main_cst_7_apply, Ideal.hostDivf_def, Ideal.ofBits_def, Ideal.ofBits_zero_f32, idx38]
  unfold Cert.Spec.result
  by_cases h : r.val < 200000
  · rw [mask_lt A r h, exp_lt A X W0 b0 W1 b1 ws hs r h]
    split
    · rfl
    · next h' => exact absurd h h'
  · rw [mask_last A r h, exp_last A X W0 b0 W1 b1 ws hs r h, select_one]
    split
    · next h' => exact absurd h' h
    · rfl

end

end Cert.RefSoftmax
-- ==== Proof.RefValue.lean ====
/-
  The reference program's result, at the extended reals, is the specification of its arguments: its run ends with the
  result buffer at its last operation's stage, which is the specification index by index — the three dense layers of
  the 200001 rows, then the masked softmax over them.
-/
import proofs.«420732_j53626961657857_3_alg».proof.Proof.RefRead
import proofs.«420732_j53626961657857_3_alg».proof.Proof.RefScores
import proofs.«420732_j53626961657857_3_alg».proof.Proof.RefSoftmax
import proofs.«420732_j53626961657857_3_alg».proof.Proof.Spec

noncomputable section

namespace Cert.ReferenceIdeal.RefValue

open Cert.ReferenceIdeal Cert.ReferenceIdeal.Gen
open Idealize.ShloMosaic Idealize.ShloMosaic.TcCoe Idealize.SL.Sem

variable (m : (ℓ : Loc nD τ sig) → Buf (Elt Ideal) ℓ) (ρ : Dev nD → PrngReg)

/-- The specification at this launch's argument arrays. -/
abbrev spec (c : Dev nD) : S200001x1.Idx → EReal := Cert.Spec.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- The reference's run: it ends, the result buffer holds the specification of the argument arrays, and the argument
    arrays are as launched. -/
theorem run : θ_run defs (onTc (τ := τ) (main (F := Ideal))) ⟨m, fun _ => 0, ρ⟩ (fun r => ∀ c : Dev nD,
      r.2.mem ((c.tc : Thread nD τ).loc main_v39) = spec m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).1.trans ((Cert.ReferenceIdeal.ReadP.val_main_v39_eq (F := Ideal) m c).trans
      (Cert.RefSoftmax.result_of_scores _ _ _ _ _ _ _ (Cert.RefScores.scores_apply _ _ _ _ _ _))), (h c).2⟩)
    (Cert.ReferenceIdeal.ValueP.run (F := Ideal) m ρ)

end Cert.ReferenceIdeal.RefValue

end
-- ==== Proof.lean ====
/-
  The certificate of the row-score kernel against its jnp reference: five claims.

  The kernel scores every node's neighbour row through two dense layers and a scoring row, fifty tiles of 4000 rows at a
  time, masks the columns whose adjacency word is zero with a fill of -1e30, and hands the host the masked scores and
  one maximum per tile; the host adds the sentinel row (the zero neighbour row, never masked), takes the maximum of the
  tile maxima and the sentinel, and forms the softmax with the maximum subtracted, setting masked columns to zero. The
  reference builds all 200001 rows at once (node 0's neighbour row overwritten by zeros, one zero row appended), runs
  the same two layers on the concatenation of feature row 0 with each neighbour row, and takes the masked softmax over
  the 200001 scores in one pass.

  frame_Kernel, frame_KernelIdeal: the kernel's body is run once per control case (the first grid point, where it
    overwrites row 0 of the block it was handed in that block's own buffer, and every other point), for every float
    instance; the pipeline's launch and the host lines around it are the library's. The argument arrays end unchanged.
  frame_ReferenceIdeal: the reference's run with its result dropped.
  preserves_Kernel_KernelIdeal: the idealization rewrote nothing.
  algebraic_KernelIdeal_ReferenceIdeal: on the extended reals both programs end with the result buffer at ONE function of
    the argument arrays (Proof/Spec.lean). The two differ only in arrangement — a sum over 512 against two sums over
    256, the self contribution added after the bias instead of inside the product, the scoring product's factors
    swapped, the maximum of tile maxima against one maximum, the sentinel's term added to the sum instead of being its
    last term —, which commutativity and associativity of addition and multiplication, and the least-upper-bound
    property of max, settle without any appeal to finiteness.
-/
import proofs.«420732_j53626961657857_3_alg».proof.Defs
import proofs.«420732_j53626961657857_3_alg».proof.Proof.Gen.Kernel
import proofs.«420732_j53626961657857_3_alg».proof.Proof.Gen.KernelIdeal
import proofs.«420732_j53626961657857_3_alg».proof.Proof.Gen.ReferenceIdeal
import proofs.«420732_j53626961657857_3_alg».proof.Proof.Gen.Pre_finite_inputs
import proofs.«420732_j53626961657857_3_alg».proof.Proof.Frame
import proofs.«420732_j53626961657857_3_alg».proof.Proof.FrameI
import proofs.«420732_j53626961657857_3_alg».proof.Proof.KernelValue
import proofs.«420732_j53626961657857_3_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs, faults nowhere, and leaves its arguments as launched. -/
theorem frame_k : Cert.frame_Kernel := fun m ρ _ => Cert.Kernel.Body.frame m ρ

/-- So does its idealization. -/
theorem frame_ki : Cert.frame_KernelIdeal := fun m ρ _ => Cert.KernelIdeal.Body.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both idealized programs end with their result at the specification of the arguments, which agree. -/
theorem algebraic : Cert.algebraic_KernelIdeal_ReferenceIdeal := by
  intro m ρ m' ρ' _ hagree
  refine ⟨fun c => Cert.KernelIdeal.Value.spec m c, Cert.KernelIdeal.Value.run m ρ, ?_⟩
  refine (θ_run Cert.ReferenceIdeal.defs _ _).mono (fun _ h c => ⟨(h c).1.trans ?_, (h c).2⟩)
    (Cert.ReferenceIdeal.RefValue.run m' ρ')
  show Cert.Spec.result _ _ _ _ _ _ _ = Cert.Spec.result _ _ _ _ _ _ _
  rw [(hagree c).1, (hagree c).2.1, (hagree c).2.2.1, (hagree c).2.2.2.1, (hagree c).2.2.2.2.1, (hagree c).2.2.2.2.2.1,
    (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
